-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S512x1024 : Shape := ⟨2, ![512, 1024]⟩
abbrev S16384 : Shape := ⟨1, ![16384]⟩
abbrev S16384x32 : Shape := ⟨2, ![16384, 32]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S16384 : S_.BroadcastsInDim S16384 (![] : Fin 0 → Fin S16384.rank)
  reducesTo_S16384_S_d0 : S16384.ReducesTo [0] S_
  bcast_S_S16384x32 : S_.BroadcastsInDim S16384x32 (![] : Fin 0 → Fin S16384x32.rank)
  reducesTo_S16384x32_S_d0_1 : S16384x32.ReducesTo [0, 1] S_

variable [Facts]

def fn_part1 {F : FTy → Type} [FloatOps F] (main_arg3 : IVec S16384x32 32) (main_v15 : IVec S_ 1) (main_c_5 : IVec S_ 32) : IVec S_ 1 :=
  let main_v16 : IVec S16384x32 32 := broadcastInDim S16384x32 ![] bcast_S_S16384x32 main_c_5
  let main_v17 : IVec S16384x32 1 := cmpi .sge main_arg3 main_v16
  let main_c_6 : IVec S_ 32 := constantI S_ 32 100000#32
  let main_v18 : IVec S16384x32 32 := broadcastInDim S16384x32 ![] bcast_S_S16384x32 main_c_6
  let main_v19 : IVec S16384x32 1 := cmpi .slt main_arg3 main_v18
  let main_v20 : IVec S16384x32 1 := andi main_v17 main_v19
  let main_c_7 : IVec S_ 1 := constantI S_ 1 1#1
  let main_v21 : IVec S_ 1 := (fun x v => Host.reduce IntOp.andi x v reducesTo_S16384x32_S_d0_1 h_S_) main_v20 main_c_7
  let main_v22 : IVec S_ 1 := andi main_v15 main_v21
  main_v22

def fn {F : FTy → Type} [FloatOps F] (main_arg0 : FVec F S100000x512 .f32) (main_arg1 : FVec F S512x1024 .f32) (main_arg2 : IVec S16384 32) (main_arg3 : IVec S16384x32 32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x1024 .f32 := Host.absf main_arg1
  let main_cst_0 : FVec F S_ .f32 := constant S_ .f32 0x7F800000#32
  let main_v5 : FVec F S512x1024 .f32 := broadcastInDim S512x1024 ![] bcast_S_S512x1024 main_cst_0
  let main_v6 : IVec S512x1024 1 := cmpf .olt main_v4 main_v5
  let main_c_1 : IVec S_ 1 := constantI S_ 1 1#1
  let main_v7 : IVec S_ 1 := (fun x v => Host.reduce IntOp.andi x v reducesTo_S512x1024_S_d0_1 h_S_) main_v6 main_c_1
  let main_v8 : IVec S_ 1 := andi main_v3 main_v7
  let main_c_2 : IVec S_ 32 := constantI S_ 32 0#32
  let main_v9 : IVec S16384 32 := broadcastInDim S16384 ![] bcast_S_S16384 main_c_2
  let main_v10 : IVec S16384 1 := cmpi .sge main_arg2 main_v9
  let main_c_3 : IVec S_ 32 := constantI S_ 32 100000#32
  let main_v11 : IVec S16384 32 := broadcastInDim S16384 ![] bcast_S_S16384 main_c_3
  let main_v12 : IVec S16384 1 := cmpi .slt main_arg2 main_v11
  let main_v13 : IVec S16384 1 := andi main_v10 main_v12
  let main_c_4 : IVec S_ 1 := constantI S_ 1 1#1
  let main_v14 : IVec S_ 1 := (fun x v => Host.reduce IntOp.andi x v reducesTo_S16384_S_d0 h_S_) main_v13 main_c_4
  let main_v15 : IVec S_ 1 := andi main_v8 main_v14
  let main_c_5 : IVec S_ 32 := constantI S_ 32 0#32
  fn_part1 (F := F) main_arg3 main_v15 main_c_5
-- ==== Kernel.lean ====
abbrev S100000x512 : Shape := ⟨2, ![100000, 512]⟩
abbrev S512x1024 : Shape := ⟨2, ![512, 1024]⟩
abbrev S16384 : Shape := ⟨1, ![16384]⟩
abbrev S16384x32 : Shape := ⟨2, ![16384, 32]⟩
abbrev S_ : Shape := ⟨0, ![]⟩
abbrev S100352x512 : Shape := ⟨2, ![100352, 512]⟩
abbrev S16x1x1024 : Shape := ⟨3, ![16, 1, 1024]⟩
abbrev S16x1024x32 : Shape := ⟨3, ![16, 1024, 32]⟩
abbrev S16x32x1024 : Shape := ⟨3, ![16, 32, 1024]⟩
abbrev S16x7x1024 : Shape := ⟨3, ![16, 7, 1024]⟩
abbrev S16x40x1024 : Shape := ⟨3, ![16, 40, 1024]⟩
abbrev S512x512 : Shape := ⟨2, ![512, 512]⟩
abbrev S512x16384 : Shape := ⟨2, ![512, 16384]⟩
abbrev S1x40x1024 : Shape := ⟨3, ![1, 40, 1024]⟩
abbrev S1024x512 : Shape := ⟨2, ![1024, 512]⟩
abbrev S1024x1024 : Shape := ⟨2, ![1024, 1024]⟩
abbrev S1x1024 : Shape := ⟨2, ![1, 1024]⟩
abbrev S40x1024 : Shape := ⟨2, ![40, 1024]⟩
abbrev S1024 : Shape := ⟨1, ![1024]⟩
abbrev S1024x1 : Shape := ⟨2, ![1024, 1]⟩

abbrev nBuf : Space → Nat
  | .hbm => 22
  | .vmem => 11
  | .smem => 0
  | _ => 0

abbrev bufTy : (tb : Table) → Fin (tcTables nBuf tb) → BufTy
  | .hbm, ⟨0, _⟩ => ⟨S100000x512, .f32⟩
  | .hbm, ⟨1, _⟩ => ⟨S512x1024, .f32⟩
  | .hbm, ⟨2, _⟩ => ⟨S16384, .i32⟩
  | .hbm, ⟨3, _⟩ => ⟨S16384x32, .i32⟩
  | .hbm, ⟨4, _⟩ => ⟨S100000x512, .bf16⟩
  | .hbm, ⟨5, _⟩ => ⟨S_, .i32⟩
  | .hbm, ⟨6, _⟩ => ⟨S_, .bf16⟩
  | .hbm, ⟨7, _⟩ => ⟨S100352x512, .bf16⟩
  | .hbm, ⟨8, _⟩ => ⟨S16x1x1024, .i32⟩
  | .hbm, ⟨9, _⟩ => ⟨S16x1024x32, .i32⟩
  | .hbm, ⟨10, _⟩ => ⟨S16x32x1024, .i32⟩
  | .hbm, ⟨11, _⟩ => ⟨S_, .i32⟩
  | .hbm, ⟨12, _⟩ => ⟨S16x7x1024, .i32⟩
  | .hbm, ⟨13, _⟩ => ⟨S16x40x1024, .i32⟩
  | .hbm, ⟨14, _⟩ => ⟨S512x512, .f32⟩
  | .hbm, ⟨15, _⟩ => ⟨S512x512, .bf16⟩
  | .hbm, ⟨16, _⟩ => ⟨S512x512, .f32⟩
  | .hbm, ⟨17, _⟩ => ⟨S_, .f32⟩
  | .hbm, ⟨18, _⟩ => ⟨S512x512, .f32⟩
  | .hbm, ⟨19, _⟩ => ⟨S512x512, .f32⟩
  | .hbm, ⟨20, _⟩ => ⟨S512x512, .bf16⟩
  | .hbm, ⟨21, _⟩ => ⟨S512x16384, .f32⟩
  | .local _ .vmem, ⟨0, _⟩ => ⟨S1x40x1024, .i32⟩
  | .local _ .vmem, ⟨1, _⟩ => ⟨S1x40x1024, .i32⟩
  | .local _ .vmem, ⟨2, _⟩ => ⟨S1024x512, .bf16⟩
  | .local _ .vmem, ⟨3, _⟩ => ⟨S1024x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .f32⟩
  | .local _ .vmem, ⟨7, _⟩ => ⟨S512x1024, .f32⟩
  | .local _ .vmem, ⟨8, _⟩ => ⟨S1024x512, .f32⟩
  | .local _ .vmem, ⟨9, _⟩ => ⟨S1024x512, .f32⟩
  | .local _ .vmem, ⟨10, _⟩ => ⟨S1024x1024, .i32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![16, 98], ![false, false]⟩

def k0_cond2 (i : grid0.Coords) : BitVec 1 :=
  let arg1 : BitVec 32 := BitVec.ofNat 32 (i 1).val
  let c97_i32 : BitVec 32 := 97#32
  let v422 : BitVec 1 := Scalar.cmpi .eq arg1 c97_i32
  let v423 : BitVec 32 := Scalar.extui v422
  let c0_i32_147 : BitVec 32 := 0#32
  let v424 : BitVec 1 := Scalar.cmpi .ne v423 c0_i32_147
  v424

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1x40x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bitsLt_bf16_f32 : FTy.bits .bf16 < FTy.bits .f32
  pads_S100000x512_S100352x512_03520_000 : S100000x512.Pads (![0, 0] : Fin 2 → Nat) ![352, 0] ![0, 0] S100352x512
  h_S_ : 0 < S_.numel
  shapeCasts_S16384_S16x1x1024 : S16384.ShapeCasts S16x1x1024
  shapeCasts_S16384x32_S16x1024x32 : S16384x32.ShapeCasts S16x1024x32
  transposes_S16x1024x32_S16x32x1024_0_2_1 : S16x1024x32.Transposes [0, 2, 1] S16x32x1024
  bcast_S_S16x7x1024 : S_.BroadcastsInDim S16x7x1024 (![] : Fin 0 → Fin S16x7x1024.rank)
  concatenates_S16x1x1024_S16x32x1024_S16x7x1024_S16x40x1024_d1 : Shape.Concatenates [S16x1x1024, S16x32x1024, S16x7x1024] S16x40x1024 1
  slices_S512x1024_S512x512_0_0 : S512x1024.Slices ![0, 0] S512x512
  slices_S512x1024_S512x512_0_512 : S512x1024.Slices ![0, 512] S512x512
  bcast_S_S512x512 : S_.BroadcastsInDim S512x512 (![] : Fin 0 → Fin S512x512.rank)
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  iota_S1x1024_d1_w32 : S1x1024.Iotas .tc 32 [1]
  inb_S1x40x1024_S1x40x1024_0_0_0 : ∀ a, (![0, 0, 0] : Fin 3 → Nat) a + S1x40x1024.size a ≤ S1x40x1024.size a
  h_S1x40x1024 : 0 < S1x40x1024.numel
  shapeCasts_S1x40x1024_S40x1024 : S1x40x1024.ShapeCasts S40x1024
  slices_S40x1024_o0_0_S1x1024 : S40x1024.Slices ![0, 0] S1x1024
  shapeCasts_S1x1024_S1024 : S1x1024.ShapeCasts S1024
  shapeCasts_S1024_S1024x1 : S1024.ShapeCasts S1024x1
  broadcasts_S1024x1_S1024x1024 : S1024x1.Broadcasts S1024x1024
  broadcasts_S1x1024_S1024x1024 : S1x1024.Broadcasts S1024x1024
  natLt_1_32 : 1 < 32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  slices_S40x1024_o1_0_S1x1024 : S40x1024.Slices ![1, 0] S1x1024
  slices_S40x1024_o2_0_S1x1024 : S40x1024.Slices ![2, 0] S1x1024
  slices_S40x1024_o3_0_S1x1024 : S40x1024.Slices ![3, 0] S1x1024
  slices_S40x1024_o4_0_S1x1024 : S40x1024.Slices ![4, 0] S1x1024
  slices_S40x1024_o5_0_S1x1024 : S40x1024.Slices ![5, 0] S1x1024
  slices_S40x1024_o6_0_S1x1024 : S40x1024.Slices ![6, 0] S1x1024
  slices_S40x1024_o7_0_S1x1024 : S40x1024.Slices ![7, 0] S1x1024
  slices_S40x1024_o8_0_S1x1024 : S40x1024.Slices ![8, 0] S1x1024
  slices_S40x1024_o9_0_S1x1024 : S40x1024.Slices ![9, 0] S1x1024
  slices_S40x1024_o10_0_S1x1024 : S40x1024.Slices ![10, 0] S1x1024
  slices_S40x1024_o11_0_S1x1024 : S40x1024.Slices ![11, 0] S1x1024
  slices_S40x1024_o12_0_S1x1024 : S40x1024.Slices ![12, 0] S1x1024
  slices_S40x1024_o13_0_S1x1024 : S40x1024.Slices ![13, 0] S1x1024
  slices_S40x1024_o14_0_S1x1024 : S40x1024.Slices ![14, 0] S1x1024
  slices_S40x1024_o15_0_S1x1024 : S40x1024.Slices ![15, 0] S1x1024
  slices_S40x1024_o16_0_S1x1024 : S40x1024.Slices ![16, 0] S1x1024
  slices_S40x1024_o17_0_S1x1024 : S40x1024.Slices ![17, 0] S1x1024
  slices_S40x1024_o18_0_S1x1024 : S40x1024.Slices ![18, 0] S1x1024
  slices_S40x1024_o19_0_S1x1024 : S40x1024.Slices ![19, 0] S1x1024
  slices_S40x1024_o20_0_S1x1024 : S40x1024.Slices ![20, 0] S1x1024
  slices_S40x1024_o21_0_S1x1024 : S40x1024.Slices ![21, 0] S1x1024
  slices_S40x1024_o22_0_S1x1024 : S40x1024.Slices ![22, 0] S1x1024
  slices_S40x1024_o23_0_S1x1024 : S40x1024.Slices ![23, 0] S1x1024
  slices_S40x1024_o24_0_S1x1024 : S40x1024.Slices ![24, 0] S1x1024
  slices_S40x1024_o25_0_S1x1024 : S40x1024.Slices ![25, 0] S1x1024
  slices_S40x1024_o26_0_S1x1024 : S40x1024.Slices ![26, 0] S1x1024
  slices_S40x1024_o27_0_S1x1024 : S40x1024.Slices ![27, 0] S1x1024
  slices_S40x1024_o28_0_S1x1024 : S40x1024.Slices ![28, 0] S1x1024
  slices_S40x1024_o29_0_S1x1024 : S40x1024.Slices ![29, 0] S1x1024
  slices_S40x1024_o30_0_S1x1024 : S40x1024.Slices ![30, 0] S1x1024
  slices_S40x1024_o31_0_S1x1024 : S40x1024.Slices ![31, 0] S1x1024
  slices_S40x1024_o32_0_S1x1024 : S40x1024.Slices ![32, 0] S1x1024
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x1024_S512x1024_0_0 : ∀ a, (![0, 0] : Fin 2 → Nat) a + S512x1024.size a ≤ S512x1024.size a
  h_S512x1024 : 0 < S512x1024.numel
  dot_S1024x1024_S1024x512_S1024x512_1_0_0_1_n_n_wf : DotDims.WF S1024x1024 S1024x512 S1024x512 [1] [0] [0] [1] [] []
  dot_S512x512_S1024x512_S512x1024_1_1_0_0_n_n_wf : DotDims.WF S512x512 S1024x512 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x40x1024.size a ≤ S16x40x1024.size a
  hwx0_0 : ∀ i : grid0.Coords, EltTy.bits .i32 = 32 ∨ (Rect.block (s := S16x40x1024) S1x40x1024.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S100352x512.size a
  hwx0_1 : ∀ i : grid0.Coords, EltTy.bits .bf16 = 32 ∨ (Rect.block (s := S100352x512) S1024x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .bf16 = 32 ∨ (Rect.block (s := S512x512) S512x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S512x16384.size a
  hwx0_4 : ∀ i : grid0.Coords, EltTy.bits .f32 = 32 ∨ (Rect.block (s := S512x16384) S512x1024.size (cc0_transform_4 i) (hinb0_4 i)).WholeWords (EltTy.packing .f32)

variable [Facts₀]

def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S512x512_S1024x512_S512x1024_1_1_0_0_n_n : DotDims S512x512 S1024x512 S512x1024 where
  lhsContracting := [1]
  rhsContracting := [1]
  lhsNonContracting := [0]
  rhsNonContracting := [0]
  lhsBatch := []
  rhsBatch := []
  wf := dot_S512x512_S1024x512_S512x1024_1_1_0_0_n_n_wf

abbrev win0_0 : Pipeline.Window sig grid0 :=
  Pipeline.Window.ofSpec (Memref.whole main_v6) S1x40x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S512x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S100000x512 : Shape := ⟨2, ![100000, 512]⟩
abbrev S512x1024 : Shape := ⟨2, ![512, 1024]⟩
abbrev S16384 : Shape := ⟨1, ![16384]⟩
abbrev S16384x32 : Shape := ⟨2, ![16384, 32]⟩
abbrev S_ : Shape := ⟨0, ![]⟩
abbrev S16384x32x1 : Shape := ⟨3, ![16384, 32, 1]⟩
abbrev S16384x32x512 : Shape := ⟨3, ![16384, 32, 512]⟩
abbrev S16384x512 : Shape := ⟨2, ![16384, 512]⟩
abbrev S16384x1 : Shape := ⟨2, ![16384, 1]⟩
abbrev S16384x1024 : Shape := ⟨2, ![16384, 1024]⟩
abbrev S1024x16384 : Shape := ⟨2, ![1024, 16384]⟩
abbrev S512x16384 : Shape := ⟨2, ![512, 16384]⟩

abbrev nBuf : Space → Nat
  | .hbm => 33
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S512x1024, .f32⟩
  | .hbm, ⟨2, _⟩ => ⟨S16384, .i32⟩
  | .hbm, ⟨3, _⟩ => ⟨S16384x32, .i32⟩
  | .hbm, ⟨4, _⟩ => ⟨S_, .i32⟩
  | .hbm, ⟨5, _⟩ => ⟨S16384x32, .i32⟩
  | .hbm, ⟨6, _⟩ => ⟨S16384x32, .i1⟩
  | .hbm, ⟨7, _⟩ => ⟨S_, .i32⟩
  | .hbm, ⟨8, _⟩ => ⟨S16384x32, .i32⟩
  | .hbm, ⟨9, _⟩ => ⟨S16384x32, .i32⟩
  | .hbm, ⟨10, _⟩ => ⟨S16384x32, .i32⟩
  | .hbm, ⟨11, _⟩ => ⟨S16384x32x1, .i32⟩
  | .hbm, ⟨12, _⟩ => ⟨S16384x32x512, .f32⟩
  | .hbm, ⟨13, _⟩ => ⟨S_, .f32⟩
  | .hbm, ⟨14, _⟩ => ⟨S16384x512, .f32⟩
  | .hbm, ⟨15, _⟩ => ⟨S_, .f32⟩
  | .hbm, ⟨16, _⟩ => ⟨S16384x512, .f32⟩
  | .hbm, ⟨17, _⟩ => ⟨S16384x512, .f32⟩
  | .hbm, ⟨18, _⟩ => ⟨S_, .i32⟩
  | .hbm, ⟨19, _⟩ => ⟨S16384, .i32⟩
  | .hbm, ⟨20, _⟩ => ⟨S16384, .i1⟩
  | .hbm, ⟨21, _⟩ => ⟨S_, .i32⟩
  | .hbm, ⟨22, _⟩ => ⟨S16384, .i32⟩
  | .hbm, ⟨23, _⟩ => ⟨S16384, .i32⟩
  | .hbm, ⟨24, _⟩ => ⟨S16384, .i32⟩
  | .hbm, ⟨25, _⟩ => ⟨S16384x1, .i32⟩
  | .hbm, ⟨26, _⟩ => ⟨S16384x512, .f32⟩
  | .hbm, ⟨27, _⟩ => ⟨S16384x1024, .f32⟩
  | .hbm, ⟨28, _⟩ => ⟨S1024x16384, .f32⟩
  | .hbm, ⟨29, _⟩ => ⟨S512x16384, .f32⟩
  | .hbm, ⟨30, _⟩ => ⟨S_, .f32⟩
  | .hbm, ⟨31, _⟩ => ⟨S512x16384, .f32⟩
  | .hbm, ⟨32, _⟩ => ⟨S512x16384, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_c_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_call0_cst : Ref sig .tc := ⟨.hbm, 30, rfl⟩
abbrev main_call0_v0 : Ref sig .tc := ⟨.hbm, 31, rfl⟩
abbrev main_v20 : Ref sig .tc := ⟨.hbm, 32, rfl⟩

abbrev nD : Nat := 1
abbrev τ : Topo := Topo.v7x

variable {F : FTy → Type} [FloatOps F]

class Facts₀ : Prop where
  bcast_S_S16384x32 : S_.BroadcastsInDim S16384x32 (![] : Fin 0 → Fin S16384x32.rank)
  bcast_S16384x32_S16384x32x1_0_1 : S16384x32.BroadcastsInDim S16384x32x1 (![0, 1] : Fin 2 → Fin S16384x32x1.rank)
  reducesTo_S16384x32x512_S16384x512_d1 : S16384x32x512.ReducesTo [1] S16384x512
  h_S_ : 0 < S_.numel
  bcast_S_S16384x512 : S_.BroadcastsInDim S16384x512 (![] : Fin 0 → Fin S16384x512.rank)
  bcast_S_S16384 : S_.BroadcastsInDim S16384 (![] : Fin 0 → Fin S16384.rank)
  bcast_S16384_S16384x1_0 : S16384.BroadcastsInDim S16384x1 (![0] : Fin 1 → Fin S16384x1.rank)
  concatenates_S16384x512_S16384x512_S16384x1024_d1 : Shape.Concatenates [S16384x512, S16384x512] S16384x1024 1
  transposes_S16384x1024_S1024x16384_1_0 : S16384x1024.Transposes [1, 0] S1024x16384
  bcast_S_S512x16384 : S_.BroadcastsInDim S512x16384 (![] : Fin 0 → Fin S512x16384.rank)
  gather_S100000x512_S16384x32x1_S16384x32x512_2_0_n_n_0_2_1512_wf : GatherDims.WF S100000x512 S16384x32x1 S16384x32x512 [2] [0] [] [0] [] 2 ![1, 512]
  gather_S100000x512_S16384x1_S16384x512_1_0_n_n_0_1_1512_wf : GatherDims.WF S100000x512 S16384x1 S16384x512 [1] [0] [] [0] [] 1 ![1, 512]
  dot_S512x1024_S1024x16384_S512x16384_1_0_0_1_n_n_wf : DotDims.WF S512x1024 S1024x16384 S512x16384 [1] [0] [0] [1] [] []

variable [Facts₀]

def gather_S100000x512_S16384x32x1_S16384x32x512_2_0_n_n_0_2_1512 : GatherDims S100000x512 S16384x32x1 S16384x32x512 where
  offsetDims := [2]
  collapsedSliceDims := [0]
  operandBatchingDims := []
  startIndicesBatchingDims := []
  startIndexMap := [0]
  indexVectorDim := 2
  sliceSizes := ![1, 512]
  wf := gather_S100000x512_S16384x32x1_S16384x32x512_2_0_n_n_0_2_1512_wf
def gather_S100000x512_S16384x1_S16384x512_1_0_n_n_0_1_1512 : GatherDims S100000x512 S16384x1 S16384x512 where
  offsetDims := [1]
  collapsedSliceDims := [0]
  operandBatchingDims := []
  startIndicesBatchingDims := []
  startIndexMap := [0]
  indexVectorDim := 1
  sliceSizes := ![1, 512]
  wf := gather_S100000x512_S16384x1_S16384x512_1_0_n_n_0_1_1512_wf
def dot_S512x1024_S1024x16384_S512x16384_1_0_0_1_n_n : DotDims S512x1024 S1024x16384 S512x16384 where
  lhsContracting := [1]
  rhsContracting := [0]
  lhsNonContracting := [0]
  rhsNonContracting := [1]
  lhsBatch := []
  rhsBatch := []
  wf := dot_S512x1024_S1024x16384_S512x16384_1_0_0_1_n_n_wf

class Facts : Prop extends Facts₀ where

variable [Facts]
-- ==== Proof.FrameKernel.Kit.lean ====
/- The frame of the one pallas_call of this program, first part: @main up to the region (three stretches of host
   lines, then the region), the contents every buffer has when the region is entered, each window's block at a grid
   point, the two conditions of the body decided over the 16 x 98 grid (the accumulators are zeroed where the second
   coordinate is 0, the output block is stored where it is 97), where the output window is idle, and the region's
   invariant with the three scratch buffers as memrefs. -/
import proofs.«417351_j43052752175741_3_alg».proof.Proof.Gen.Kernel.Launch
import proofs.«417351_j43052752175741_3_alg».proof.Proof.Gen.Kernel.Skeleton
import proofs.«417351_j43052752175741_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffers when the region is entered: after the host lines before it. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

/-- @main is the host lines and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- No host line before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.unary, StableHlo.TRef.binary, Finset.mem_singleton]
    repeat' apply And.intro
    all_goals exact StableHlo.devRef_ne_of_ne (by decide)))
/-- No host line before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.unary, StableHlo.TRef.binary, Finset.mem_singleton]
    repeat' apply And.intro
    all_goals exact StableHlo.devRef_ne_of_ne (by decide)))
/-- No host line before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.unary, StableHlo.TRef.binary, Finset.mem_singleton]
    repeat' apply And.intro
    all_goals exact StableHlo.devRef_ne_of_ne (by decide)))
/-- No host line before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.unary, StableHlo.TRef.binary, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The four argument arrays are no window's array: they end as the region found them, which is as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) h

/-! ## The body's two conditions -/

/-- The first `scf.if`: the second grid coordinate is 0 (the accumulators are zeroed). -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 98 = 0 :=
  (by decide +kernel : ∀ t : Fin grid0.N, cond0_0 (grid0.coords t) ↔ t.val % 98 = 0)

/-- The second: the second grid coordinate is 97 (the output block is stored). -/
abbrev cond0_1 (i : grid0.Coords) : Prop := k0_cond2 i = 1#1
theorem hcond0_1 : ∀ t : Fin cfg0.N, cond0_1 (grid0.coords t) ↔ t.val % 98 = 97 :=
  (by decide +kernel : ∀ t : Fin grid0.N, cond0_1 (grid0.coords t) ↔ t.val % 98 = 97)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Where the output block is not stored the output window is idle and is not written back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4 : ∀ t : Fin cfg0.N, cond0_1 (grid0.coords t) → cfg0.idle 4 (grid0.coords t) = false := by decide +kernel

/-! ## The staging and scratch memrefs -/

abbrev VO0_4 : View sig .tc .vmem S512x1024 .f32 := (Memref.whole cc0_stg4_0 : Memref sig .tc .vmem S512x1024 .f32).view
abbrev ms0_0 (t : Fin cfg0.N) : Memref sig .tc .vmem S1x40x1024 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x1024 .f32 := win0_4.stage (cfg0.slots t 4)
abbrev hs0_4 (t : Fin cfg0.N) : (ms0_4 t).IsWhole := hstage0_4 ((cfg0.slots t 4).cast nbuf0_4)
/-- The three scratch operands: the two accumulators the kernel carries from point to point, and the hit counts it
    rebuilds at every point. -/
abbrev scM0_0 : Memref sig .tc .vmem S1024x512 .f32 := Memref.whole cc0_scratch0
abbrev scM0_1 : Memref sig .tc .vmem S1024x512 .f32 := Memref.whole cc0_scratch1
abbrev scM0_2 : Memref sig .tc .vmem S1024x1024 .i32 := Memref.whole cc0_scratch2
abbrev VS0_0 : View sig .tc .vmem S1024x512 .f32 := scM0_0.view
abbrev VS0_1 : View sig .tc .vmem S1024x512 .f32 := scM0_1.view

/-- The class's invariant with the scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Kernel.Gen

end
-- ==== Proof.FrameKernel.RunA.lean ====
/- The kernel body at a point whose second grid coordinate is 0: both accumulators are zeroed whatever they held, then the point's one-hot product is added to the first and the hit-count product to the second; nothing is stored into the output block. What each accumulator ends with is found by running the body. -/
import proofs.«417351_j43052752175741_3_alg».proof.Proof.FrameKernel.Kit

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_A (c : Dev nD) (i : grid0.Coords) (arg2 : Memref sig .tc .vmem S1x40x1024 .i32) (harg2 : arg2.IsWhole) (arg3 : Memref sig .tc .vmem S1024x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x1024 .f32) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x1024 .i32) (harg9 : arg9.IsWhole) (hc0 : cond0_0 i) (hc1 : ¬cond0_1 i)
    (x0 : Vec F S1x40x1024 .i32) (x1 : Vec F S1024x512 .bf16) (x2 : Vec F S512x512 .bf16) (x3 : Vec F S512x512 .bf16) :
    Σ' (LS0 : List (View.Piece (Elt F) S1024x512 .f32)), { LS1 : List (View.Piece (Elt F) S1024x512 .f32) //
      ∀ (xi4 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} f)) -∗ K ⟨⟩))
          ⊢ wp frame (wpE (defs₀ (F := F)) Variants.none c none) E (cc0__gnn_kernel i arg2 harg2 arg3 harg3 arg4 harg4 arg5 harg5 arg6 harg6 arg7 harg7 arg8 harg8 arg9 harg9) K } := by
  refine ⟨?_, ?_, fun xi4 E K => ?run⟩
  case run =>
    simp only [cc0__gnn_kernel_eq_skeleton]; unfold cc0__gnn_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

end Cert.Kernel.Gen

end
-- ==== Proof.FrameKernel.RunB.lean ====
/- The kernel body at a point whose second grid coordinate is neither 0 nor 97: the point's one-hot product is added to the first accumulator and the hit-count product to the second, over what the point before left in them; nothing is stored into the output block. -/
import proofs.«417351_j43052752175741_3_alg».proof.Proof.FrameKernel.RunA

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_B (c : Dev nD) (i : grid0.Coords) (arg2 : Memref sig .tc .vmem S1x40x1024 .i32) (harg2 : arg2.IsWhole) (arg3 : Memref sig .tc .vmem S1024x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x1024 .f32) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x1024 .i32) (harg9 : arg9.IsWhole) (hc0 : ¬cond0_0 i) (hc1 : ¬cond0_1 i)
    (x0 : Vec F S1x40x1024 .i32) (x1 : Vec F S1024x512 .bf16) (x2 : Vec F S512x512 .bf16) (x3 : Vec F S512x512 .bf16) (xs0 xs1 : Vec F S1024x512 .f32) :
    Σ' (LS0 : List (View.Piece (Elt F) S1024x512 .f32)), { LS1 : List (View.Piece (Elt F) S1024x512 .f32) //
      ∀ (xi4 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ owns (c : Thread nD τ) arg7 fullShare xs0 ∗ owns (c : Thread nD τ) arg8 fullShare xs1 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} f)) -∗ K ⟨⟩))
          ⊢ wp frame (wpE (defs₀ (F := F)) Variants.none c none) E (cc0__gnn_kernel i arg2 harg2 arg3 harg3 arg4 harg4 arg5 harg5 arg6 harg6 arg7 harg7 arg8 harg8 arg9 harg9) K } := by
  refine ⟨?_, ?_, fun xi4 E K => ?run⟩
  case run =>
    simp only [cc0__gnn_kernel_eq_skeleton]; unfold cc0__gnn_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4
    obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

end Cert.Kernel.Gen

end
-- ==== Proof.FrameKernel.RunC.lean ====
/- The kernel body at a point whose second grid coordinate is 97: the accumulators are updated as at every point, and the output block is stored: the two weight halves contracted with the finished accumulators, added, and clipped below at zero. -/
import proofs.«417351_j43052752175741_3_alg».proof.Proof.FrameKernel.RunB

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_C (c : Dev nD) (i : grid0.Coords) (arg2 : Memref sig .tc .vmem S1x40x1024 .i32) (harg2 : arg2.IsWhole) (arg3 : Memref sig .tc .vmem S1024x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x1024 .f32) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x1024 .i32) (harg9 : arg9.IsWhole) (hc0 : ¬cond0_0 i) (hc1 : cond0_1 i)
    (x0 : Vec F S1x40x1024 .i32) (x1 : Vec F S1024x512 .bf16) (x2 : Vec F S512x512 .bf16) (x3 : Vec F S512x512 .bf16) (xs0 xs1 : Vec F S1024x512 .f32) :
    Σ' (L4 : List (View.Piece (Elt F) S512x1024 .f32)) (LS0 : List (View.Piece (Elt F) S1024x512 .f32)), { LS1 : List (View.Piece (Elt F) S1024x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ owns (c : Thread nD τ) arg7 fullShare xs0 ∗ owns (c : Thread nD τ) arg8 fullShare xs1 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} f)) -∗ K ⟨⟩))
          ⊢ wp frame (wpE (defs₀ (F := F)) Variants.none c none) E (cc0__gnn_kernel i arg2 harg2 arg3 harg3 arg4 harg4 arg5 harg5 arg6 harg6 arg7 harg7 arg8 harg8 arg9 harg9) K } := by
  refine ⟨?_, ?_, ?_, fun E K => ?run⟩
  case run =>
    simp only [cc0__gnn_kernel_eq_skeleton]; unfold cc0__gnn_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%ds2, %fs2, -, HS2⟩, Hk⟩
    obtain rfl := harg2.eq_unread hf0; obtain rfl := harg3.eq_unread hf1; obtain rfl := harg4.eq_unread hf2; obtain rfl := harg5.eq_unread hf3
    obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    isplitl [HS1]; · iexists _; iexact HS1
    iexists _; iexact HS2

end Cert.Kernel.Gen

end
-- ==== Proof.FrameKernel.Frame.lean ====
/- The frame of the one pallas_call, second part. What the two accumulators hold after each grid point, by recursion
   on the point: where the second grid coordinate is 0 they are rebuilt from zero, elsewhere they are updated over what
   the point before left; where it is 97 the output block is stored from them. Over this: the proof data of the
   pipeline, the body's obligation at every point (one case per kind of point), the run of @main, and the frame: the
   four argument arrays end as they were launched. -/
import proofs.«417351_j43052752175741_3_alg».proof.Proof.FrameKernel.RunC

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each kind of point leaves -/

/-- At a point that zeroes the accumulators, the stores into the first accumulator cover it. -/
theorem scoverA_0 (c : Dev nD) (i : grid0.Coords) (arg2 : Memref sig .tc .vmem S1x40x1024 .i32) (harg2 : arg2.IsWhole) (arg3 : Memref sig .tc .vmem S1024x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x1024 .f32) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x1024 .i32) (harg9 : arg9.IsWhole) (hc0 : cond0_0 i) (hc1 : ¬cond0_1 i)
    (x0 : Vec F S1x40x1024 .i32) (x1 : Vec F S1024x512 .bf16) (x2 : Vec F S512x512 .bf16) (x3 : Vec F S512x512 .bf16) (y : S1024x512.Idx) :
    ∃ pc ∈ (kernelRun0_A c i arg2 harg2 arg3 harg3 arg4 harg4 arg5 harg5 arg6 harg6 arg7 harg7 arg8 harg8 arg9 harg9 hc0 hc1 x0 x1 x2 x3).1, y ∈ pc.1.set :=
  View.cover_of_tiledL (kernelRun0_A c i arg2 harg2 arg3 harg3 arg4 harg4 arg5 harg5 arg6 harg6 arg7 harg7 arg8 harg8 arg9 harg9 hc0 hc1 x0 x1 x2 x3).1 S1024x512.size (by sl_kernel_rfl) y
/-- And those into the second. -/
theorem scoverA_1 (c : Dev nD) (i : grid0.Coords) (arg2 : Memref sig .tc .vmem S1x40x1024 .i32) (harg2 : arg2.IsWhole) (arg3 : Memref sig .tc .vmem S1024x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x1024 .f32) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x1024 .i32) (harg9 : arg9.IsWhole) (hc0 : cond0_0 i) (hc1 : ¬cond0_1 i)
    (x0 : Vec F S1x40x1024 .i32) (x1 : Vec F S1024x512 .bf16) (x2 : Vec F S512x512 .bf16) (x3 : Vec F S512x512 .bf16) (y : S1024x512.Idx) :
    ∃ pc ∈ (kernelRun0_A c i arg2 harg2 arg3 harg3 arg4 harg4 arg5 harg5 arg6 harg6 arg7 harg7 arg8 harg8 arg9 harg9 hc0 hc1 x0 x1 x2 x3).2.1, y ∈ pc.1.set :=
  View.cover_of_tiledL (kernelRun0_A c i arg2 harg2 arg3 harg3 arg4 harg4 arg5 harg5 arg6 harg6 arg7 harg7 arg8 harg8 arg9 harg9 hc0 hc1 x0 x1 x2 x3).2.1 S1024x512.size (by sl_kernel_rfl) y
/-- What such a point leaves in the first accumulator, -/
def accA_0 (c : Dev nD) (i : grid0.Coords) (arg2 : Memref sig .tc .vmem S1x40x1024 .i32) (harg2 : arg2.IsWhole) (arg3 : Memref sig .tc .vmem S1024x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x1024 .f32) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x1024 .i32) (harg9 : arg9.IsWhole) (hc0 : cond0_0 i) (hc1 : ¬cond0_1 i)
    (x0 : Vec F S1x40x1024 .i32) (x1 : Vec F S1024x512 .bf16) (x2 : Vec F S512x512 .bf16) (x3 : Vec F S512x512 .bf16) : Vec F S1024x512 .f32 :=
  View.canon (kernelRun0_A c i arg2 harg2 arg3 harg3 arg4 harg4 arg5 harg5 arg6 harg6 arg7 harg7 arg8 harg8 arg9 harg9 hc0 hc1 x0 x1 x2 x3).1
/-- and in the second. -/
def accA_1 (c : Dev nD) (i : grid0.Coords) (arg2 : Memref sig .tc .vmem S1x40x1024 .i32) (harg2 : arg2.IsWhole) (arg3 : Memref sig .tc .vmem S1024x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x1024 .f32) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x1024 .i32) (harg9 : arg9.IsWhole) (hc0 : cond0_0 i) (hc1 : ¬cond0_1 i)
    (x0 : Vec F S1x40x1024 .i32) (x1 : Vec F S1024x512 .bf16) (x2 : Vec F S512x512 .bf16) (x3 : Vec F S512x512 .bf16) : Vec F S1024x512 .f32 :=
  View.canon (kernelRun0_A c i arg2 harg2 arg3 harg3 arg4 harg4 arg5 harg5 arg6 harg6 arg7 harg7 arg8 harg8 arg9 harg9 hc0 hc1 x0 x1 x2 x3).2.1
/-- At a middle point the stores into the first accumulator cover it. -/
theorem scoverB_0 (c : Dev nD) (i : grid0.Coords) (arg2 : Memref sig .tc .vmem S1x40x1024 .i32) (harg2 : arg2.IsWhole) (arg3 : Memref sig .tc .vmem S1024x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x1024 .f32) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x1024 .i32) (harg9 : arg9.IsWhole) (hc0 : ¬cond0_0 i) (hc1 : ¬cond0_1 i)
    (x0 : Vec F S1x40x1024 .i32) (x1 : Vec F S1024x512 .bf16) (x2 : Vec F S512x512 .bf16) (x3 : Vec F S512x512 .bf16) (xs0 xs1 : Vec F S1024x512 .f32) (y : S1024x512.Idx) :
    ∃ pc ∈ (kernelRun0_B c i arg2 harg2 arg3 harg3 arg4 harg4 arg5 harg5 arg6 harg6 arg7 harg7 arg8 harg8 arg9 harg9 hc0 hc1 x0 x1 x2 x3 xs0 xs1).1, y ∈ pc.1.set :=
  View.cover_of_tiledL (kernelRun0_B c i arg2 harg2 arg3 harg3 arg4 harg4 arg5 harg5 arg6 harg6 arg7 harg7 arg8 harg8 arg9 harg9 hc0 hc1 x0 x1 x2 x3 xs0 xs1).1 S1024x512.size (by sl_kernel_rfl) y
/-- And those into the second. -/
theorem scoverB_1 (c : Dev nD) (i : grid0.Coords) (arg2 : Memref sig .tc .vmem S1x40x1024 .i32) (harg2 : arg2.IsWhole) (arg3 : Memref sig .tc .vmem S1024x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x1024 .f32) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x1024 .i32) (harg9 : arg9.IsWhole) (hc0 : ¬cond0_0 i) (hc1 : ¬cond0_1 i)
    (x0 : Vec F S1x40x1024 .i32) (x1 : Vec F S1024x512 .bf16) (x2 : Vec F S512x512 .bf16) (x3 : Vec F S512x512 .bf16) (xs0 xs1 : Vec F S1024x512 .f32) (y : S1024x512.Idx) :
    ∃ pc ∈ (kernelRun0_B c i arg2 harg2 arg3 harg3 arg4 harg4 arg5 harg5 arg6 harg6 arg7 harg7 arg8 harg8 arg9 harg9 hc0 hc1 x0 x1 x2 x3 xs0 xs1).2.1, y ∈ pc.1.set :=
  View.cover_of_tiledL (kernelRun0_B c i arg2 harg2 arg3 harg3 arg4 harg4 arg5 harg5 arg6 harg6 arg7 harg7 arg8 harg8 arg9 harg9 hc0 hc1 x0 x1 x2 x3 xs0 xs1).2.1 S1024x512.size (by sl_kernel_rfl) y
/-- What a middle point leaves in the first accumulator, over what the point before left, -/
def accB_0 (c : Dev nD) (i : grid0.Coords) (arg2 : Memref sig .tc .vmem S1x40x1024 .i32) (harg2 : arg2.IsWhole) (arg3 : Memref sig .tc .vmem S1024x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x1024 .f32) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x1024 .i32) (harg9 : arg9.IsWhole) (hc0 : ¬cond0_0 i) (hc1 : ¬cond0_1 i)
    (x0 : Vec F S1x40x1024 .i32) (x1 : Vec F S1024x512 .bf16) (x2 : Vec F S512x512 .bf16) (x3 : Vec F S512x512 .bf16) (xs0 xs1 : Vec F S1024x512 .f32) : Vec F S1024x512 .f32 :=
  View.canon (kernelRun0_B c i arg2 harg2 arg3 harg3 arg4 harg4 arg5 harg5 arg6 harg6 arg7 harg7 arg8 harg8 arg9 harg9 hc0 hc1 x0 x1 x2 x3 xs0 xs1).1
/-- and in the second. -/
def accB_1 (c : Dev nD) (i : grid0.Coords) (arg2 : Memref sig .tc .vmem S1x40x1024 .i32) (harg2 : arg2.IsWhole) (arg3 : Memref sig .tc .vmem S1024x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x1024 .f32) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x1024 .i32) (harg9 : arg9.IsWhole) (hc0 : ¬cond0_0 i) (hc1 : ¬cond0_1 i)
    (x0 : Vec F S1x40x1024 .i32) (x1 : Vec F S1024x512 .bf16) (x2 : Vec F S512x512 .bf16) (x3 : Vec F S512x512 .bf16) (xs0 xs1 : Vec F S1024x512 .f32) : Vec F S1024x512 .f32 :=
  View.canon (kernelRun0_B c i arg2 harg2 arg3 harg3 arg4 harg4 arg5 harg5 arg6 harg6 arg7 harg7 arg8 harg8 arg9 harg9 hc0 hc1 x0 x1 x2 x3 xs0 xs1).2.1
/-- At a last point of a row of the grid the store into the output block covers it. -/
theorem coverC_4 (c : Dev nD) (i : grid0.Coords) (arg2 : Memref sig .tc .vmem S1x40x1024 .i32) (harg2 : arg2.IsWhole) (arg3 : Memref sig .tc .vmem S1024x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x1024 .f32) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x1024 .i32) (harg9 : arg9.IsWhole) (hc0 : ¬cond0_0 i) (hc1 : cond0_1 i)
    (x0 : Vec F S1x40x1024 .i32) (x1 : Vec F S1024x512 .bf16) (x2 : Vec F S512x512 .bf16) (x3 : Vec F S512x512 .bf16) (xs0 xs1 : Vec F S1024x512 .f32) (y : S512x1024.Idx) :
    ∃ pc ∈ (kernelRun0_C c i arg2 harg2 arg3 harg3 arg4 harg4 arg5 harg5 arg6 harg6 arg7 harg7 arg8 harg8 arg9 harg9 hc0 hc1 x0 x1 x2 x3 xs0 xs1).1, y ∈ pc.1.set :=
  View.cover_of_tiledL (kernelRun0_C c i arg2 harg2 arg3 harg3 arg4 harg4 arg5 harg5 arg6 harg6 arg7 harg7 arg8 harg8 arg9 harg9 hc0 hc1 x0 x1 x2 x3 xs0 xs1).1 S512x1024.size (by sl_kernel_rfl) y
/-- The stores into the first accumulator cover it. -/
theorem scoverC_0 (c : Dev nD) (i : grid0.Coords) (arg2 : Memref sig .tc .vmem S1x40x1024 .i32) (harg2 : arg2.IsWhole) (arg3 : Memref sig .tc .vmem S1024x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x1024 .f32) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x1024 .i32) (harg9 : arg9.IsWhole) (hc0 : ¬cond0_0 i) (hc1 : cond0_1 i)
    (x0 : Vec F S1x40x1024 .i32) (x1 : Vec F S1024x512 .bf16) (x2 : Vec F S512x512 .bf16) (x3 : Vec F S512x512 .bf16) (xs0 xs1 : Vec F S1024x512 .f32) (y : S1024x512.Idx) :
    ∃ pc ∈ (kernelRun0_C c i arg2 harg2 arg3 harg3 arg4 harg4 arg5 harg5 arg6 harg6 arg7 harg7 arg8 harg8 arg9 harg9 hc0 hc1 x0 x1 x2 x3 xs0 xs1).2.1, y ∈ pc.1.set :=
  View.cover_of_tiledL (kernelRun0_C c i arg2 harg2 arg3 harg3 arg4 harg4 arg5 harg5 arg6 harg6 arg7 harg7 arg8 harg8 arg9 harg9 hc0 hc1 x0 x1 x2 x3 xs0 xs1).2.1 S1024x512.size (by sl_kernel_rfl) y
/-- And those into the second. -/
theorem scoverC_1 (c : Dev nD) (i : grid0.Coords) (arg2 : Memref sig .tc .vmem S1x40x1024 .i32) (harg2 : arg2.IsWhole) (arg3 : Memref sig .tc .vmem S1024x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x1024 .f32) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x1024 .i32) (harg9 : arg9.IsWhole) (hc0 : ¬cond0_0 i) (hc1 : cond0_1 i)
    (x0 : Vec F S1x40x1024 .i32) (x1 : Vec F S1024x512 .bf16) (x2 : Vec F S512x512 .bf16) (x3 : Vec F S512x512 .bf16) (xs0 xs1 : Vec F S1024x512 .f32) (y : S1024x512.Idx) :
    ∃ pc ∈ (kernelRun0_C c i arg2 harg2 arg3 harg3 arg4 harg4 arg5 harg5 arg6 harg6 arg7 harg7 arg8 harg8 arg9 harg9 hc0 hc1 x0 x1 x2 x3 xs0 xs1).2.2.1, y ∈ pc.1.set :=
  View.cover_of_tiledL (kernelRun0_C c i arg2 harg2 arg3 harg3 arg4 harg4 arg5 harg5 arg6 harg6 arg7 harg7 arg8 harg8 arg9 harg9 hc0 hc1 x0 x1 x2 x3 xs0 xs1).2.2.1 S1024x512.size (by sl_kernel_rfl) y
/-- What such a point leaves in the output block, -/
def outC_4 (c : Dev nD) (i : grid0.Coords) (arg2 : Memref sig .tc .vmem S1x40x1024 .i32) (harg2 : arg2.IsWhole) (arg3 : Memref sig .tc .vmem S1024x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x1024 .f32) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x1024 .i32) (harg9 : arg9.IsWhole) (hc0 : ¬cond0_0 i) (hc1 : cond0_1 i)
    (x0 : Vec F S1x40x1024 .i32) (x1 : Vec F S1024x512 .bf16) (x2 : Vec F S512x512 .bf16) (x3 : Vec F S512x512 .bf16) (xs0 xs1 : Vec F S1024x512 .f32) : Vec F S512x1024 .f32 :=
  View.canon (kernelRun0_C c i arg2 harg2 arg3 harg3 arg4 harg4 arg5 harg5 arg6 harg6 arg7 harg7 arg8 harg8 arg9 harg9 hc0 hc1 x0 x1 x2 x3 xs0 xs1).1
/-- in the first accumulator, -/
def accC_0 (c : Dev nD) (i : grid0.Coords) (arg2 : Memref sig .tc .vmem S1x40x1024 .i32) (harg2 : arg2.IsWhole) (arg3 : Memref sig .tc .vmem S1024x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x1024 .f32) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x1024 .i32) (harg9 : arg9.IsWhole) (hc0 : ¬cond0_0 i) (hc1 : cond0_1 i)
    (x0 : Vec F S1x40x1024 .i32) (x1 : Vec F S1024x512 .bf16) (x2 : Vec F S512x512 .bf16) (x3 : Vec F S512x512 .bf16) (xs0 xs1 : Vec F S1024x512 .f32) : Vec F S1024x512 .f32 :=
  View.canon (kernelRun0_C c i arg2 harg2 arg3 harg3 arg4 harg4 arg5 harg5 arg6 harg6 arg7 harg7 arg8 harg8 arg9 harg9 hc0 hc1 x0 x1 x2 x3 xs0 xs1).2.1
/-- and in the second. -/
def accC_1 (c : Dev nD) (i : grid0.Coords) (arg2 : Memref sig .tc .vmem S1x40x1024 .i32) (harg2 : arg2.IsWhole) (arg3 : Memref sig .tc .vmem S1024x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x1024 .f32) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x1024 .i32) (harg9 : arg9.IsWhole) (hc0 : ¬cond0_0 i) (hc1 : cond0_1 i)
    (x0 : Vec F S1x40x1024 .i32) (x1 : Vec F S1024x512 .bf16) (x2 : Vec F S512x512 .bf16) (x3 : Vec F S512x512 .bf16) (xs0 xs1 : Vec F S1024x512 .f32) : Vec F S1024x512 .f32 :=
  View.canon (kernelRun0_C c i arg2 harg2 arg3 harg3 arg4 harg4 arg5 harg5 arg6 harg6 arg7 harg7 arg8 harg8 arg9 harg9 hc0 hc1 x0 x1 x2 x3 xs0 xs1).2.2.1

/-- A placeholder for the output block at the points that store nothing into it: the window is idle there and is not
    written back, so nothing reads it. -/
def junkOut : Vec F S512x1024 .f32 := VO0_4.read (Elt F) VO0_4.junk

/-! ## What the buffers hold after each point -/

/-- After the body at position `n`: the output block, the first accumulator, the second accumulator. -/
def outsAt0 (c : Dev nD) : (n : ℕ) → n < cfg0.N → Vec F S512x1024 .f32 × Vec F S1024x512 .f32 × Vec F S1024x512 .f32
  | 0, hn => (junkOut, accA_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), accA_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩))
  | n + 1, hn =>
    if h0 : (n + 1) % 98 = 0 then
      if h1 : (n + 1) % 98 = 97 then
        False.elim (by omega)
      else
        (junkOut, accA_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), accA_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩))
    else
      if h1 : (n + 1) % 98 = 97 then
        (outC_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2, accC_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2, accC_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2)
      else
        (junkOut, accB_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2, accB_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2)

theorem outsAt0_A (c : Dev nD) (t : Fin cfg0.N) (h0 : t.val % 98 = 0) (h1 : ¬t.val % 98 = 97) :
    outsAt0 m c t.val t.isLt = (junkOut, accA_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t), accA_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t)) := by
  obtain ⟨n, hn⟩ := t
  cases n with
  | zero => exact rfl
  | succ n => exact (dif_pos h0).trans ((dif_neg h1).trans rfl)

theorem outsAt0_B (c : Dev nD) (t : Fin cfg0.N) (h0 : ¬t.val % 98 = 0) (h1 : ¬t.val % 98 = 97) :
    outsAt0 m c t.val t.isLt = (junkOut, accB_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2, accB_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 98 = 0) (h1 : t.val % 98 = 97) :
    outsAt0 m c t.val t.isLt = (outC_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2, accC_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2, accC_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point every scratch holds anything; afterwards the
    two accumulators hold what the point before left, the hit counts anything. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2) ∗ (∃ d, owns (c : Thread nD τ) scM0_2 fullShare d)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2) ∗ (∃ d, owns (c : Thread nD τ) scM0_2 fullShare d)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2) ∗ (∃ d, owns (c : Thread nD τ) scM0_2 fullShare d)) ∗ (∃ r, prngReg c r)) := by
  cases n with
  | zero => exact absurd rfl hz
  | succ n => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves_in (c : Dev nD) (t : Fin cfg0.N) :
    (dats m 0 c).leavesExact 0 t = owns (c : Thread nD τ) (ms0_0 t) fullShare (iblk m c 0 t)
    ∧ (dats m 0 c).leavesExact 1 t = owns (c : Thread nD τ) (ms0_1 t) fullShare (iblk m c 1 t)
    ∧ (dats m 0 c).leavesExact 2 t = owns (c : Thread nD τ) (ms0_2 t) fullShare (iblk m c 2 t)
    ∧ (dats m 0 c).leavesExact 3 t = owns (c : Thread nD τ) (ms0_3 t) fullShare (iblk m c 3 t) := by
  refine ⟨?_, ?_, ?_, ?_⟩
  · unfold Dat.leavesExact; rw [liveAt0_0 t, after0_0]
  · unfold Dat.leavesExact; rw [liveAt0_1 t, after0_1]
  · unfold Dat.leavesExact; rw [liveAt0_2 t, after0_2]
  · unfold Dat.leavesExact; rw [liveAt0_3 t, after0_3]

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [(leaves_in m c t).1, (leaves_in m c t).2.1, (leaves_in m c t).2.2.1, (leaves_in m c t).2.2.2]
  have hN : t.val < 1568 := lt_of_lt_of_eq t.isLt (show cfg0.N = 1568 from N_0)
  by_cases h0 : t.val % 98 = 0
  · by_cases h1 : t.val % 98 = 97
    · exfalso; omega
    · rw [Dat.leavesExact_idle (dats m 0 c) 4 t (idleAt0_4 t (fun h => h1 ((hcond0_1 t).mp h))) (noFlush0_4 t (fun h => h1 ((hcond0_1 t).mp h)))]
      rw [outsAt0_A m c t h0 h1]
      unfold accA_0 accA_1; (try dsimp only)
      by_cases hz : t.val = 0
      · rw [PhiS_castSucc m c t, PhiS_zero m c _ _ hz, PhiA0_eq]
        iintro ⟨⟨⟨HS0, HS1, HS2⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ _ _ _ _ ((hcond0_0 t).mpr h0) (fun h => h1 ((hcond0_1 t).mp h)) (iblk m c 0 t) (iblk m c 1 t) (iblk m c 2 t) (iblk m c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        iintro ⟨H0, H1, H2, H3, H4, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_eq_canon _ _ _ (scoverA_0 c _ _ _ _ _ _ _ _ _ _ _ _ _ _ _ _ _ _ _ _ _ _ _)
            isplitl [HS1]
            · unfold owns; iexists _; isplitr
              swap; · iexact HS1
              ipureintro; exact View.read_writes_eq_canon _ _ _ (scoverA_1 c _ _ _ _ _ _ _ _ _ _ _ _ _ _ _ _ _ _ _ _ _ _ _)
            iexists (scM0_2.view.read (Elt F) es2); unfold owns; iexists es2; isplitr
            · ipureintro; rfl
            iexact HS2
          iexact Hg
        isplitl [Ho]; · iexact Ho
        isplitl [H0]; · iexact H0
        isplitl [H1]; · iexact H1
        isplitl [H2]; · iexact H2
        isplitl [H3]; · iexact H3
        iexists _; iexact H4
      · rw [PhiS_castSucc m c t, PhiS_pos m c _ _ hz]
        iintro ⟨⟨⟨HS0, HS1, HS2⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ _ _ _ _ ((hcond0_0 t).mpr h0) (fun h => h1 ((hcond0_1 t).mp h)) (iblk m c 0 t) (iblk m c 1 t) (iblk m c 2 t) (iblk m c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        isplitl [HS1]; · iexists _; iexact HS1
        isplitl [HS2]; · iexact HS2
        iintro ⟨H0, H1, H2, H3, H4, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_eq_canon _ _ _ (scoverA_0 c _ _ _ _ _ _ _ _ _ _ _ _ _ _ _ _ _ _ _ _ _ _ _)
            isplitl [HS1]
            · unfold owns; iexists _; isplitr
              swap; · iexact HS1
              ipureintro; exact View.read_writes_eq_canon _ _ _ (scoverA_1 c _ _ _ _ _ _ _ _ _ _ _ _ _ _ _ _ _ _ _ _ _ _ _)
            iexists (scM0_2.view.read (Elt F) es2); unfold owns; iexists es2; isplitr
            · ipureintro; rfl
            iexact HS2
          iexact Hg
        isplitl [Ho]; · iexact Ho
        isplitl [H0]; · iexact H0
        isplitl [H1]; · iexact H1
        isplitl [H2]; · iexact H2
        isplitl [H3]; · iexact H3
        iexists _; iexact H4
  · have hz : t.val ≠ 0 := fun h => h0 (by rw [h])
    by_cases h1 : t.val % 98 = 97
    · rw [show (dats m 0 c).leavesExact 4 t = owns (c : Thread nD τ) (ms0_4 t) fullShare ((dats m 0 c).after 4 t) from by
        unfold Dat.leavesExact; rw [liveAt0_4 t ((hcond0_1 t).mpr h1)], after0_4]
      rw [outsAt0_C m c t h0 h1]
      unfold outC_4 accC_0 accC_1; (try dsimp only)
      rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩, ⟨%d4, H4⟩⟩
      iapply ((kernelRun0_C c (grid0.coords t) _ _ _ _ _ _ _ _ _ _ _ _ _ _ _ _ (fun h => h0 ((hcond0_0 t).mp h)) ((hcond0_1 t).mpr h1) (iblk m c 0 t) (iblk m c 1 t) (iblk m c 2 t) (iblk m c 3 t) _ _).2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      iintro ⟨H0, H1, H2, H3, ⟨%e4, H4⟩, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_eq_canon _ _ _ (scoverC_0 c _ _ _ _ _ _ _ _ _ _ _ _ _ _ _ _ _ _ _ _ _ _ _ _ _)
          isplitl [HS1]
          · unfold owns; iexists _; isplitr
            swap; · iexact HS1
            ipureintro; exact View.read_writes_eq_canon _ _ _ (scoverC_1 c _ _ _ _ _ _ _ _ _ _ _ _ _ _ _ _ _ _ _ _ _ _ _ _ _)
          iexists (scM0_2.view.read (Elt F) es2); unfold owns; iexists es2; isplitr
          · ipureintro; rfl
          iexact HS2
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_eq_canon _ _ _ (coverC_4 c _ _ _ _ _ _ _ _ _ _ _ _ _ _ _ _ _ _ _ _ _ _ _ _ _)
    · rw [Dat.leavesExact_idle (dats m 0 c) 4 t (idleAt0_4 t (fun h => h1 ((hcond0_1 t).mp h))) (noFlush0_4 t (fun h => h1 ((hcond0_1 t).mp h)))]
      rw [outsAt0_B m c t h0 h1]
      unfold accB_0 accB_1; (try dsimp only)
      rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ _ _ _ _ (fun h => h0 ((hcond0_0 t).mp h)) (fun h => h1 ((hcond0_1 t).mp h)) (iblk m c 0 t) (iblk m c 1 t) (iblk m c 2 t) (iblk m c 3 t) _ _).2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_eq_canon _ _ _ (scoverB_0 c _ _ _ _ _ _ _ _ _ _ _ _ _ _ _ _ _ _ _ _ _ _ _ _ _)
          isplitl [HS1]
          · unfold owns; iexists _; isplitr
            swap; · iexact HS1
            ipureintro; exact View.read_writes_eq_canon _ _ _ (scoverB_1 c _ _ _ _ _ _ _ _ _ _ _ _ _ _ _ _ _ _ _ _ _ _ _ _ _)
          iexists (scM0_2.view.read (Elt F) es2); unfold owns; iexists es2; isplitr
          · ipureintro; rfl
          iexact HS2
        iexact Hg
      isplitl [Ho]; · iexact Ho
      isplitl [H0]; · iexact H0
      isplitl [H1]; · iexact H1
      isplitl [H2]; · iexact H2
      isplitl [H3]; · iexact H3
      iexists _; iexact H4

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]; · iexists _; iexact HS0
    isplitl [HS1]; · iexists _; iexact HS1
    iexact HS2
  iexact Hg

theorem hout (c : Dev nD) : (dats m 0 c).Φ (Fin.last cfg0.N) ⊢ Pipeline.ΦA spec0 c :=
  Phi_out m c _ (by rw [Fin.val_last]; have : cfg0.N = 1568 := N_0; omega)

/-! ## The run and the frame -/

set_option backward.isDefEq.respectTransparency.types false in
/-- Every weakly fair execution of @main terminates, every array of the pipeline ends at what the proof data says, and
    every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m)
    (hmain := hmain m Variants.none) (hA := A_eq m) (hin := hin m) (hout := hout m)

/-- The frame: the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (run_main m ρ)

end Cert.Kernel.Gen

end
-- ==== Proof.FrameKernelIdeal.Kit.lean ====
/- The frame of the one pallas_call of this program, first part: @main up to the region (three stretches of host
   lines, then the region), the contents every buffer has when the region is entered, each window's block at a grid
   point, the two conditions of the body decided over the 16 x 98 grid (the accumulators are zeroed where the second
   coordinate is 0, the output block is stored where it is 97), where the output window is idle, and the region's
   invariant with the three scratch buffers as memrefs. -/
import proofs.«417351_j43052752175741_3_alg».proof.Proof.Gen.KernelIdeal.Launch
import proofs.«417351_j43052752175741_3_alg».proof.Proof.Gen.KernelIdeal.Skeleton
import proofs.«417351_j43052752175741_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffers when the region is entered: after the host lines before it. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

/-- @main is the host lines and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- No host line before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.unary, StableHlo.TRef.binary, Finset.mem_singleton]
    repeat' apply And.intro
    all_goals exact StableHlo.devRef_ne_of_ne (by decide)))
/-- No host line before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.unary, StableHlo.TRef.binary, Finset.mem_singleton]
    repeat' apply And.intro
    all_goals exact StableHlo.devRef_ne_of_ne (by decide)))
/-- No host line before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.unary, StableHlo.TRef.binary, Finset.mem_singleton]
    repeat' apply And.intro
    all_goals exact StableHlo.devRef_ne_of_ne (by decide)))
/-- No host line before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.unary, StableHlo.TRef.binary, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The four argument arrays are no window's array: they end as the region found them, which is as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) h

/-! ## The body's two conditions -/

/-- The first `scf.if`: the second grid coordinate is 0 (the accumulators are zeroed). -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 98 = 0 :=
  (by decide +kernel : ∀ t : Fin grid0.N, cond0_0 (grid0.coords t) ↔ t.val % 98 = 0)

/-- The second: the second grid coordinate is 97 (the output block is stored). -/
abbrev cond0_1 (i : grid0.Coords) : Prop := k0_cond2 i = 1#1
theorem hcond0_1 : ∀ t : Fin cfg0.N, cond0_1 (grid0.coords t) ↔ t.val % 98 = 97 :=
  (by decide +kernel : ∀ t : Fin grid0.N, cond0_1 (grid0.coords t) ↔ t.val % 98 = 97)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Where the output block is not stored the output window is idle and is not written back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4 : ∀ t : Fin cfg0.N, cond0_1 (grid0.coords t) → cfg0.idle 4 (grid0.coords t) = false := by decide +kernel

/-! ## The staging and scratch memrefs -/

abbrev VO0_4 : View sig .tc .vmem S512x1024 .f32 := (Memref.whole cc0_stg4_0 : Memref sig .tc .vmem S512x1024 .f32).view
abbrev ms0_0 (t : Fin cfg0.N) : Memref sig .tc .vmem S1x40x1024 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x1024 .f32 := win0_4.stage (cfg0.slots t 4)
abbrev hs0_4 (t : Fin cfg0.N) : (ms0_4 t).IsWhole := hstage0_4 ((cfg0.slots t 4).cast nbuf0_4)
/-- The three scratch operands: the two accumulators the kernel carries from point to point, and the hit counts it
    rebuilds at every point. -/
abbrev scM0_0 : Memref sig .tc .vmem S1024x512 .f32 := Memref.whole cc0_scratch0
abbrev scM0_1 : Memref sig .tc .vmem S1024x512 .f32 := Memref.whole cc0_scratch1
abbrev scM0_2 : Memref sig .tc .vmem S1024x1024 .i32 := Memref.whole cc0_scratch2
abbrev VS0_0 : View sig .tc .vmem S1024x512 .f32 := scM0_0.view
abbrev VS0_1 : View sig .tc .vmem S1024x512 .f32 := scM0_1.view

/-- The class's invariant with the scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Gen

end
-- ==== Proof.FrameKernelIdeal.RunA.lean ====
/- The kernel body at a point whose second grid coordinate is 0: both accumulators are zeroed whatever they held, then the point's one-hot product is added to the first and the hit-count product to the second; nothing is stored into the output block. What each accumulator ends with is found by running the body. -/
import proofs.«417351_j43052752175741_3_alg».proof.Proof.FrameKernelIdeal.Kit

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_A (c : Dev nD) (i : grid0.Coords) (arg2 : Memref sig .tc .vmem S1x40x1024 .i32) (harg2 : arg2.IsWhole) (arg3 : Memref sig .tc .vmem S1024x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x1024 .f32) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x1024 .i32) (harg9 : arg9.IsWhole) (hc0 : cond0_0 i) (hc1 : ¬cond0_1 i)
    (x0 : Vec F S1x40x1024 .i32) (x1 : Vec F S1024x512 .bf16) (x2 : Vec F S512x512 .bf16) (x3 : Vec F S512x512 .bf16) :
    Σ' (LS0 : List (View.Piece (Elt F) S1024x512 .f32)), { LS1 : List (View.Piece (Elt F) S1024x512 .f32) //
      ∀ (xi4 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} f)) -∗ K ⟨⟩))
          ⊢ wp frame (wpE (defs₀ (F := F)) Variants.none c none) E (cc0__gnn_kernel i arg2 harg2 arg3 harg3 arg4 harg4 arg5 harg5 arg6 harg6 arg7 harg7 arg8 harg8 arg9 harg9) K } := by
  refine ⟨?_, ?_, fun xi4 E K => ?run⟩
  case run =>
    simp only [cc0__gnn_kernel_eq_skeleton]; unfold cc0__gnn_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

end Cert.KernelIdeal.Gen

end
-- ==== Proof.FrameKernelIdeal.RunB.lean ====
/- The kernel body at a point whose second grid coordinate is neither 0 nor 97: the point's one-hot product is added to the first accumulator and the hit-count product to the second, over what the point before left in them; nothing is stored into the output block. -/
import proofs.«417351_j43052752175741_3_alg».proof.Proof.FrameKernelIdeal.RunA

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_B (c : Dev nD) (i : grid0.Coords) (arg2 : Memref sig .tc .vmem S1x40x1024 .i32) (harg2 : arg2.IsWhole) (arg3 : Memref sig .tc .vmem S1024x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x1024 .f32) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x1024 .i32) (harg9 : arg9.IsWhole) (hc0 : ¬cond0_0 i) (hc1 : ¬cond0_1 i)
    (x0 : Vec F S1x40x1024 .i32) (x1 : Vec F S1024x512 .bf16) (x2 : Vec F S512x512 .bf16) (x3 : Vec F S512x512 .bf16) (xs0 xs1 : Vec F S1024x512 .f32) :
    Σ' (LS0 : List (View.Piece (Elt F) S1024x512 .f32)), { LS1 : List (View.Piece (Elt F) S1024x512 .f32) //
      ∀ (xi4 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ owns (c : Thread nD τ) arg7 fullShare xs0 ∗ owns (c : Thread nD τ) arg8 fullShare xs1 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} f)) -∗ K ⟨⟩))
          ⊢ wp frame (wpE (defs₀ (F := F)) Variants.none c none) E (cc0__gnn_kernel i arg2 harg2 arg3 harg3 arg4 harg4 arg5 harg5 arg6 harg6 arg7 harg7 arg8 harg8 arg9 harg9) K } := by
  refine ⟨?_, ?_, fun xi4 E K => ?run⟩
  case run =>
    simp only [cc0__gnn_kernel_eq_skeleton]; unfold cc0__gnn_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4
    obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

end Cert.KernelIdeal.Gen

end
-- ==== Proof.FrameKernelIdeal.RunC.lean ====
/- The kernel body at a point whose second grid coordinate is 97: the accumulators are updated as at every point, and the output block is stored: the two weight halves contracted with the finished accumulators, added, and clipped below at zero. -/
import proofs.«417351_j43052752175741_3_alg».proof.Proof.FrameKernelIdeal.RunB

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_C (c : Dev nD) (i : grid0.Coords) (arg2 : Memref sig .tc .vmem S1x40x1024 .i32) (harg2 : arg2.IsWhole) (arg3 : Memref sig .tc .vmem S1024x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x1024 .f32) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x1024 .i32) (harg9 : arg9.IsWhole) (hc0 : ¬cond0_0 i) (hc1 : cond0_1 i)
    (x0 : Vec F S1x40x1024 .i32) (x1 : Vec F S1024x512 .bf16) (x2 : Vec F S512x512 .bf16) (x3 : Vec F S512x512 .bf16) (xs0 xs1 : Vec F S1024x512 .f32) :
    Σ' (L4 : List (View.Piece (Elt F) S512x1024 .f32)) (LS0 : List (View.Piece (Elt F) S1024x512 .f32)), { LS1 : List (View.Piece (Elt F) S1024x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ owns (c : Thread nD τ) arg7 fullShare xs0 ∗ owns (c : Thread nD τ) arg8 fullShare xs1 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} f)) -∗ K ⟨⟩))
          ⊢ wp frame (wpE (defs₀ (F := F)) Variants.none c none) E (cc0__gnn_kernel i arg2 harg2 arg3 harg3 arg4 harg4 arg5 harg5 arg6 harg6 arg7 harg7 arg8 harg8 arg9 harg9) K } := by
  refine ⟨?_, ?_, ?_, fun E K => ?run⟩
  case run =>
    simp only [cc0__gnn_kernel_eq_skeleton]; unfold cc0__gnn_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%ds2, %fs2, -, HS2⟩, Hk⟩
    obtain rfl := harg2.eq_unread hf0; obtain rfl := harg3.eq_unread hf1; obtain rfl := harg4.eq_unread hf2; obtain rfl := harg5.eq_unread hf3
    obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    isplitl [HS1]; · iexists _; iexact HS1
    iexists _; iexact HS2

end Cert.KernelIdeal.Gen

end
-- ==== Proof.FrameKernelIdeal.Frame.lean ====
/- The frame of the one pallas_call, second part. What the two accumulators hold after each grid point, by recursion
   on the point: where the second grid coordinate is 0 they are rebuilt from zero, elsewhere they are updated over what
   the point before left; where it is 97 the output block is stored from them. Over this: the proof data of the
   pipeline, the body's obligation at every point (one case per kind of point), the run of @main, and the frame: the
   four argument arrays end as they were launched. -/
import proofs.«417351_j43052752175741_3_alg».proof.Proof.FrameKernelIdeal.RunC

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each kind of point leaves -/

/-- At a point that zeroes the accumulators, the stores into the first accumulator cover it. -/
theorem scoverA_0 (c : Dev nD) (i : grid0.Coords) (arg2 : Memref sig .tc .vmem S1x40x1024 .i32) (harg2 : arg2.IsWhole) (arg3 : Memref sig .tc .vmem S1024x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x1024 .f32) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x1024 .i32) (harg9 : arg9.IsWhole) (hc0 : cond0_0 i) (hc1 : ¬cond0_1 i)
    (x0 : Vec F S1x40x1024 .i32) (x1 : Vec F S1024x512 .bf16) (x2 : Vec F S512x512 .bf16) (x3 : Vec F S512x512 .bf16) (y : S1024x512.Idx) :
    ∃ pc ∈ (kernelRun0_A c i arg2 harg2 arg3 harg3 arg4 harg4 arg5 harg5 arg6 harg6 arg7 harg7 arg8 harg8 arg9 harg9 hc0 hc1 x0 x1 x2 x3).1, y ∈ pc.1.set :=
  View.cover_of_tiledL (kernelRun0_A c i arg2 harg2 arg3 harg3 arg4 harg4 arg5 harg5 arg6 harg6 arg7 harg7 arg8 harg8 arg9 harg9 hc0 hc1 x0 x1 x2 x3).1 S1024x512.size (by sl_kernel_rfl) y
/-- And those into the second. -/
theorem scoverA_1 (c : Dev nD) (i : grid0.Coords) (arg2 : Memref sig .tc .vmem S1x40x1024 .i32) (harg2 : arg2.IsWhole) (arg3 : Memref sig .tc .vmem S1024x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x1024 .f32) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x1024 .i32) (harg9 : arg9.IsWhole) (hc0 : cond0_0 i) (hc1 : ¬cond0_1 i)
    (x0 : Vec F S1x40x1024 .i32) (x1 : Vec F S1024x512 .bf16) (x2 : Vec F S512x512 .bf16) (x3 : Vec F S512x512 .bf16) (y : S1024x512.Idx) :
    ∃ pc ∈ (kernelRun0_A c i arg2 harg2 arg3 harg3 arg4 harg4 arg5 harg5 arg6 harg6 arg7 harg7 arg8 harg8 arg9 harg9 hc0 hc1 x0 x1 x2 x3).2.1, y ∈ pc.1.set :=
  View.cover_of_tiledL (kernelRun0_A c i arg2 harg2 arg3 harg3 arg4 harg4 arg5 harg5 arg6 harg6 arg7 harg7 arg8 harg8 arg9 harg9 hc0 hc1 x0 x1 x2 x3).2.1 S1024x512.size (by sl_kernel_rfl) y
/-- What such a point leaves in the first accumulator, -/
def accA_0 (c : Dev nD) (i : grid0.Coords) (arg2 : Memref sig .tc .vmem S1x40x1024 .i32) (harg2 : arg2.IsWhole) (arg3 : Memref sig .tc .vmem S1024x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x1024 .f32) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x1024 .i32) (harg9 : arg9.IsWhole) (hc0 : cond0_0 i) (hc1 : ¬cond0_1 i)
    (x0 : Vec F S1x40x1024 .i32) (x1 : Vec F S1024x512 .bf16) (x2 : Vec F S512x512 .bf16) (x3 : Vec F S512x512 .bf16) : Vec F S1024x512 .f32 :=
  View.canon (kernelRun0_A c i arg2 harg2 arg3 harg3 arg4 harg4 arg5 harg5 arg6 harg6 arg7 harg7 arg8 harg8 arg9 harg9 hc0 hc1 x0 x1 x2 x3).1
/-- and in the second. -/
def accA_1 (c : Dev nD) (i : grid0.Coords) (arg2 : Memref sig .tc .vmem S1x40x1024 .i32) (harg2 : arg2.IsWhole) (arg3 : Memref sig .tc .vmem S1024x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x1024 .f32) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x1024 .i32) (harg9 : arg9.IsWhole) (hc0 : cond0_0 i) (hc1 : ¬cond0_1 i)
    (x0 : Vec F S1x40x1024 .i32) (x1 : Vec F S1024x512 .bf16) (x2 : Vec F S512x512 .bf16) (x3 : Vec F S512x512 .bf16) : Vec F S1024x512 .f32 :=
  View.canon (kernelRun0_A c i arg2 harg2 arg3 harg3 arg4 harg4 arg5 harg5 arg6 harg6 arg7 harg7 arg8 harg8 arg9 harg9 hc0 hc1 x0 x1 x2 x3).2.1
/-- At a middle point the stores into the first accumulator cover it. -/
theorem scoverB_0 (c : Dev nD) (i : grid0.Coords) (arg2 : Memref sig .tc .vmem S1x40x1024 .i32) (harg2 : arg2.IsWhole) (arg3 : Memref sig .tc .vmem S1024x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x1024 .f32) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x1024 .i32) (harg9 : arg9.IsWhole) (hc0 : ¬cond0_0 i) (hc1 : ¬cond0_1 i)
    (x0 : Vec F S1x40x1024 .i32) (x1 : Vec F S1024x512 .bf16) (x2 : Vec F S512x512 .bf16) (x3 : Vec F S512x512 .bf16) (xs0 xs1 : Vec F S1024x512 .f32) (y : S1024x512.Idx) :
    ∃ pc ∈ (kernelRun0_B c i arg2 harg2 arg3 harg3 arg4 harg4 arg5 harg5 arg6 harg6 arg7 harg7 arg8 harg8 arg9 harg9 hc0 hc1 x0 x1 x2 x3 xs0 xs1).1, y ∈ pc.1.set :=
  View.cover_of_tiledL (kernelRun0_B c i arg2 harg2 arg3 harg3 arg4 harg4 arg5 harg5 arg6 harg6 arg7 harg7 arg8 harg8 arg9 harg9 hc0 hc1 x0 x1 x2 x3 xs0 xs1).1 S1024x512.size (by sl_kernel_rfl) y
/-- And those into the second. -/
theorem scoverB_1 (c : Dev nD) (i : grid0.Coords) (arg2 : Memref sig .tc .vmem S1x40x1024 .i32) (harg2 : arg2.IsWhole) (arg3 : Memref sig .tc .vmem S1024x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x1024 .f32) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x1024 .i32) (harg9 : arg9.IsWhole) (hc0 : ¬cond0_0 i) (hc1 : ¬cond0_1 i)
    (x0 : Vec F S1x40x1024 .i32) (x1 : Vec F S1024x512 .bf16) (x2 : Vec F S512x512 .bf16) (x3 : Vec F S512x512 .bf16) (xs0 xs1 : Vec F S1024x512 .f32) (y : S1024x512.Idx) :
    ∃ pc ∈ (kernelRun0_B c i arg2 harg2 arg3 harg3 arg4 harg4 arg5 harg5 arg6 harg6 arg7 harg7 arg8 harg8 arg9 harg9 hc0 hc1 x0 x1 x2 x3 xs0 xs1).2.1, y ∈ pc.1.set :=
  View.cover_of_tiledL (kernelRun0_B c i arg2 harg2 arg3 harg3 arg4 harg4 arg5 harg5 arg6 harg6 arg7 harg7 arg8 harg8 arg9 harg9 hc0 hc1 x0 x1 x2 x3 xs0 xs1).2.1 S1024x512.size (by sl_kernel_rfl) y
/-- What a middle point leaves in the first accumulator, over what the point before left, -/
def accB_0 (c : Dev nD) (i : grid0.Coords) (arg2 : Memref sig .tc .vmem S1x40x1024 .i32) (harg2 : arg2.IsWhole) (arg3 : Memref sig .tc .vmem S1024x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x1024 .f32) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x1024 .i32) (harg9 : arg9.IsWhole) (hc0 : ¬cond0_0 i) (hc1 : ¬cond0_1 i)
    (x0 : Vec F S1x40x1024 .i32) (x1 : Vec F S1024x512 .bf16) (x2 : Vec F S512x512 .bf16) (x3 : Vec F S512x512 .bf16) (xs0 xs1 : Vec F S1024x512 .f32) : Vec F S1024x512 .f32 :=
  View.canon (kernelRun0_B c i arg2 harg2 arg3 harg3 arg4 harg4 arg5 harg5 arg6 harg6 arg7 harg7 arg8 harg8 arg9 harg9 hc0 hc1 x0 x1 x2 x3 xs0 xs1).1
/-- and in the second. -/
def accB_1 (c : Dev nD) (i : grid0.Coords) (arg2 : Memref sig .tc .vmem S1x40x1024 .i32) (harg2 : arg2.IsWhole) (arg3 : Memref sig .tc .vmem S1024x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x1024 .f32) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x1024 .i32) (harg9 : arg9.IsWhole) (hc0 : ¬cond0_0 i) (hc1 : ¬cond0_1 i)
    (x0 : Vec F S1x40x1024 .i32) (x1 : Vec F S1024x512 .bf16) (x2 : Vec F S512x512 .bf16) (x3 : Vec F S512x512 .bf16) (xs0 xs1 : Vec F S1024x512 .f32) : Vec F S1024x512 .f32 :=
  View.canon (kernelRun0_B c i arg2 harg2 arg3 harg3 arg4 harg4 arg5 harg5 arg6 harg6 arg7 harg7 arg8 harg8 arg9 harg9 hc0 hc1 x0 x1 x2 x3 xs0 xs1).2.1
/-- At a last point of a row of the grid the store into the output block covers it. -/
theorem coverC_4 (c : Dev nD) (i : grid0.Coords) (arg2 : Memref sig .tc .vmem S1x40x1024 .i32) (harg2 : arg2.IsWhole) (arg3 : Memref sig .tc .vmem S1024x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x1024 .f32) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x1024 .i32) (harg9 : arg9.IsWhole) (hc0 : ¬cond0_0 i) (hc1 : cond0_1 i)
    (x0 : Vec F S1x40x1024 .i32) (x1 : Vec F S1024x512 .bf16) (x2 : Vec F S512x512 .bf16) (x3 : Vec F S512x512 .bf16) (xs0 xs1 : Vec F S1024x512 .f32) (y : S512x1024.Idx) :
    ∃ pc ∈ (kernelRun0_C c i arg2 harg2 arg3 harg3 arg4 harg4 arg5 harg5 arg6 harg6 arg7 harg7 arg8 harg8 arg9 harg9 hc0 hc1 x0 x1 x2 x3 xs0 xs1).1, y ∈ pc.1.set :=
  View.cover_of_tiledL (kernelRun0_C c i arg2 harg2 arg3 harg3 arg4 harg4 arg5 harg5 arg6 harg6 arg7 harg7 arg8 harg8 arg9 harg9 hc0 hc1 x0 x1 x2 x3 xs0 xs1).1 S512x1024.size (by sl_kernel_rfl) y
/-- The stores into the first accumulator cover it. -/
theorem scoverC_0 (c : Dev nD) (i : grid0.Coords) (arg2 : Memref sig .tc .vmem S1x40x1024 .i32) (harg2 : arg2.IsWhole) (arg3 : Memref sig .tc .vmem S1024x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x1024 .f32) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x1024 .i32) (harg9 : arg9.IsWhole) (hc0 : ¬cond0_0 i) (hc1 : cond0_1 i)
    (x0 : Vec F S1x40x1024 .i32) (x1 : Vec F S1024x512 .bf16) (x2 : Vec F S512x512 .bf16) (x3 : Vec F S512x512 .bf16) (xs0 xs1 : Vec F S1024x512 .f32) (y : S1024x512.Idx) :
    ∃ pc ∈ (kernelRun0_C c i arg2 harg2 arg3 harg3 arg4 harg4 arg5 harg5 arg6 harg6 arg7 harg7 arg8 harg8 arg9 harg9 hc0 hc1 x0 x1 x2 x3 xs0 xs1).2.1, y ∈ pc.1.set :=
  View.cover_of_tiledL (kernelRun0_C c i arg2 harg2 arg3 harg3 arg4 harg4 arg5 harg5 arg6 harg6 arg7 harg7 arg8 harg8 arg9 harg9 hc0 hc1 x0 x1 x2 x3 xs0 xs1).2.1 S1024x512.size (by sl_kernel_rfl) y
/-- And those into the second. -/
theorem scoverC_1 (c : Dev nD) (i : grid0.Coords) (arg2 : Memref sig .tc .vmem S1x40x1024 .i32) (harg2 : arg2.IsWhole) (arg3 : Memref sig .tc .vmem S1024x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x1024 .f32) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x1024 .i32) (harg9 : arg9.IsWhole) (hc0 : ¬cond0_0 i) (hc1 : cond0_1 i)
    (x0 : Vec F S1x40x1024 .i32) (x1 : Vec F S1024x512 .bf16) (x2 : Vec F S512x512 .bf16) (x3 : Vec F S512x512 .bf16) (xs0 xs1 : Vec F S1024x512 .f32) (y : S1024x512.Idx) :
    ∃ pc ∈ (kernelRun0_C c i arg2 harg2 arg3 harg3 arg4 harg4 arg5 harg5 arg6 harg6 arg7 harg7 arg8 harg8 arg9 harg9 hc0 hc1 x0 x1 x2 x3 xs0 xs1).2.2.1, y ∈ pc.1.set :=
  View.cover_of_tiledL (kernelRun0_C c i arg2 harg2 arg3 harg3 arg4 harg4 arg5 harg5 arg6 harg6 arg7 harg7 arg8 harg8 arg9 harg9 hc0 hc1 x0 x1 x2 x3 xs0 xs1).2.2.1 S1024x512.size (by sl_kernel_rfl) y
/-- What such a point leaves in the output block, -/
def outC_4 (c : Dev nD) (i : grid0.Coords) (arg2 : Memref sig .tc .vmem S1x40x1024 .i32) (harg2 : arg2.IsWhole) (arg3 : Memref sig .tc .vmem S1024x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x1024 .f32) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x1024 .i32) (harg9 : arg9.IsWhole) (hc0 : ¬cond0_0 i) (hc1 : cond0_1 i)
    (x0 : Vec F S1x40x1024 .i32) (x1 : Vec F S1024x512 .bf16) (x2 : Vec F S512x512 .bf16) (x3 : Vec F S512x512 .bf16) (xs0 xs1 : Vec F S1024x512 .f32) : Vec F S512x1024 .f32 :=
  View.canon (kernelRun0_C c i arg2 harg2 arg3 harg3 arg4 harg4 arg5 harg5 arg6 harg6 arg7 harg7 arg8 harg8 arg9 harg9 hc0 hc1 x0 x1 x2 x3 xs0 xs1).1
/-- in the first accumulator, -/
def accC_0 (c : Dev nD) (i : grid0.Coords) (arg2 : Memref sig .tc .vmem S1x40x1024 .i32) (harg2 : arg2.IsWhole) (arg3 : Memref sig .tc .vmem S1024x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x1024 .f32) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x1024 .i32) (harg9 : arg9.IsWhole) (hc0 : ¬cond0_0 i) (hc1 : cond0_1 i)
    (x0 : Vec F S1x40x1024 .i32) (x1 : Vec F S1024x512 .bf16) (x2 : Vec F S512x512 .bf16) (x3 : Vec F S512x512 .bf16) (xs0 xs1 : Vec F S1024x512 .f32) : Vec F S1024x512 .f32 :=
  View.canon (kernelRun0_C c i arg2 harg2 arg3 harg3 arg4 harg4 arg5 harg5 arg6 harg6 arg7 harg7 arg8 harg8 arg9 harg9 hc0 hc1 x0 x1 x2 x3 xs0 xs1).2.1
/-- and in the second. -/
def accC_1 (c : Dev nD) (i : grid0.Coords) (arg2 : Memref sig .tc .vmem S1x40x1024 .i32) (harg2 : arg2.IsWhole) (arg3 : Memref sig .tc .vmem S1024x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x1024 .f32) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x1024 .i32) (harg9 : arg9.IsWhole) (hc0 : ¬cond0_0 i) (hc1 : cond0_1 i)
    (x0 : Vec F S1x40x1024 .i32) (x1 : Vec F S1024x512 .bf16) (x2 : Vec F S512x512 .bf16) (x3 : Vec F S512x512 .bf16) (xs0 xs1 : Vec F S1024x512 .f32) : Vec F S1024x512 .f32 :=
  View.canon (kernelRun0_C c i arg2 harg2 arg3 harg3 arg4 harg4 arg5 harg5 arg6 harg6 arg7 harg7 arg8 harg8 arg9 harg9 hc0 hc1 x0 x1 x2 x3 xs0 xs1).2.2.1

/-- A placeholder for the output block at the points that store nothing into it: the window is idle there and is not
    written back, so nothing reads it. -/
def junkOut : Vec F S512x1024 .f32 := VO0_4.read (Elt F) VO0_4.junk

/-! ## What the buffers hold after each point -/

/-- After the body at position `n`: the output block, the first accumulator, the second accumulator. -/
def outsAt0 (c : Dev nD) : (n : ℕ) → n < cfg0.N → Vec F S512x1024 .f32 × Vec F S1024x512 .f32 × Vec F S1024x512 .f32
  | 0, hn => (junkOut, accA_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), accA_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩))
  | n + 1, hn =>
    if h0 : (n + 1) % 98 = 0 then
      if h1 : (n + 1) % 98 = 97 then
        False.elim (by omega)
      else
        (junkOut, accA_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), accA_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩))
    else
      if h1 : (n + 1) % 98 = 97 then
        (outC_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2, accC_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2, accC_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2)
      else
        (junkOut, accB_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2, accB_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2)

theorem outsAt0_A (c : Dev nD) (t : Fin cfg0.N) (h0 : t.val % 98 = 0) (h1 : ¬t.val % 98 = 97) :
    outsAt0 m c t.val t.isLt = (junkOut, accA_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t), accA_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t)) := by
  obtain ⟨n, hn⟩ := t
  cases n with
  | zero => exact rfl
  | succ n => exact (dif_pos h0).trans ((dif_neg h1).trans rfl)

theorem outsAt0_B (c : Dev nD) (t : Fin cfg0.N) (h0 : ¬t.val % 98 = 0) (h1 : ¬t.val % 98 = 97) :
    outsAt0 m c t.val t.isLt = (junkOut, accB_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2, accB_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 98 = 0) (h1 : t.val % 98 = 97) :
    outsAt0 m c t.val t.isLt = (outC_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2, accC_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2, accC_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point every scratch holds anything; afterwards the
    two accumulators hold what the point before left, the hit counts anything. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2) ∗ (∃ d, owns (c : Thread nD τ) scM0_2 fullShare d)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2) ∗ (∃ d, owns (c : Thread nD τ) scM0_2 fullShare d)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2) ∗ (∃ d, owns (c : Thread nD τ) scM0_2 fullShare d)) ∗ (∃ r, prngReg c r)) := by
  cases n with
  | zero => exact absurd rfl hz
  | succ n => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves_in (c : Dev nD) (t : Fin cfg0.N) :
    (dats m 0 c).leavesExact 0 t = owns (c : Thread nD τ) (ms0_0 t) fullShare (iblk m c 0 t)
    ∧ (dats m 0 c).leavesExact 1 t = owns (c : Thread nD τ) (ms0_1 t) fullShare (iblk m c 1 t)
    ∧ (dats m 0 c).leavesExact 2 t = owns (c : Thread nD τ) (ms0_2 t) fullShare (iblk m c 2 t)
    ∧ (dats m 0 c).leavesExact 3 t = owns (c : Thread nD τ) (ms0_3 t) fullShare (iblk m c 3 t) := by
  refine ⟨?_, ?_, ?_, ?_⟩
  · unfold Dat.leavesExact; rw [liveAt0_0 t, after0_0]
  · unfold Dat.leavesExact; rw [liveAt0_1 t, after0_1]
  · unfold Dat.leavesExact; rw [liveAt0_2 t, after0_2]
  · unfold Dat.leavesExact; rw [liveAt0_3 t, after0_3]

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [(leaves_in m c t).1, (leaves_in m c t).2.1, (leaves_in m c t).2.2.1, (leaves_in m c t).2.2.2]
  have hN : t.val < 1568 := lt_of_lt_of_eq t.isLt (show cfg0.N = 1568 from N_0)
  by_cases h0 : t.val % 98 = 0
  · by_cases h1 : t.val % 98 = 97
    · exfalso; omega
    · rw [Dat.leavesExact_idle (dats m 0 c) 4 t (idleAt0_4 t (fun h => h1 ((hcond0_1 t).mp h))) (noFlush0_4 t (fun h => h1 ((hcond0_1 t).mp h)))]
      rw [outsAt0_A m c t h0 h1]
      unfold accA_0 accA_1; (try dsimp only)
      by_cases hz : t.val = 0
      · rw [PhiS_castSucc m c t, PhiS_zero m c _ _ hz, PhiA0_eq]
        iintro ⟨⟨⟨HS0, HS1, HS2⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ _ _ _ _ ((hcond0_0 t).mpr h0) (fun h => h1 ((hcond0_1 t).mp h)) (iblk m c 0 t) (iblk m c 1 t) (iblk m c 2 t) (iblk m c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        iintro ⟨H0, H1, H2, H3, H4, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_eq_canon _ _ _ (scoverA_0 c _ _ _ _ _ _ _ _ _ _ _ _ _ _ _ _ _ _ _ _ _ _ _)
            isplitl [HS1]
            · unfold owns; iexists _; isplitr
              swap; · iexact HS1
              ipureintro; exact View.read_writes_eq_canon _ _ _ (scoverA_1 c _ _ _ _ _ _ _ _ _ _ _ _ _ _ _ _ _ _ _ _ _ _ _)
            iexists (scM0_2.view.read (Elt F) es2); unfold owns; iexists es2; isplitr
            · ipureintro; rfl
            iexact HS2
          iexact Hg
        isplitl [Ho]; · iexact Ho
        isplitl [H0]; · iexact H0
        isplitl [H1]; · iexact H1
        isplitl [H2]; · iexact H2
        isplitl [H3]; · iexact H3
        iexists _; iexact H4
      · rw [PhiS_castSucc m c t, PhiS_pos m c _ _ hz]
        iintro ⟨⟨⟨HS0, HS1, HS2⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ _ _ _ _ ((hcond0_0 t).mpr h0) (fun h => h1 ((hcond0_1 t).mp h)) (iblk m c 0 t) (iblk m c 1 t) (iblk m c 2 t) (iblk m c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        isplitl [HS1]; · iexists _; iexact HS1
        isplitl [HS2]; · iexact HS2
        iintro ⟨H0, H1, H2, H3, H4, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_eq_canon _ _ _ (scoverA_0 c _ _ _ _ _ _ _ _ _ _ _ _ _ _ _ _ _ _ _ _ _ _ _)
            isplitl [HS1]
            · unfold owns; iexists _; isplitr
              swap; · iexact HS1
              ipureintro; exact View.read_writes_eq_canon _ _ _ (scoverA_1 c _ _ _ _ _ _ _ _ _ _ _ _ _ _ _ _ _ _ _ _ _ _ _)
            iexists (scM0_2.view.read (Elt F) es2); unfold owns; iexists es2; isplitr
            · ipureintro; rfl
            iexact HS2
          iexact Hg
        isplitl [Ho]; · iexact Ho
        isplitl [H0]; · iexact H0
        isplitl [H1]; · iexact H1
        isplitl [H2]; · iexact H2
        isplitl [H3]; · iexact H3
        iexists _; iexact H4
  · have hz : t.val ≠ 0 := fun h => h0 (by rw [h])
    by_cases h1 : t.val % 98 = 97
    · rw [show (dats m 0 c).leavesExact 4 t = owns (c : Thread nD τ) (ms0_4 t) fullShare ((dats m 0 c).after 4 t) from by
        unfold Dat.leavesExact; rw [liveAt0_4 t ((hcond0_1 t).mpr h1)], after0_4]
      rw [outsAt0_C m c t h0 h1]
      unfold outC_4 accC_0 accC_1; (try dsimp only)
      rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩, ⟨%d4, H4⟩⟩
      iapply ((kernelRun0_C c (grid0.coords t) _ _ _ _ _ _ _ _ _ _ _ _ _ _ _ _ (fun h => h0 ((hcond0_0 t).mp h)) ((hcond0_1 t).mpr h1) (iblk m c 0 t) (iblk m c 1 t) (iblk m c 2 t) (iblk m c 3 t) _ _).2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      iintro ⟨H0, H1, H2, H3, ⟨%e4, H4⟩, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_eq_canon _ _ _ (scoverC_0 c _ _ _ _ _ _ _ _ _ _ _ _ _ _ _ _ _ _ _ _ _ _ _ _ _)
          isplitl [HS1]
          · unfold owns; iexists _; isplitr
            swap; · iexact HS1
            ipureintro; exact View.read_writes_eq_canon _ _ _ (scoverC_1 c _ _ _ _ _ _ _ _ _ _ _ _ _ _ _ _ _ _ _ _ _ _ _ _ _)
          iexists (scM0_2.view.read (Elt F) es2); unfold owns; iexists es2; isplitr
          · ipureintro; rfl
          iexact HS2
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_eq_canon _ _ _ (coverC_4 c _ _ _ _ _ _ _ _ _ _ _ _ _ _ _ _ _ _ _ _ _ _ _ _ _)
    · rw [Dat.leavesExact_idle (dats m 0 c) 4 t (idleAt0_4 t (fun h => h1 ((hcond0_1 t).mp h))) (noFlush0_4 t (fun h => h1 ((hcond0_1 t).mp h)))]
      rw [outsAt0_B m c t h0 h1]
      unfold accB_0 accB_1; (try dsimp only)
      rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ _ _ _ _ (fun h => h0 ((hcond0_0 t).mp h)) (fun h => h1 ((hcond0_1 t).mp h)) (iblk m c 0 t) (iblk m c 1 t) (iblk m c 2 t) (iblk m c 3 t) _ _).2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_eq_canon _ _ _ (scoverB_0 c _ _ _ _ _ _ _ _ _ _ _ _ _ _ _ _ _ _ _ _ _ _ _ _ _)
          isplitl [HS1]
          · unfold owns; iexists _; isplitr
            swap; · iexact HS1
            ipureintro; exact View.read_writes_eq_canon _ _ _ (scoverB_1 c _ _ _ _ _ _ _ _ _ _ _ _ _ _ _ _ _ _ _ _ _ _ _ _ _)
          iexists (scM0_2.view.read (Elt F) es2); unfold owns; iexists es2; isplitr
          · ipureintro; rfl
          iexact HS2
        iexact Hg
      isplitl [Ho]; · iexact Ho
      isplitl [H0]; · iexact H0
      isplitl [H1]; · iexact H1
      isplitl [H2]; · iexact H2
      isplitl [H3]; · iexact H3
      iexists _; iexact H4

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]; · iexists _; iexact HS0
    isplitl [HS1]; · iexists _; iexact HS1
    iexact HS2
  iexact Hg

theorem hout (c : Dev nD) : (dats m 0 c).Φ (Fin.last cfg0.N) ⊢ Pipeline.ΦA spec0 c :=
  Phi_out m c _ (by rw [Fin.val_last]; have : cfg0.N = 1568 := N_0; omega)

/-! ## The run and the frame -/

set_option backward.isDefEq.respectTransparency.types false in
/-- Every weakly fair execution of @main terminates, every array of the pipeline ends at what the proof data says, and
    every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m)
    (hmain := hmain m Variants.none) (hA := A_eq m) (hin := hin m) (hout := hout m)

/-- The frame: the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (run_main m ρ)

end Cert.KernelIdeal.Gen

end
-- ==== Proof.Spec.lean ====
/- The result both programs compute, as one function of the four argument arrays. For output entry (e, b): the weight
   row e contracted over 1024 columns with node b's combined feature row — columns 0..511 the feature row of the
   node itself, columns 512..1023 the mean over its 32 sampled neighbours of their feature rows — clipped below at
   zero. The mean is written as the sum times 1/32, and the contraction as its two halves. -/
import Idealize.ShloMosaic.PureOps.Ideal
import Idealize.ShloMosaic.Lib.ValueIdx

noncomputable section

namespace Cert.Spec

open Idealize.ShloMosaic Idealize.ShloMosaic.ValueIdx

abbrev SFeat : Shape := ⟨2, ![100000, 512]⟩
abbrev SWt : Shape := ⟨2, ![512, 1024]⟩
abbrev SNodes : Shape := ⟨1, ![16384]⟩
abbrev SNeigh : Shape := ⟨2, ![16384, 32]⟩
abbrev SOut : Shape := ⟨2, ![512, 16384]⟩

/-- An index word names a row of the feature table: read signed, it lies in [0, 100000). -/
def InRange (x : BitVec 32) : Prop := 0 ≤ x.toInt ∧ x.toInt < 100000

/-- The row of the feature table an index word names (any word is sent to some row; for a word in range, to the row
    it names). -/
def rowOf (x : BitVec 32) : Fin 100000 := ⟨x.toInt.toNat % 100000, Nat.mod_lt _ (by decide)⟩

theorem rowOf_val {x : BitVec 32} (h : InRange x) : (rowOf x).val = x.toInt.toNat := by
  unfold rowOf InRange at *
  simp only
  apply Nat.mod_eq_of_lt
  omega

/-- Column j of the lower half of the weight matrix's columns, and of the upper half. -/
def colLo (j : Fin 512) : Fin 1024 := ⟨j.val, by omega⟩
def colHi (j : Fin 512) : Fin 1024 := ⟨512 + j.val, by omega⟩

/-- Entry j of node b's own feature row. -/
def selfFeat (feat : SFeat.Idx → EReal) (nodes : SNodes.Idx → BitVec 32) (b : Fin 16384) (j : Fin 512) : EReal :=
  feat (ix2 (rowOf (nodes (ix1 b))) j)

/-- Entry j of the sum of the feature rows of node b's 32 sampled neighbours. -/
def neighSum (feat : SFeat.Idx → EReal) (neigh : SNeigh.Idx → BitVec 32) (b : Fin 16384) (j : Fin 512) : EReal :=
  ∑ k : Fin 32, feat (ix2 (rowOf (neigh (ix2 b k))) j)

/-- Output entry (e, b). -/
def outAt (feat : SFeat.Idx → EReal) (w : SWt.Idx → EReal) (nodes : SNodes.Idx → BitVec 32) (neigh : SNeigh.Idx → BitVec 32)
    (e : Fin 512) (b : Fin 16384) : EReal :=
  max ((∑ j : Fin 512, w (ix2 e (colLo j)) * selfFeat feat nodes b j)
      + ∑ j : Fin 512, w (ix2 e (colHi j)) * (neighSum feat neigh b j * ((1 / 32 : ℝ) : EReal))) 0

/-- The whole result array. -/
def G (feat : SFeat.Idx → EReal) (w : SWt.Idx → EReal) (nodes : SNodes.Idx → BitVec 32) (neigh : SNeigh.Idx → BitVec 32) :
    SOut.Idx → EReal :=
  fun i => outAt feat w nodes neigh (i 0) (i 1)

theorem G_apply (feat : SFeat.Idx → EReal) (w : SWt.Idx → EReal) (nodes : SNodes.Idx → BitVec 32) (neigh : SNeigh.Idx → BitVec 32)
    (e : Fin 512) (b : Fin 16384) : G feat w nodes neigh (ix2 e b) = outAt feat w nodes neigh e b := rfl

/-- What the precondition says of the four argument arrays: every float entry is a real number, every index word
    names a row of the feature table. -/
structure Admissible (feat : SFeat.Idx → EReal) (w : SWt.Idx → EReal) (nodes : SNodes.Idx → BitVec 32) (neigh : SNeigh.Idx → BitVec 32) : Prop where
  feat_real : ∀ i, ∃ r : ℝ, feat i = (r : EReal)
  w_real : ∀ i, ∃ r : ℝ, w i = (r : EReal)
  nodes_in : ∀ b : Fin 16384, InRange (nodes (ix1 b))
  neigh_in : ∀ (b : Fin 16384) (k : Fin 32), InRange (neigh (ix2 b k))

end Cert.Spec

end
-- ==== Proof.HostVals.lean ====
/- What the host lines before the region leave in the four arrays the region's windows stage, read at an index, as
   functions of the argument arrays: the packed index array (plane 0 of each group of 1024 nodes the nodes' own ids,
   planes 1..32 their neighbours' ids transposed, planes 33..39 the word -1), the feature table padded below with 352
   zero rows, the left half of the weight matrix, and its right half scaled by 1/32. -/
import proofs.«417351_j43052752175741_3_alg».proof.Proof.FrameKernelIdeal.Kit
import proofs.«417351_j43052752175741_3_alg».proof.Proof.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run
import Idealize.ShloMosaic.Lib.KernelVsHost
import Idealize.ShloMosaic.Lib.IdealHost

set_option maxRecDepth 16384

noncomputable section

namespace Cert.KernelIdeal.HostVals

open Idealize.ShloMosaic Idealize.ShloMosaic.TcCoe Idealize.ShloMosaic.ValueIdx Idealize.SL.Sem
open Cert.KernelIdeal Cert.KernelIdeal.Gen Cert.Spec

variable (m : (ℓ : Loc nD τ sig) → Buf (Elt Ideal) ℓ)

/-- The argument arrays as launched on core c, at their literal types. -/
abbrev featArg (c : Dev nD) : SFeat.Idx → EReal := m ((c : Thread nD τ).loc main_arg0)
abbrev wArg (c : Dev nD) : SWt.Idx → EReal := m ((c : Thread nD τ).loc main_arg1)
abbrev nodesArg (c : Dev nD) : SNodes.Idx → BitVec 32 := m ((c : Thread nD τ).loc main_arg2)
abbrev neighArg (c : Dev nD) : SNeigh.Idx → BitVec 32 := m ((c : Thread nD τ).loc main_arg3)

/-- The four arrays the region's input windows stage, as the region finds them, at their literal types. -/
abbrev packedIdx (c : Dev nD) : (⟨3, ![16, 40, 1024]⟩ : Shape).Idx → BitVec 32 := V m c main_v6
abbrev featPad (c : Dev nD) : (⟨2, ![100352, 512]⟩ : Shape).Idx → EReal := V m c main_v1
abbrev wLo (c : Dev nD) : (⟨2, ![512, 512]⟩ : Shape).Idx → EReal := V m c main_v8
abbrev wHi (c : Dev nD) : (⟨2, ![512, 512]⟩ : Shape).Idx → EReal := V m c main_v12

/-- Node number i * 1024 + b of the 16384. -/
def nodeOf (i : Fin 16) (b : Fin 1024) : Fin 16384 := ⟨i.val * 1024 + b.val, by omega⟩

/-! ## The four arrays as terms of the argument arrays -/

/-- An operation of three operands writes, at its result, its function of the three operands' contents. -/
theorem nary3_result {Val : EltTy → Type} {x a b y : Ref sig .tc}
    (f : ((k : Fin 3) → ((![x, a, b] : Fin 3 → Ref sig .tc) k).ty.Contents Val) → y.ty.Contents Val) (hxs hy)
    (F : Valuation τ sig Val) :
    (StableHlo.nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [StableHlo.nary_result]; congr 1; funext k; fin_cases k <;> rfl

/-- The packed index array: the node ids as [16, 1, 1024], the neighbour ids as [16, 1024, 32] with the last two axes
    exchanged, and the word -1 on [16, 7, 1024], laid one after the other along axis 1. -/
theorem packedIdx_eq (c : Dev nD) :
    packedIdx m c = concatenate S16x40x1024 1
      [⟨S16x1x1024, shapeCast S16x1x1024 (nodesArg m c) shapeCasts_S16384_S16x1x1024⟩,
       ⟨S16x32x1024, transpose S16x32x1024 [0, 2, 1] (shapeCast S16x1024x32 (neighArg m c) shapeCasts_S16384x32_S16x1024x32) transposes_S16x1024x32_S16x32x1024_0_2_1⟩,
       ⟨S16x7x1024, broadcastInDim S16x7x1024 ![] bcast_S_S16x7x1024 (constantI S_ 32 4294967295#32)⟩]
      concatenates_S16x1x1024_S16x32x1024_S16x7x1024_S16x40x1024_d1 := by
  dsimp only [packedIdx, V]
  simp only [hostOps0, hostOps0_1, hostOps0_2, List.flatten_cons, List.flatten_nil, List.append_nil, List.cons_append, List.nil_append]
  simp only [StableHlo.after_cons, StableHlo.after_nil]
  repeat (first
    | rw [StableHlo.nullary_result] | rw [StableHlo.unary_result] | rw [StableHlo.binary_result]
    | rw [StableHlo.reshape_result] | rw [nary3_result]
    | (rw [StableHlo.nullary_result_ne]; rotate_left; decide)
    | (rw [StableHlo.unary_result_ne]; rotate_left; decide)
    | (rw [StableHlo.binary_result_ne]; rotate_left; decide)
    | (rw [StableHlo.reshape_result_ne]; rotate_left; decide)
    | (rw [StableHlo.nary_result_ne]; rotate_left; decide))
  all_goals rfl

/-- The padded feature table: the table (narrowed, which changes no value) with 352 rows of the converted word 0 below. -/
theorem featPad_eq (c : Dev nD) :
    featPad m c = pad S100352x512 ![0, 0] ![352, 0] ![0, 0] (truncf (F := Ideal) .bf16 (featArg m c) bitsLt_bf16_f32) (sitofp (F := Ideal) .bf16 (constantI S_ 32 0#32)) pads_S100000x512_S100352x512_03520_000 h_S_ := by
  dsimp only [featPad, V]
  simp only [hostOps0, hostOps0_1, hostOps0_2, List.flatten_cons, List.flatten_nil, List.append_nil, List.cons_append, List.nil_append]
  after_results <;> rfl

/-- The left weight half: columns 0..511 of the weight matrix, narrowed. -/
theorem wLo_eq (c : Dev nD) :
    wLo m c = truncf (F := Ideal) .bf16 (extractStridedSlice S512x512 ![0, 0] (wArg m c) slices_S512x1024_S512x512_0_0) bitsLt_bf16_f32 := by
  dsimp only [wLo, V]
  simp only [hostOps0, hostOps0_1, hostOps0_2, List.flatten_cons, List.flatten_nil, List.append_nil, List.cons_append, List.nil_append]
  after_results <;> rfl

/-- The right weight half: columns 512..1023 of the weight matrix times the constant of pattern 0x3D000000, narrowed. -/
theorem wHi_eq (c : Dev nD) :
    wHi m c = truncf (F := Ideal) .bf16 (mulf (extractStridedSlice S512x512 ![0, 512] (wArg m c) slices_S512x1024_S512x512_0_512) (broadcastInDim S512x512 ![] bcast_S_S512x512 (constant (F := Ideal) S_ .f32 0x3D000000#32))) bitsLt_bf16_f32 := by
  dsimp only [wHi, V]
  simp only [hostOps0, hostOps0_1, hostOps0_2, List.flatten_cons, List.flatten_nil, List.append_nil, List.cons_append, List.nil_append]
  after_results <;> rfl

/-! ## Read at an index -/

/-- The f32 pattern 0x3D000000 denotes 1/32. -/
theorem ofBits_inv32 : Ideal.ofBits .f32 0x3D000000#32 = ((1 / 32 : ℝ) : EReal) := by
  simp [Ideal.ofBits, Ideal.ieee, -EReal.coe_mul]; norm_num

/-- Plane 0 of the three pieces laid along axis 1 is the first piece's one plane. -/
theorem concat3_plane0 {α : Type} (x0 : S16x1x1024.Idx → α) (x1 : S16x32x1024.Idx → α) (x2 : S16x7x1024.Idx → α)
    (h : Shape.Concatenates [S16x1x1024, S16x32x1024, S16x7x1024] S16x40x1024 1) (i : Fin 16) (b : Fin 1024) :
    concatenate S16x40x1024 1 [⟨S16x1x1024, x0⟩, ⟨S16x32x1024, x1⟩, ⟨S16x7x1024, x2⟩] h (ix3 i (0 : Fin 40) b)
      = x0 (ix3 i (0 : Fin 1) b) :=
  concatenate_apply_piece (t := S16x40x1024) 1 [⟨S16x1x1024, x0⟩, ⟨S16x32x1024, x1⟩, ⟨S16x7x1024, x2⟩] h
    (ix3 i (0 : Fin 40) b) 0 (Nat.zero_lt_succ _) S16x1x1024 x0 rfl rfl 0 rfl (ix3 i (0 : Fin 1) b)
    (fun a ha => match a with
      | ⟨0, _⟩ => rfl
      | ⟨1, _⟩ => absurd rfl ha
      | ⟨2, _⟩ => rfl)
    rfl

/-- Plane k + 1 of the three pieces laid along axis 1 is the second piece's plane k. -/
theorem concat3_plane_succ {α : Type} (x0 : S16x1x1024.Idx → α) (x1 : S16x32x1024.Idx → α) (x2 : S16x7x1024.Idx → α)
    (h : Shape.Concatenates [S16x1x1024, S16x32x1024, S16x7x1024] S16x40x1024 1) (i : Fin 16) (k : Fin 32) (b : Fin 1024) :
    concatenate S16x40x1024 1 [⟨S16x1x1024, x0⟩, ⟨S16x32x1024, x1⟩, ⟨S16x7x1024, x2⟩] h (ix3 i (⟨k.val + 1, by omega⟩ : Fin 40) b)
      = x1 (ix3 i k b) :=
  concatenate_apply_piece (t := S16x40x1024) 1 [⟨S16x1x1024, x0⟩, ⟨S16x32x1024, x1⟩, ⟨S16x7x1024, x2⟩] h
    (ix3 i (⟨k.val + 1, by omega⟩ : Fin 40) b) 1 (Nat.succ_lt_succ (Nat.zero_lt_succ _)) S16x32x1024 x1 rfl rfl 1 rfl (ix3 i k b)
    (fun a ha => match a with
      | ⟨0, _⟩ => rfl
      | ⟨1, _⟩ => absurd rfl ha
      | ⟨2, _⟩ => rfl)
    (Nat.add_comm 1 k.val)

/-- Plane 0 of group i of the packed index array holds the ids of the group's nodes. -/
theorem packed_self (c : Dev nD) (i : Fin 16) (b : Fin 1024) :
    packedIdx m c (ix3 i (0 : Fin 40) b) = nodesArg m c (ix1 (nodeOf i b)) := by
  refine (congrFun (packedIdx_eq m c) (ix3 i (0 : Fin 40) b)).trans ?_
  refine (concat3_plane0 _ _ _ concatenates_S16x1x1024_S16x32x1024_S16x7x1024_S16x40x1024_d1 i b).trans ?_
  -- position i * 1024 + b of the 16384 is position (i, 0, b) of [16, 1, 1024]
  refine shapeCast_apply (nodesArg m c) shapeCasts_S16384_S16x1x1024 (ix3 i (0 : Fin 1) b) (ix1 (nodeOf i b)) ?_
  rw [Shape.rowMajor_val_one, Shape.rowMajor_val_three]
  show i.val * 1024 + b.val = (i.val * 1 + 0) * 1024 + b.val
  omega

/-- Plane k + 1 holds the group's nodes' k-th sampled neighbours. -/
theorem packed_neigh (c : Dev nD) (i : Fin 16) (k : Fin 32) (b : Fin 1024) :
    packedIdx m c (ix3 i (⟨k.val + 1, by omega⟩ : Fin 40) b) = neighArg m c (ix2 (nodeOf i b) k) := by
  refine (congrFun (packedIdx_eq m c) (ix3 i (⟨k.val + 1, by omega⟩ : Fin 40) b)).trans ?_
  refine (concat3_plane_succ _ _ _ concatenates_S16x1x1024_S16x32x1024_S16x7x1024_S16x40x1024_d1 i k b).trans ?_
  refine (transpose_ix3_021_apply (shapeCast S16x1024x32 (neighArg m c) shapeCasts_S16384x32_S16x1024x32)
    transposes_S16x1024x32_S16x32x1024_0_2_1 i k b).trans ?_
  -- position (i * 1024 + b, k) of [16384, 32] is position (i, b, k) of [16, 1024, 32]
  refine shapeCast_apply (neighArg m c) shapeCasts_S16384x32_S16x1024x32 (ix3 i b k) (ix2 (nodeOf i b) k) ?_
  rw [Shape.rowMajor_val_two, Shape.rowMajor_val_three]
  show (i.val * 1024 + b.val) * 32 + k.val = (i.val * 1024 + b.val) * 32 + k.val
  rfl

/-- The padded feature table: the table's own rows, then zero rows. -/
theorem padded_feat (c : Dev nD) (R : Fin 100352) (f : Fin 512) :
    featPad m c (ix2 R f) = if h : R.val < 100000 then featArg m c (ix2 (⟨R.val, h⟩ : Fin 100000) f) else 0 := by
  refine (congrFun (featPad_eq m c) (ix2 R f)).trans ?_
  by_cases h : R.val < 100000
  · -- a row of the table itself
    rw [dif_pos h]
    refine (pad_apply_of_inside ![0, 0] ![352, 0] ![0, 0] (truncf (F := Ideal) .bf16 (featArg m c) bitsLt_bf16_f32)
      (sitofp (F := Ideal) .bf16 (constantI S_ 32 0#32)) pads_S100000x512_S100352x512_03520_000 h_S_ (ix2 R f)
      (ix2 (⟨R.val, h⟩ : Fin 100000) f) ?_).trans rfl
    intro a
    match a with
    | ⟨0, _⟩ => show R.val = 0 + R.val * (0 + 1); omega
    | ⟨1, _⟩ => show f.val = 0 + f.val * (0 + 1); omega
  · -- a row of the padding: the integer 0 converted is the real 0
    rw [dif_neg h]
    refine (pad_apply_of_not_inside ![0, 0] ![352, 0] ![0, 0] (truncf (F := Ideal) .bf16 (featArg m c) bitsLt_bf16_f32)
      (sitofp (F := Ideal) .bf16 (constantI S_ 32 0#32)) pads_S100000x512_S100352x512_03520_000 h_S_ (ix2 R f)
      (0 : Fin 2) ?_).trans ?_
    · show ¬(0 ≤ R.val ∧ (R.val - 0) % (0 + 1) = 0 ∧ (R.val - 0) / (0 + 1) < 100000)
      omega
    · show ((((0#32 : BitVec 32).toInt : ℤ) : ℝ) : EReal) = 0
      simp

/-- The left half of the weight matrix. -/
theorem weight_lo (c : Dev nD) (e f : Fin 512) : wLo m c (ix2 e f) = wArg m c (ix2 e (colLo f)) := by
  refine (congrFun (wLo_eq m c) (ix2 e f)).trans ?_
  exact slice2_axis1_apply 0 (wArg m c) slices_S512x1024_S512x512_0_0 e f (colLo f) (by simp [colLo])

/-- The right half of the weight matrix, each entry times 1/32. -/
theorem weight_hi (c : Dev nD) (e f : Fin 512) :
    wHi m c (ix2 e f) = wArg m c (ix2 e (colHi f)) * ((1 / 32 : ℝ) : EReal) := by
  refine (congrFun (wHi_eq m c) (ix2 e f)).trans ?_
  show extractStridedSlice S512x512 ![0, 512] (wArg m c) slices_S512x1024_S512x512_0_512 (ix2 e f)
      * broadcastInDim S512x512 ![] bcast_S_S512x512 (constant (F := Ideal) S_ .f32 0x3D000000#32) (ix2 e f) = _
  rw [slice2_axis1_apply 512 (wArg m c) slices_S512x1024_S512x512_0_512 e f (colHi f) (by simp [colHi]),
    broadcastInDim_scalar_apply, constant_apply, ofBits_inv32]

end Cert.KernelIdeal.HostVals

end
-- ==== Proof.KernelBlocks.lean ====
/- Each input window's block at a grid point, read off the array it is a block of. Point t of the 16 x 98 grid is in
   group t / 98 (which 1024 nodes) at step t % 98 (which 1024 rows of the padded feature table). The packed index
   block of the point is group t / 98 of the packed index array; the table block is rows (t % 98) * 1024 .. + 1023 of the
   padded table; the two weight blocks are the two weight arrays whole. -/
import proofs.«417351_j43052752175741_3_alg».proof.Proof.FrameKernelIdeal.Frame
import proofs.«417351_j43052752175741_3_alg».proof.Proof.HostVals
import Idealize.ShloMosaic.Lib.ValueIdx
import Idealize.ShloMosaic.Lib.Pipeline.Value

set_option maxRecDepth 16384

noncomputable section

namespace Cert.KernelIdeal.KV

open Idealize.ShloMosaic Idealize.ShloMosaic.TcCoe Idealize.ShloMosaic.ValueIdx Idealize.SL.Sem
open Cert.KernelIdeal Cert.KernelIdeal.Gen Cert.KernelIdeal.HostVals

variable (m : (ℓ : Loc nD τ sig) → Buf (Elt Ideal) ℓ)

theorem N_eq : cfg0.N = 1568 := N_0

/-- The group and the step of a point. -/
def grp (t : Fin cfg0.N) : Fin 16 := ⟨t.val / 98, by have := t.isLt; have h : cfg0.N = 1568 := N_0; omega⟩
def stp (t : Fin cfg0.N) : Fin 98 := ⟨t.val % 98, Nat.mod_lt _ (by decide)⟩

/-- The point's second grid coordinate is its step. -/
theorem coords1 : ∀ t : Fin cfg0.N, (grid0.coords t (1 : Fin 2)).val = t.val % 98 :=
  (by decide +kernel : ∀ t : Fin grid0.N, (grid0.coords t (1 : Fin 2)).val = t.val % 98)

/-- The windows' block indices, decided over the grid. -/
theorem idxw0 : ∀ t : Fin cfg0.N, win0_0.index t (0 : Fin 3) = t.val / 98 ∧ win0_0.index t (1 : Fin 3) = 0 ∧ win0_0.index t (2 : Fin 3) = 0 :=
  (by decide +kernel : ∀ t : Fin grid0.N, _)
theorem idxw1 : ∀ t : Fin cfg0.N, win0_1.index t (0 : Fin 2) = t.val % 98 ∧ win0_1.index t (1 : Fin 2) = 0 :=
  (by decide +kernel : ∀ t : Fin grid0.N, _)
theorem idxw2 : ∀ t : Fin cfg0.N, win0_2.index t (0 : Fin 2) = 0 ∧ win0_2.index t (1 : Fin 2) = 0 :=
  (by decide +kernel : ∀ t : Fin grid0.N, _)
theorem idxw3 : ∀ t : Fin cfg0.N, win0_3.index t (0 : Fin 2) = 0 ∧ win0_3.index t (1 : Fin 2) = 0 :=
  (by decide +kernel : ∀ t : Fin grid0.N, _)
theorem idxw4 : ∀ t : Fin cfg0.N, win0_4.index t (0 : Fin 2) = 0 ∧ win0_4.index t (1 : Fin 2) = t.val / 98 :=
  (by decide +kernel : ∀ t : Fin grid0.N, _)

/-- The four input blocks of a point, at their literal types. -/
abbrev blkIdx (c : Dev nD) (t : Fin cfg0.N) : S1x40x1024.Idx → BitVec 32 := iblk m c 0 t
abbrev blkFeat (c : Dev nD) (t : Fin cfg0.N) : S1024x512.Idx → EReal := iblk m c 1 t
abbrev blkWLo (c : Dev nD) (t : Fin cfg0.N) : S512x512.Idx → EReal := iblk m c 2 t
abbrev blkWHi (c : Dev nD) (t : Fin cfg0.N) : S512x512.Idx → EReal := iblk m c 3 t

/-- Row number (step t) * 1024 + r of the padded table. -/
def padRow (t : Fin cfg0.N) (r : Fin 1024) : Fin 100352 := ⟨(stp t).val * 1024 + r.val, by have := (stp t).isLt; omega⟩

theorem blkIdx_apply (c : Dev nD) (t : Fin cfg0.N) (s : Fin 40) (b : Fin 1024) :
    blkIdx m c t (ix3 (0 : Fin 1) s b) = packedIdx m c (ix3 (grp t) s b) := by
  show V m c main_v6 (((cfg0.win 0).blk t).view.emb (ix3 (0 : Fin 1) s b)) = V m c main_v6 (ix3 (grp t) s b)
  refine congrArg _ ?_
  obtain ⟨e0, e1, e2⟩ := idxw0 t
  funext a; apply Fin.ext
  match a with
  | ⟨0, _⟩ => show win0_0.index t (0 : Fin 3) * 1 + 1 * 0 = t.val / 98; omega
  | ⟨1, _⟩ => show win0_0.index t (1 : Fin 3) * 40 + 1 * s.val = s.val; omega
  | ⟨2, _⟩ => show win0_0.index t (2 : Fin 3) * 1024 + 1 * b.val = b.val; omega

theorem blkFeat_apply (c : Dev nD) (t : Fin cfg0.N) (r : Fin 1024) (f : Fin 512) :
    blkFeat m c t (ix2 r f) = featPad m c (ix2 (padRow t r) f) := by
  show V m c main_v1 (((cfg0.win 1).blk t).view.emb (ix2 r f)) = V m c main_v1 (ix2 (padRow t r) f)
  refine congrArg _ ?_
  obtain ⟨e0, e1⟩ := idxw1 t
  funext a; apply Fin.ext
  match a with
  | ⟨0, _⟩ => show win0_1.index t (0 : Fin 2) * 1024 + 1 * r.val = t.val % 98 * 1024 + r.val; omega
  | ⟨1, _⟩ => show win0_1.index t (1 : Fin 2) * 512 + 1 * f.val = f.val; omega

theorem blkWLo_apply (c : Dev nD) (t : Fin cfg0.N) (e f : Fin 512) :
    blkWLo m c t (ix2 e f) = wLo m c (ix2 e f) := by
  show V m c main_v8 (((cfg0.win 2).blk t).view.emb (ix2 e f)) = V m c main_v8 (ix2 e f)
  refine congrArg _ ?_
  obtain ⟨e0, e1⟩ := idxw2 t
  funext a; apply Fin.ext
  match a with
  | ⟨0, _⟩ => show win0_2.index t (0 : Fin 2) * 512 + 1 * e.val = e.val; omega
  | ⟨1, _⟩ => show win0_2.index t (1 : Fin 2) * 512 + 1 * f.val = f.val; omega

theorem blkWHi_apply (c : Dev nD) (t : Fin cfg0.N) (e f : Fin 512) :
    blkWHi m c t (ix2 e f) = wHi m c (ix2 e f) := by
  show V m c main_v12 (((cfg0.win 3).blk t).view.emb (ix2 e f)) = V m c main_v12 (ix2 e f)
  refine congrArg _ ?_
  obtain ⟨e0, e1⟩ := idxw3 t
  funext a; apply Fin.ext
  match a with
  | ⟨0, _⟩ => show win0_3.index t (0 : Fin 2) * 512 + 1 * e.val = e.val; omega
  | ⟨1, _⟩ => show win0_3.index t (1 : Fin 2) * 512 + 1 * f.val = f.val; omega

end Cert.KernelIdeal.KV

end
-- ==== Proof.LibWholeReload.lean ====
import Idealize.ShloMosaic.Lib.Pipeline.Value

/-! # A load of a whole buffer after a store of the whole buffer

A buffer is stored whole (through the unit rectangle at zero offsets of the buffer's own sizes) and later loaded whole.
Whatever was stored before the last whole store, the load reads that store's payload: the earlier pieces lie under
it. `View.readCov_unit_zero` is the case of no earlier piece; this is the case of any list of earlier pieces, which
is what a chain of read-modify-write rounds on one scratch buffer produces. -/

namespace Idealize.ShloMosaic.View

variable {Val : EltTy → Type} {S : Shape} {e : EltTy}

/-- A whole load after a whole store reads the store's payload, whatever the earlier stores were. -/
theorem readCov_cons_unit_zero [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (Piece Val S e)) :
    v.readCov ((⟨Rect.unit off S.size inb, w⟩ : Piece Val S e) :: L) (Rect.unit off S.size inb).toLoadRect = w := by
  subst h
  rw [readCov_eq_canon_ld _ _ _ (fun y => ⟨_, List.mem_cons_self, by
    show y ∈ (Rect.whole S).set; rw [Rect.set_whole]; exact Finset.mem_univ y⟩), canon_cons_unit_zero rfl, ld_unit_zero rfl]

/-- The zero offsets of a rank-2 and of a rank-3 buffer, as the printed programs spell them. -/
theorem zeros2 : (![0, 0] : Fin 2 → Nat) = fun _ => 0 := by
  funext a; fin_cases a <;> rfl
theorem zeros3 : (![0, 0, 0] : Fin 3 → Nat) = fun _ => 0 := by
  funext a; fin_cases a <;> rfl

end Idealize.ShloMosaic.View
-- ==== Proof.PieceMain.lean ====
/- What each kind of grid point leaves in the first accumulator and in the output block, as payloads of the point's
   blocks. The first accumulator: its earlier contents (zero at a point that resets it) plus the product of the point's
   one-hot matrix (node b's own index word against the block's row ids) with the point's block of the feature table.
   The output block, where it is stored: the output payload of the two accumulators as that same point leaves them. -/
import proofs.«417351_j43052752175741_3_alg».proof.Proof.FrameKernelIdeal.Frame
import proofs.«417351_j43052752175741_3_alg».proof.Proof.LibWholeReload

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
theorem accA_0_eq (c : Dev nD) (i : grid0.Coords) (arg2 : Memref sig .tc .vmem S1x40x1024 .i32) (harg2 : arg2.IsWhole) (arg3 : Memref sig .tc .vmem S1024x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x1024 .f32) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x1024 .i32) (harg9 : arg9.IsWhole) (hc0 : cond0_0 i) (hc1 : ¬cond0_1 i)
    (x0 : Vec F S1x40x1024 .i32) (x1 : Vec F S1024x512 .bf16) (x2 : Vec F S512x512 .bf16) (x3 : Vec F S512x512 .bf16) :
    accA_0 c i arg2 harg2 arg3 harg3 arg4 harg4 arg5 harg5 arg6 harg6 arg7 harg7 arg8 harg8 arg9 harg9 hc0 hc1 x0 x1 x2 x3 = k0_pay8 i x0 x1 (k0_pay3 (F := F)) := by
  unfold accA_0 kernelRun0_A
  dsimp only
  sl_unfold_words
  simp only [↓View.readCov_cons_unit_zero (S := S1024x1024) _ View.zeros2, View.readCov_unit_zero (S := S1024x1024) _ View.zeros2,
    ↓View.readCov_cons_unit_zero (S := S1024x512) _ View.zeros2, View.readCov_unit_zero (S := S1024x512) _ View.zeros2,
    View.canon_cons_unit_zero (S := S1024x512) View.zeros2, View.canon_unit_zero (S := S1024x512) View.zeros2,
    View.canon_cons_unit_zero (S := S512x1024) View.zeros2, View.canon_unit_zero (S := S512x1024) View.zeros2,
    View.readAt_eq_ld, harg2.read_unread, harg3.read_unread, harg4.read_unread, harg5.read_unread, harg7.read_unread, harg8.read_unread,
    View.ld_unit_zero (S := S1x40x1024) View.zeros3, View.ld_unit_zero (S := S1024x512) View.zeros2, View.ld_unit_zero (S := S512x512) View.zeros2]

set_option maxHeartbeats 4000000 in
theorem accB_0_eq (c : Dev nD) (i : grid0.Coords) (arg2 : Memref sig .tc .vmem S1x40x1024 .i32) (harg2 : arg2.IsWhole) (arg3 : Memref sig .tc .vmem S1024x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x1024 .f32) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x1024 .i32) (harg9 : arg9.IsWhole) (hc0 : ¬cond0_0 i) (hc1 : ¬cond0_1 i)
    (x0 : Vec F S1x40x1024 .i32) (x1 : Vec F S1024x512 .bf16) (x2 : Vec F S512x512 .bf16) (x3 : Vec F S512x512 .bf16) (xs0 xs1 : Vec F S1024x512 .f32) :
    accB_0 c i arg2 harg2 arg3 harg3 arg4 harg4 arg5 harg5 arg6 harg6 arg7 harg7 arg8 harg8 arg9 harg9 hc0 hc1 x0 x1 x2 x3 xs0 xs1 = k0_pay8 i x0 x1 xs0 := by
  unfold accB_0 kernelRun0_B
  dsimp only
  sl_unfold_words
  simp only [↓View.readCov_cons_unit_zero (S := S1024x1024) _ View.zeros2, View.readCov_unit_zero (S := S1024x1024) _ View.zeros2,
    ↓View.readCov_cons_unit_zero (S := S1024x512) _ View.zeros2, View.readCov_unit_zero (S := S1024x512) _ View.zeros2,
    View.canon_cons_unit_zero (S := S1024x512) View.zeros2, View.canon_unit_zero (S := S1024x512) View.zeros2,
    View.canon_cons_unit_zero (S := S512x1024) View.zeros2, View.canon_unit_zero (S := S512x1024) View.zeros2,
    View.readAt_eq_ld, harg2.read_unread, harg3.read_unread, harg4.read_unread, harg5.read_unread, harg7.read_unread, harg8.read_unread,
    View.ld_unit_zero (S := S1x40x1024) View.zeros3, View.ld_unit_zero (S := S1024x512) View.zeros2, View.ld_unit_zero (S := S512x512) View.zeros2]

set_option maxHeartbeats 4000000 in
theorem accC_0_eq (c : Dev nD) (i : grid0.Coords) (arg2 : Memref sig .tc .vmem S1x40x1024 .i32) (harg2 : arg2.IsWhole) (arg3 : Memref sig .tc .vmem S1024x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x1024 .f32) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x1024 .i32) (harg9 : arg9.IsWhole) (hc0 : ¬cond0_0 i) (hc1 : cond0_1 i)
    (x0 : Vec F S1x40x1024 .i32) (x1 : Vec F S1024x512 .bf16) (x2 : Vec F S512x512 .bf16) (x3 : Vec F S512x512 .bf16) (xs0 xs1 : Vec F S1024x512 .f32) :
    accC_0 c i arg2 harg2 arg3 harg3 arg4 harg4 arg5 harg5 arg6 harg6 arg7 harg7 arg8 harg8 arg9 harg9 hc0 hc1 x0 x1 x2 x3 xs0 xs1 = k0_pay8 i x0 x1 xs0 := by
  unfold accC_0 kernelRun0_C
  dsimp only
  sl_unfold_words
  simp only [↓View.readCov_cons_unit_zero (S := S1024x1024) _ View.zeros2, View.readCov_unit_zero (S := S1024x1024) _ View.zeros2,
    ↓View.readCov_cons_unit_zero (S := S1024x512) _ View.zeros2, View.readCov_unit_zero (S := S1024x512) _ View.zeros2,
    View.canon_cons_unit_zero (S := S1024x512) View.zeros2, View.canon_unit_zero (S := S1024x512) View.zeros2,
    View.canon_cons_unit_zero (S := S512x1024) View.zeros2, View.canon_unit_zero (S := S512x1024) View.zeros2,
    View.readAt_eq_ld, harg2.read_unread, harg3.read_unread, harg4.read_unread, harg5.read_unread, harg7.read_unread, harg8.read_unread,
    View.ld_unit_zero (S := S1x40x1024) View.zeros3, View.ld_unit_zero (S := S1024x512) View.zeros2, View.ld_unit_zero (S := S512x512) View.zeros2]

set_option maxHeartbeats 4000000 in
theorem outC_4_eq (c : Dev nD) (i : grid0.Coords) (arg2 : Memref sig .tc .vmem S1x40x1024 .i32) (harg2 : arg2.IsWhole) (arg3 : Memref sig .tc .vmem S1024x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x1024 .f32) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x1024 .i32) (harg9 : arg9.IsWhole) (hc0 : ¬cond0_0 i) (hc1 : cond0_1 i)
    (x0 : Vec F S1x40x1024 .i32) (x1 : Vec F S1024x512 .bf16) (x2 : Vec F S512x512 .bf16) (x3 : Vec F S512x512 .bf16) (xs0 xs1 : Vec F S1024x512 .f32) :
    outC_4 c i arg2 harg2 arg3 harg3 arg4 harg4 arg5 harg5 arg6 harg6 arg7 harg7 arg8 harg8 arg9 harg9 hc0 hc1 x0 x1 x2 x3 xs0 xs1
      = k0_pay2 (accC_0 c i arg2 harg2 arg3 harg3 arg4 harg4 arg5 harg5 arg6 harg6 arg7 harg7 arg8 harg8 arg9 harg9 hc0 hc1 x0 x1 x2 x3 xs0 xs1) (accC_1 c i arg2 harg2 arg3 harg3 arg4 harg4 arg5 harg5 arg6 harg6 arg7 harg7 arg8 harg8 arg9 harg9 hc0 hc1 x0 x1 x2 x3 xs0 xs1) x2 x3 := by
  unfold outC_4 accC_0 accC_1 kernelRun0_C
  dsimp only
  sl_unfold_words
  simp only [↓View.readCov_cons_unit_zero (S := S1024x1024) _ View.zeros2, View.readCov_unit_zero (S := S1024x1024) _ View.zeros2,
    ↓View.readCov_cons_unit_zero (S := S1024x512) _ View.zeros2, View.readCov_unit_zero (S := S1024x512) _ View.zeros2,
    View.canon_cons_unit_zero (S := S1024x512) View.zeros2, View.canon_unit_zero (S := S1024x512) View.zeros2,
    View.canon_cons_unit_zero (S := S512x1024) View.zeros2, View.canon_unit_zero (S := S512x1024) View.zeros2,
    View.readAt_eq_ld, harg2.read_unread, harg3.read_unread, harg4.read_unread, harg5.read_unread, harg7.read_unread, harg8.read_unread,
    View.ld_unit_zero (S := S1x40x1024) View.zeros3, View.ld_unit_zero (S := S1024x512) View.zeros2, View.ld_unit_zero (S := S512x512) View.zeros2]

end Cert.KernelIdeal.Gen

end
-- ==== Proof.HitWords.lean ====
/- The hit counts of one grid point, as a function: for local node b and local table row r, the number (as a 32-bit
   word) of the node's 32 sampled neighbours whose index word equals the row's id word. -/
import proofs.«417351_j43052752175741_3_alg».proof.Proof.Gen.KernelIdeal.Skeleton
import Idealize.ShloMosaic.Lib.ValueIdx
import Mathlib.Data.BitVec
import Mathlib.Algebra.BigOperators.Fin

noncomputable section

namespace Cert.KernelIdeal.KV

open Idealize.ShloMosaic Idealize.ShloMosaic.ValueIdx Cert.KernelIdeal Cert.KernelIdeal.Gen

/-- Plane k + 1 of the packed index block: where neighbour k's index words sit (plane 0 holds the nodes' own). -/
def plane (k : Fin 32) : Fin 40 := ⟨k.val + 1, by omega⟩

/-- One word compare as the kernel widens it: 1 where the two words are equal, else 0. -/
def hitBit (x y : BitVec 32) : BitVec 32 := if x = y then 1#32 else 0#32

/-- The hit counts: rowIds is the 1 x 1024 row of the point's row id words, idxBlock the 40 x 1024 index block. -/
def hitWords (rowIds : IVec S1x1024 32) (idxBlock : IVec S40x1024 32) : IVec S1024x1024 32 :=
  fun j => ∑ k : Fin 32, hitBit (idxBlock (ix2 (plane k) (j 0))) (rowIds (ix2 (0 : Fin 1) (j 1)))

theorem hitWords_apply (rowIds : IVec S1x1024 32) (idxBlock : IVec S40x1024 32) (b r : Fin 1024) :
    hitWords rowIds idxBlock (ix2 b r) = ∑ k : Fin 32, hitBit (idxBlock (ix2 (plane k) b)) (rowIds (ix2 (0 : Fin 1) r)) := rfl

end Cert.KernelIdeal.KV

end
-- ==== Proof.PieceCount.lean ====
/- What each kind of grid point leaves in the second accumulator, as a payload of the point's blocks: the accumulator's
   earlier contents (zero at a point that resets it) plus the product of the point's hit counts with the point's block
   of the feature table. The hit counts are built by 32 read-modify-write rounds on a scratch buffer, each adding one
   widened word compare; every reload reads the round before it, so the rounds collapse to their sum. -/
import proofs.«417351_j43052752175741_3_alg».proof.Proof.FrameKernelIdeal.Frame
import proofs.«417351_j43052752175741_3_alg».proof.Proof.LibWholeReload
import proofs.«417351_j43052752175741_3_alg».proof.Proof.HitWords
import Idealize.ShloMosaic.Lib.ValueLayout

set_option maxRecDepth 16384

noncomputable section

namespace Cert.KernelIdeal.PieceCount

open Idealize.ShloMosaic Idealize.ShloMosaic.ValueIdx Cert.KernelIdeal Cert.KernelIdeal.Gen Cert.KernelIdeal.KV

/-- A vector of a entries cast to a column [a, 1] reads, at (i, u), the vector at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column's entry p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A widened equality compare of two words is their hit bit. -/
theorem setWidth_cmpi_eq (x y : BitVec 32) : (IntOp.cmpi .eq x y).setWidth 32 = hitBit x y := by
  show (BitVec.ofBool (x == y)).setWidth 32 = if x = y then 1#32 else 0#32
  by_cases h : x = y
  · rw [if_pos h, beq_iff_eq.mpr h]; rfl
  · rw [if_neg h, beq_eq_false_iff_ne.mpr h]; rfl

/-- The row a one-row slice at row offset o reads lies inside the block. -/
theorem sliceRow_lt {o : ℕ} (h : S40x1024.Slices ![o, 0] S1x1024) : o < 40 := by
  have := h.2 0
  exact this

/-- Plane o of the index block, taken as one row, turned into a column and spread over the columns, reads at
    (b, r) the block at (o, b). -/
theorem planeCol_apply (v8 : IVec S40x1024 32) (o : ℕ) (h1 : S40x1024.Slices ![o, 0] S1x1024)
    (h2 : S1x1024.ShapeCasts S1024) (h3 : S1024.ShapeCasts S1024x1) (h4 : S1024x1.Broadcasts S1024x1024) (b r : Fin 1024) :
    broadcastTo S1024x1024 (shapeCast S1024x1 (shapeCast S1024 (extractStridedSlice S1x1024 ![o, 0] v8 h1) h2) h3) h4 (ix2 b r)
      = v8 (ix2 ⟨o, sliceRow_lt h1⟩ b) := by
  rw [broadcastTo_a1_ab_apply, shapeCast_a_a1_apply, shapeCast_1a_a_apply]
  exact slice2_axis0_apply o v8 h1 (0 : Fin 1) b ⟨o, sliceRow_lt h1⟩ rfl

/-- One round of the count: the earlier contents plus the hit bit of plane o against the row ids. -/
theorem round_apply (prev : IVec S1024x1024 32) (v8 : IVec S40x1024 32) (v6 : IVec S1x1024 32) (o : ℕ)
    (h1 : S40x1024.Slices ![o, 0] S1x1024) (h2 : S1x1024.ShapeCasts S1024) (h3 : S1024.ShapeCasts S1024x1)
    (h4 : S1024x1.Broadcasts S1024x1024) (h5 : S1x1024.Broadcasts S1024x1024) (h6 : 1 < 32)
    (b r : Fin 1024) :
    addi prev (extui 32 (cmpi .eq
        (broadcastTo S1024x1024 (shapeCast S1024x1 (shapeCast S1024 (extractStridedSlice S1x1024 ![o, 0] v8 h1) h2) h3) h4)
        (broadcastTo S1024x1024 v6 h5)) h6) (ix2 b r)
      = prev (ix2 b r) + hitBit (v8 (ix2 ⟨o, sliceRow_lt h1⟩ b)) (v6 (ix2 (0 : Fin 1) r)) := by
  show prev (ix2 b r) + (IntOp.cmpi .eq (broadcastTo S1024x1024 _ h4 (ix2 b r)) (broadcastTo S1024x1024 v6 h5 (ix2 b r))).setWidth 32 = _
  rw [planeCol_apply, broadcastTo_1b_ab_apply, setWidth_cmpi_eq]

/-- A sum over the 32 neighbours, written out from the first to the last. -/
theorem sum32 (f : Fin 32 → BitVec 32) :
    ∑ k : Fin 32, f k = f 0 + f 1 + f 2 + f 3 + f 4 + f 5 + f 6 + f 7 + f 8 + f 9 + f 10 + f 11 + f 12 + f 13 + f 14 + f 15
      + f 16 + f 17 + f 18 + f 19 + f 20 + f 21 + f 22 + f 23 + f 24 + f 25 + f 26 + f 27 + f 28 + f 29 + f 30 + f 31 := by
  simp only [Fin.sum_univ_castSucc, Fin.sum_univ_zero, zero_add]
  rfl

end Cert.KernelIdeal.PieceCount

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Cert.KernelIdeal.KV Cert.KernelIdeal.PieceCount Idealize.ShloMosaic.ValueIdx

set_option hygiene false in
/-- A run's second accumulator, reduced to the chain of rounds: each whole reload of the scratch buffer reads the
    whole store before it, and the blocks of the point are read where nothing was stored over them. -/
local macro "count_rounds" : tactic => `(tactic| (
  dsimp only
  sl_unfold_words
  simp only [↓View.readCov_cons_unit_zero (S := S1024x1024) _ View.zeros2, View.readCov_unit_zero (S := S1024x1024) _ View.zeros2,
    ↓View.readCov_cons_unit_zero (S := S1024x512) _ View.zeros2, View.readCov_unit_zero (S := S1024x512) _ View.zeros2,
    View.canon_cons_unit_zero (S := S1024x512) View.zeros2, View.canon_unit_zero (S := S1024x512) View.zeros2,
    View.canon_cons_unit_zero (S := S512x1024) View.zeros2, View.canon_unit_zero (S := S512x1024) View.zeros2,
    View.readAt_eq_ld, harg2.read_unread, harg3.read_unread, harg4.read_unread, harg5.read_unread, harg7.read_unread, harg8.read_unread,
    View.ld_unit_zero (S := S1x40x1024) View.zeros3, View.ld_unit_zero (S := S1024x512) View.zeros2, View.ld_unit_zero (S := S512x512) View.zeros2]))

set_option hygiene false in
/-- The chain of 32 rounds on the zero fill is the hit counts: read at (b, r), each round adds the hit bit of its
    plane, planes 1 to 32 in order, and those are the 32 terms of the sum. -/
local macro "count_eval" : tactic => `(tactic| (
  refine congrArg (fun z => k0_pay1 _ (k0_pay51 z) _) ?_
  funext j
  obtain ⟨b, r, rfl⟩ : ∃ (b : Fin 1024) (r : Fin 1024), j = ix2 b r := ⟨j 0, j 1, eq_ix2 j⟩
  rw [hitWords_apply, sum32]
  simp only [k0_pay47, k0_pay48, k0_pay49, k0_pay50, k0_pay9, k0_pay10, round_apply, shapeCast_self, broadcast_apply]
  simp only [BitVec.zero_add]
  rfl))

set_option maxHeartbeats 4000000 in
theorem accA_1_eq (c : Dev nD) (i : grid0.Coords) (arg2 : Memref sig .tc .vmem S1x40x1024 .i32) (harg2 : arg2.IsWhole) (arg3 : Memref sig .tc .vmem S1024x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x1024 .f32) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x1024 .i32) (harg9 : arg9.IsWhole) (hc0 : cond0_0 i) (hc1 : ¬cond0_1 i)
    (x0 : Vec F S1x40x1024 .i32) (x1 : Vec F S1024x512 .bf16) (x2 : Vec F S512x512 .bf16) (x3 : Vec F S512x512 .bf16) :
    accA_1 c i arg2 harg2 arg3 harg3 arg4 harg4 arg5 harg5 arg6 harg6 arg7 harg7 arg8 harg8 arg9 harg9 hc0 hc1 x0 x1 x2 x3
      = k0_pay1 (k0_pay7 x1) (k0_pay51 (hitWords (k0_pay5 i) (k0_pay6 x0))) (k0_pay4 (F := F)) := by
  unfold accA_1 kernelRun0_A
  count_rounds
  count_eval

set_option maxHeartbeats 4000000 in
theorem accB_1_eq (c : Dev nD) (i : grid0.Coords) (arg2 : Memref sig .tc .vmem S1x40x1024 .i32) (harg2 : arg2.IsWhole) (arg3 : Memref sig .tc .vmem S1024x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x1024 .f32) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x1024 .i32) (harg9 : arg9.IsWhole) (hc0 : ¬cond0_0 i) (hc1 : ¬cond0_1 i)
    (x0 : Vec F S1x40x1024 .i32) (x1 : Vec F S1024x512 .bf16) (x2 : Vec F S512x512 .bf16) (x3 : Vec F S512x512 .bf16) (xs0 xs1 : Vec F S1024x512 .f32) :
    accB_1 c i arg2 harg2 arg3 harg3 arg4 harg4 arg5 harg5 arg6 harg6 arg7 harg7 arg8 harg8 arg9 harg9 hc0 hc1 x0 x1 x2 x3 xs0 xs1
      = k0_pay1 (k0_pay7 x1) (k0_pay51 (hitWords (k0_pay5 i) (k0_pay6 x0))) xs1 := by
  unfold accB_1 kernelRun0_B
  count_rounds
  count_eval

set_option maxHeartbeats 4000000 in
theorem accC_1_eq (c : Dev nD) (i : grid0.Coords) (arg2 : Memref sig .tc .vmem S1x40x1024 .i32) (harg2 : arg2.IsWhole) (arg3 : Memref sig .tc .vmem S1024x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x1024 .f32) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x1024 .i32) (harg9 : arg9.IsWhole) (hc0 : ¬cond0_0 i) (hc1 : cond0_1 i)
    (x0 : Vec F S1x40x1024 .i32) (x1 : Vec F S1024x512 .bf16) (x2 : Vec F S512x512 .bf16) (x3 : Vec F S512x512 .bf16) (xs0 xs1 : Vec F S1024x512 .f32) :
    accC_1 c i arg2 harg2 arg3 harg3 arg4 harg4 arg5 harg5 arg6 harg6 arg7 harg7 arg8 harg8 arg9 harg9 hc0 hc1 x0 x1 x2 x3 xs0 xs1
      = k0_pay1 (k0_pay7 x1) (k0_pay51 (hitWords (k0_pay5 i) (k0_pay6 x0))) xs1 := by
  unfold accC_1 kernelRun0_C
  count_rounds
  count_eval

end Cert.KernelIdeal.Gen

end
-- ==== Proof.PayloadVals.lean ====
/- The kernel body's payloads read at an index, over the extended reals: the row id words of a point, the index
   block's planes, the one-hot product added to the first accumulator, the hit-count product added to the second,
   and the output block (the two weight halves contracted with the accumulators, added, clipped below at zero). -/
import proofs.«417351_j43052752175741_3_alg».proof.Proof.Gen.KernelIdeal.Skeleton
import proofs.«417351_j43052752175741_3_alg».proof.Proof.HitWords
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.KV

open Idealize.ShloMosaic Idealize.ShloMosaic.ValueIdx Cert.KernelIdeal Cert.KernelIdeal.Gen

variable {F : FTy → Type} [FloatOps F]

/-- The id word of local table row r at a point: 1024 times the point's second coordinate, plus r. -/
theorem pay5_apply (i : grid0.Coords) (r : Fin 1024) :
    k0_pay5 i (ix2 (0 : Fin 1) r) = BitVec.ofNat 32 ((i 1).val * 1024 + r.val) := by
  unfold k0_pay5
  show IntOp.addi (IntOp.muli (BitVec.ofNat 32 (i 1).val) (BitVec.ofNat 32 1024))
      (iota .tc S1x1024 32 [1] iota_S1x1024_d1_w32 (ix2 (0 : Fin 1) r)) = _
  rw [iota_single_apply]
  show BitVec.ofNat 32 (i 1).val * BitVec.ofNat 32 1024 + BitVec.ofNat 32 r.val = _
  rw [← BitVec.ofNat_mul, ← BitVec.ofNat_add]

/-- The index block as 40 planes of 1024 words. -/
theorem pay6_apply (x0 : Vec F S1x40x1024 .i32) (s : Fin 40) (b : Fin 1024) :
    k0_pay6 x0 (ix2 s b) = x0 (ix3 (0 : Fin 1) s b) := by
  unfold k0_pay6
  exact shapeCast_1ab_ab_apply x0 shapeCasts_S1x40x1024_S40x1024 s b

/-- The table block is used as loaded. -/
theorem pay7_eq (x1 : Vec F S1024x512 .bf16) : k0_pay7 x1 = x1 := by
  unfold k0_pay7
  exact shapeCast_self x1 shapeCasts_S1024x512_S1024x512

/-- The two reset values are zero. -/
theorem pay3_apply (j : S1024x512.Idx) : k0_pay3 (F := Ideal) j = (0 : EReal) := by
  unfold k0_pay3
  rw [shapeCast_self]
  exact Ideal.ofBits_zero_f32
theorem pay4_apply (j : S1024x512.Idx) : k0_pay4 (F := Ideal) j = (0 : EReal) := by
  unfold k0_pay4
  rw [shapeCast_self]
  exact Ideal.ofBits_zero_f32

/-! ## The two products read at an index -/

theorem lhs_d_0 (j : S1024x512.Idx) (q : dot_S1024x1024_S1024x512_S1024x512_1_0_0_1_n_n.contr.Idx) :
    (dot_S1024x1024_S1024x512_S1024x512_1_0_0_1_n_n.lhsIdx j q 0).val = (j 0).val := by
  unfold DotDims.lhsIdx
  rw [dif_neg (show ¬(0 : Fin S1024x1024.rank) ∈ dot_S1024x1024_S1024x512_S1024x512_1_0_0_1_n_n.lhsBatch by decide), dif_pos (show (0 : Fin S1024x1024.rank) ∈ dot_S1024x1024_S1024x512_S1024x512_1_0_0_1_n_n.lhsNonContracting by decide)]
  rfl
theorem lhs_d_1 (j : S1024x512.Idx) (q : dot_S1024x1024_S1024x512_S1024x512_1_0_0_1_n_n.contr.Idx) :
    (dot_S1024x1024_S1024x512_S1024x512_1_0_0_1_n_n.lhsIdx j q 1).val = (q ⟨0, by decide⟩).val :=
  dot_S1024x1024_S1024x512_S1024x512_1_0_0_1_n_n.lhsIdx_val_of_single rfl j q
theorem rhs_d_0 (j : S1024x512.Idx) (q : dot_S1024x1024_S1024x512_S1024x512_1_0_0_1_n_n.contr.Idx) :
    (dot_S1024x1024_S1024x512_S1024x512_1_0_0_1_n_n.rhsIdx j q 0).val = (q ⟨0, by decide⟩).val :=
  dot_S1024x1024_S1024x512_S1024x512_1_0_0_1_n_n.rhsIdx_val_of_single rfl j q
theorem rhs_d_1 (j : S1024x512.Idx) (q : dot_S1024x1024_S1024x512_S1024x512_1_0_0_1_n_n.contr.Idx) :
    (dot_S1024x1024_S1024x512_S1024x512_1_0_0_1_n_n.rhsIdx j q 1).val = (j 1).val := by
  unfold DotDims.rhsIdx
  rw [dif_neg (show ¬(1 : Fin S1024x512.rank) ∈ dot_S1024x1024_S1024x512_S1024x512_1_0_0_1_n_n.rhsBatch by decide), dif_pos (show (1 : Fin S1024x512.rank) ∈ dot_S1024x1024_S1024x512_S1024x512_1_0_0_1_n_n.rhsNonContracting by decide)]
  rfl

/-- A [1024 x 1024] by [1024 x 512] product onto a zero accumulator: entry (b, f) is the sum over r of L (b, r) R (r, f). -/
theorem matmul_d_apply (L : FVec Ideal S1024x1024 .bf16) (R : FVec Ideal S1024x512 .bf16) (b : Fin 1024) (f : Fin 512) :
    FloatOps.matmul dot_S1024x1024_S1024x512_S1024x512_1_0_0_1_n_n none L R (constant (F := Ideal) S1024x512 .f32 0x00000000#32) (ix2 b f)
      = ∑ r : Fin 1024, L (ix2 b r) * R (ix2 r f) := by
  rw [Ideal.matmul_constant_zero_apply, ← Equiv.sum_comp (ValueIdx.contrEquiv1 dot_S1024x1024_S1024x512_S1024x512_1_0_0_1_n_n 1024 rfl rfl).symm]
  refine Finset.sum_congr rfl fun k _ => ?_
  have hk := ValueIdx.contrEquiv1_symm_val dot_S1024x1024_S1024x512_S1024x512_1_0_0_1_n_n 1024 rfl rfl k
  have el : dot_S1024x1024_S1024x512_S1024x512_1_0_0_1_n_n.lhsIdx (ix2 b f) ((ValueIdx.contrEquiv1 dot_S1024x1024_S1024x512_S1024x512_1_0_0_1_n_n 1024 rfl rfl).symm k) = ix2 b k := funext fun a => Fin.ext (by
    match a with
    | ⟨0, _⟩ => exact lhs_d_0 _ _
    | ⟨1, _⟩ => exact (lhs_d_1 _ _).trans hk)
  have er : dot_S1024x1024_S1024x512_S1024x512_1_0_0_1_n_n.rhsIdx (ix2 b f) ((ValueIdx.contrEquiv1 dot_S1024x1024_S1024x512_S1024x512_1_0_0_1_n_n 1024 rfl rfl).symm k) = ix2 k f := funext fun a => Fin.ext (by
    match a with
    | ⟨0, _⟩ => exact (rhs_d_0 _ _).trans hk
    | ⟨1, _⟩ => exact rhs_d_1 _ _)
  rw [el, er]

theorem lhs_e_0 (j : S512x1024.Idx) (q : dot_S512x512_S1024x512_S512x1024_1_1_0_0_n_n.contr.Idx) :
    (dot_S512x512_S1024x512_S512x1024_1_1_0_0_n_n.lhsIdx j q 0).val = (j 0).val := by
  unfold DotDims.lhsIdx
  rw [dif_neg (show ¬(0 : Fin S512x512.rank) ∈ dot_S512x512_S1024x512_S512x1024_1_1_0_0_n_n.lhsBatch by decide), dif_pos (show (0 : Fin S512x512.rank) ∈ dot_S512x512_S1024x512_S512x1024_1_1_0_0_n_n.lhsNonContracting by decide)]
  rfl
theorem lhs_e_1 (j : S512x1024.Idx) (q : dot_S512x512_S1024x512_S512x1024_1_1_0_0_n_n.contr.Idx) :
    (dot_S512x512_S1024x512_S512x1024_1_1_0_0_n_n.lhsIdx j q 1).val = (q ⟨0, by decide⟩).val :=
  dot_S512x512_S1024x512_S512x1024_1_1_0_0_n_n.lhsIdx_val_of_single rfl j q
theorem rhs_e_0 (j : S512x1024.Idx) (q : dot_S512x512_S1024x512_S512x1024_1_1_0_0_n_n.contr.Idx) :
    (dot_S512x512_S1024x512_S512x1024_1_1_0_0_n_n.rhsIdx j q 0).val = (j 1).val := by
  unfold DotDims.rhsIdx
  rw [dif_neg (show ¬(0 : Fin S1024x512.rank) ∈ dot_S512x512_S1024x512_S512x1024_1_1_0_0_n_n.rhsBatch by decide), dif_pos (show (0 : Fin S1024x512.rank) ∈ dot_S512x512_S1024x512_S512x1024_1_1_0_0_n_n.rhsNonContracting by decide)]
  rfl
theorem rhs_e_1 (j : S512x1024.Idx) (q : dot_S512x512_S1024x512_S512x1024_1_1_0_0_n_n.contr.Idx) :
    (dot_S512x512_S1024x512_S512x1024_1_1_0_0_n_n.rhsIdx j q 1).val = (q ⟨0, by decide⟩).val :=
  dot_S512x512_S1024x512_S512x1024_1_1_0_0_n_n.rhsIdx_val_of_single rfl j q

/-- A [512 x 512] by [1024 x 512] product contracting the second axis of both, onto a zero accumulator: entry (e, b) is
    the sum over f of L (e, f) R (b, f). -/
theorem matmul_e_apply (L : FVec Ideal S512x512 .bf16) (R : FVec Ideal S1024x512 .bf16) (e : Fin 512) (b : Fin 1024) :
    FloatOps.matmul dot_S512x512_S1024x512_S512x1024_1_1_0_0_n_n none L R (constant (F := Ideal) S512x1024 .f32 0x00000000#32) (ix2 e b)
      = ∑ f : Fin 512, L (ix2 e f) * R (ix2 b f) := by
  rw [Ideal.matmul_constant_zero_apply, ← Equiv.sum_comp (ValueIdx.contrEquiv1 dot_S512x512_S1024x512_S512x1024_1_1_0_0_n_n 512 rfl rfl).symm]
  refine Finset.sum_congr rfl fun k _ => ?_
  have hk := ValueIdx.contrEquiv1_symm_val dot_S512x512_S1024x512_S512x1024_1_1_0_0_n_n 512 rfl rfl k
  have el : dot_S512x512_S1024x512_S512x1024_1_1_0_0_n_n.lhsIdx (ix2 e b) ((ValueIdx.contrEquiv1 dot_S512x512_S1024x512_S512x1024_1_1_0_0_n_n 512 rfl rfl).symm k) = ix2 e k := funext fun a => Fin.ext (by
    match a with
    | ⟨0, _⟩ => exact lhs_e_0 _ _
    | ⟨1, _⟩ => exact (lhs_e_1 _ _).trans hk)
  have er : dot_S512x512_S1024x512_S512x1024_1_1_0_0_n_n.rhsIdx (ix2 e b) ((ValueIdx.contrEquiv1 dot_S512x512_S1024x512_S512x1024_1_1_0_0_n_n 512 rfl rfl).symm k) = ix2 b k := funext fun a => Fin.ext (by
    match a with
    | ⟨0, _⟩ => exact rhs_e_0 _ _
    | ⟨1, _⟩ => exact (rhs_e_1 _ _).trans hk)
  rw [el, er]

/-! ## The one-hot operand of the first product -/

/-- A vector of a entries viewed as an [a x 1] column reads, at (i, u), the vector at i. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a x 1] column broadcast to [a x b] reads, at (p, c), the column at p. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The nodes' own index words, laid out as a column and repeated along the rows of the block: entry (b, r) is node b's word. -/
theorem ownCol_apply (x0 : S1x40x1024.Idx → BitVec 32) (b r : Fin 1024) :
    broadcastTo S1024x1024 (shapeCast S1024x1 (shapeCast S1024 (extractStridedSlice S1x1024 ![0, 0] (k0_pay6 (F := Ideal) x0)
      slices_S40x1024_o0_0_S1x1024) shapeCasts_S1x1024_S1024) shapeCasts_S1024_S1024x1) broadcasts_S1024x1_S1024x1024 (ix2 b r)
      = x0 (ix3 (0 : Fin 1) (0 : Fin 40) b) := by
  refine (broadcastTo_a1_ab_apply _ broadcasts_S1024x1_S1024x1024 b r).trans ?_
  refine (shapeCast_a_a1_apply _ shapeCasts_S1024_S1024x1 b (0 : Fin 1)).trans ?_
  refine (shapeCast_1a_a_apply _ shapeCasts_S1x1024_S1024 b).trans ?_
  refine (slice2_axis0_apply 0 _ slices_S40x1024_o0_0_S1x1024 (0 : Fin 1) b (0 : Fin 40) rfl).trans ?_
  exact pay6_apply (F := Ideal) x0 (0 : Fin 40) b

/-- A word compare, widened and converted: 1 where the words are equal, else 0. -/
theorem onehot_word (x y : BitVec 32) :
    ((((IntOp.cmpi .eq x y).setWidth 32).toInt : ℝ) : EReal) = if x = y then (1 : EReal) else 0 := by
  have e1 : ((BitVec.ofBool true).setWidth 32).toInt = 1 := by decide
  have e0 : ((BitVec.ofBool false).setWidth 32).toInt = 0 := by decide
  by_cases h : x = y
  · have hb : (x == y) = true := by simpa using h
    show ((((BitVec.ofBool (x == y)).setWidth 32).toInt : ℝ) : EReal) = _
    rw [if_pos h, hb, e1]; simp
  · have hb : (x == y) = false := by simpa using h
    show ((((BitVec.ofBool (x == y)).setWidth 32).toInt : ℝ) : EReal) = _
    rw [if_neg h, hb, e0]; simp

/-- The first accumulator's update: entry (b, f) gains the sum over the block's rows r of [node b's own index word is
    row r's id word] times the block's entry (r, f). -/
theorem pay8_apply (i : grid0.Coords) (x0 : S1x40x1024.Idx → BitVec 32) (x1 : S1024x512.Idx → EReal) (s : S1024x512.Idx → EReal)
    (b : Fin 1024) (f : Fin 512) :
    k0_pay8 (F := Ideal) i x0 x1 s (ix2 b f)
      = s (ix2 b f) + ∑ r : Fin 1024, (if x0 (ix3 (0 : Fin 1) (0 : Fin 40) b) = k0_pay5 i (ix2 (0 : Fin 1) r) then (1 : EReal) else 0) * x1 (ix2 r f) := by
  unfold k0_pay8
  rw [shapeCast_self, pay7_eq]
  refine (congrArg (s (ix2 b f) + ·) (matmul_d_apply _ (x1 : FVec Ideal S1024x512 .bf16) b f)).trans ?_
  refine congrArg (s (ix2 b f) + ·) (Finset.sum_congr rfl fun r _ => ?_)
  refine congrArg (· * x1 (ix2 r f)) ?_
  refine (onehot_word _ _).trans ?_
  rw [ownCol_apply, broadcastTo_1b_ab_apply]

/-- A hit-count word as the float the kernel converts it to. -/
theorem pay51_apply (cnt : S1024x1024.Idx → BitVec 32) (j : S1024x1024.Idx) :
    k0_pay51 (F := Ideal) cnt j = (((cnt j).toInt : ℝ) : EReal) := rfl

/-- The second accumulator's update: entry (b, f) gains the sum over the block's rows r of the count (b, r) times the
    block's entry (r, f). -/
theorem pay1_apply (x1 : S1024x512.Idx → EReal) (cntf : S1024x1024.Idx → EReal) (s : S1024x512.Idx → EReal)
    (b : Fin 1024) (f : Fin 512) :
    k0_pay1 (F := Ideal) x1 cntf s (ix2 b f) = s (ix2 b f) + ∑ r : Fin 1024, cntf (ix2 b r) * x1 (ix2 r f) := by
  unfold k0_pay1
  rw [shapeCast_self]
  show s (ix2 b f) + FloatOps.matmul dot_S1024x1024_S1024x512_S1024x512_1_0_0_1_n_n none
      (cntf : FVec Ideal S1024x1024 .bf16) (x1 : FVec Ideal S1024x512 .bf16) (constant (F := Ideal) S1024x512 .f32 0x00000000#32) (ix2 b f) = _
  rw [matmul_d_apply]

/-- The output block: entry (e, b). -/
theorem pay2_apply (a0 a1 : S1024x512.Idx → EReal) (x2 x3 : S512x512.Idx → EReal) (e : Fin 512) (b : Fin 1024) :
    k0_pay2 (F := Ideal) a0 a1 x2 x3 (ix2 e b)
      = max ((∑ f : Fin 512, x2 (ix2 e f) * a0 (ix2 b f)) + ∑ f : Fin 512, x3 (ix2 e f) * a1 (ix2 b f)) 0 := by
  unfold k0_pay2
  rw [shapeCast_self, shapeCast_self]
  show max (FloatOps.matmul dot_S512x512_S1024x512_S512x1024_1_1_0_0_n_n none
        (x2 : FVec Ideal S512x512 .bf16) (a0 : FVec Ideal S1024x512 .bf16) (constant (F := Ideal) S512x1024 .f32 0x00000000#32) (ix2 e b)
      + FloatOps.matmul dot_S512x512_S1024x512_S512x1024_1_1_0_0_n_n none
        (x3 : FVec Ideal S512x512 .bf16) (a1 : FVec Ideal S1024x512 .bf16) (constant (F := Ideal) S512x1024 .f32 0x00000000#32) (ix2 e b))
      (Ideal.ofBits .f32 0x00000000#32) = _
  rw [matmul_e_apply, matmul_e_apply, Ideal.ofBits_zero_f32]

/-! ## The hit counts do not wrap -/

/-- A sum of words each 0 or 1 is the word of the number of ones. -/
theorem sum_hitBit {n : ℕ} (a : Fin n → BitVec 32) (y : BitVec 32) :
    ∑ k : Fin n, hitBit (a k) y = BitVec.ofNat 32 (Finset.univ.filter fun k => a k = y).card := by
  have h : ∀ k : Fin n, hitBit (a k) y = if a k = y then (1 : BitVec 32) else 0 := fun k => rfl
  rw [Finset.sum_congr rfl fun k _ => h k, Finset.sum_boole, BitVec.natCast_eq_ofNat]

/-- A count of at most 32, as a 32-bit word read signed, is itself. -/
theorem toInt_ofNat_le32 (c : ℕ) (hc : c ≤ 32) : (BitVec.ofNat 32 c).toInt = (c : ℤ) := by
  rw [BitVec.toInt_eq_toNat_cond, BitVec.toNat_ofNat]
  have hm : c % 2 ^ 32 = c := Nat.mod_eq_of_lt (by omega)
  rw [hm, if_pos (by omega)]

/-- A hit count, read signed, is the number of neighbours that hit: no sum of 32 bits wraps. -/
theorem hitWords_toInt (rowIds : IVec S1x1024 32) (idxBlock : IVec S40x1024 32) (b r : Fin 1024) :
    (((hitWords rowIds idxBlock (ix2 b r)).toInt : ℝ))
      = ∑ k : Fin 32, (if idxBlock (ix2 (plane k) b) = rowIds (ix2 (0 : Fin 1) r) then (1 : ℝ) else 0) := by
  rw [hitWords_apply, sum_hitBit (fun k => idxBlock (ix2 (plane k) b)) (rowIds (ix2 (0 : Fin 1) r)),
    toInt_ofNat_le32 _ ((Finset.card_le_univ _).trans_eq (Fintype.card_fin 32)), Int.cast_natCast, Finset.sum_boole]

end Cert.KernelIdeal.KV

end
-- ==== Proof.StepMath.lean ====
/- The arithmetic of one grid point's accumulator updates, free of the program. A table of rows is scanned in blocks
   of 1024 rows; block n holds rows n * 1024 .. n * 1024 + 1023, and a row's id word is the word of its number. An index
   word w selects, within block n, at most one row: the sum over the block's rows of [w is the row's id] times the
   row's entry is the entry of row w if w falls in block n, else zero (`onehot_block`). Weighting the rows by how many of
   32 index words hit them gives the sum over the words of that selection (`count_block`, for real entries). And the
   running total over blocks 0..n of those selections is the entry of row w if w lies below (n + 1) * 1024, else zero
   (`running`). -/
import Mathlib.Data.BitVec
import Mathlib.Data.EReal.Basic
import Mathlib.Algebra.BigOperators.Fin

noncomputable section

namespace Cert.StepMath

open scoped BigOperators

/-- The entry the word w selects in block n of a table whose block-n rows are g: row w - n * 1024 if w falls in the
    block, else zero. -/
def sel (w : BitVec 32) (n : ℕ) (g : Fin 1024 → EReal) : EReal :=
  if h : n * 1024 ≤ w.toNat ∧ w.toNat < (n + 1) * 1024 then g ⟨w.toNat - n * 1024, by omega⟩ else 0

theorem onehot_block (w : BitVec 32) (n : ℕ) (hn : n < 98) (g : Fin 1024 → EReal) :
    ∑ r : Fin 1024, (if w = BitVec.ofNat 32 (n * 1024 + r.val) then (1 : EReal) else 0) * g r = sel w n g := by
  have key : ∀ r : Fin 1024, (w = BitVec.ofNat 32 (n * 1024 + r.val)) ↔ w.toNat = n * 1024 + r.val := by
    intro r
    have hlt : n * 1024 + r.val < 2 ^ 32 := by have := r.isLt; omega
    constructor
    · intro h
      rw [h, BitVec.toNat_ofNat, Nat.mod_eq_of_lt hlt]
    · intro h
      apply BitVec.eq_of_toNat_eq
      rw [BitVec.toNat_ofNat, Nat.mod_eq_of_lt hlt]
      exact h
  unfold sel
  by_cases h : n * 1024 ≤ w.toNat ∧ w.toNat < (n + 1) * 1024
  · rw [dif_pos h]
    rw [Finset.sum_eq_single (⟨w.toNat - n * 1024, by omega⟩ : Fin 1024)]
    · rw [if_pos, one_mul]
      rw [key]
      show w.toNat = n * 1024 + (w.toNat - n * 1024)
      omega
    · intro r _ hr
      rw [if_neg, zero_mul]
      rw [key]
      intro h'
      apply hr
      apply Fin.ext
      show r.val = w.toNat - n * 1024
      omega
    · intro h'
      exact absurd (Finset.mem_univ _) h'
  · rw [dif_neg h]
    apply Finset.sum_eq_zero
    intro r _
    rw [if_neg, zero_mul]
    rw [key]
    intro h'
    apply h
    have := r.isLt
    omega

theorem count_block (wk : Fin 32 → BitVec 32) (n : ℕ) (hn : n < 98) (g : Fin 1024 → EReal)
    (hg : ∀ r, ∃ x : ℝ, g r = (x : EReal)) :
    ∑ r : Fin 1024, (((∑ k : Fin 32, (if wk k = BitVec.ofNat 32 (n * 1024 + r.val) then (1 : ℝ) else 0) : ℝ)) : EReal) * g r
      = ∑ k : Fin 32, sel (wk k) n g := by
  choose g' hg' using hg
  -- the coercion of a finite real sum is the sum of the coercions
  have coe_sum : ∀ (s : Finset (Fin 32)) (f : Fin 32 → ℝ),
      ((∑ k ∈ s, f k : ℝ) : EReal) = ∑ k ∈ s, (f k : EReal) := by
    intro s f
    refine Finset.induction_on s ?_ ?_
    · simp
    · intro a s ha ih
      rw [Finset.sum_insert ha, Finset.sum_insert ha, EReal.coe_add, ih]
  -- a real hit count times a real entry distributes over the words
  have term : ∀ r : Fin 1024,
      (((∑ k : Fin 32, (if wk k = BitVec.ofNat 32 (n * 1024 + r.val) then (1 : ℝ) else 0) : ℝ)) : EReal) * g r
        = ∑ k : Fin 32, (if wk k = BitVec.ofNat 32 (n * 1024 + r.val) then (1 : EReal) else 0) * g r := by
    intro r
    rw [hg' r, ← EReal.coe_mul, Finset.sum_mul, coe_sum]
    apply Finset.sum_congr rfl
    intro k _
    split_ifs <;> simp
  rw [Finset.sum_congr rfl (fun r _ => term r)]
  rw [Finset.sum_comm]
  apply Finset.sum_congr rfl
  intro k _
  exact onehot_block (wk k) n hn g

/-- The selection in block n, read off a whole table fp of rows numbered from 0 (block n's row r is table row
    n * 1024 + r), added to the running total of the blocks before n, is the running total through block n. -/
theorem running (w : BitVec 32) (n : ℕ) (fp : ℕ → EReal) :
    (if w.toNat < n * 1024 then fp w.toNat else 0)
        + sel w n (fun r => fp (n * 1024 + r.val))
      = if w.toNat < (n + 1) * 1024 then fp w.toNat else 0 := by
  unfold sel
  by_cases h1 : w.toNat < n * 1024
  · have h2 : ¬ (n * 1024 ≤ w.toNat ∧ w.toNat < (n + 1) * 1024) := by omega
    have h3 : w.toNat < (n + 1) * 1024 := by omega
    rw [if_pos h1, dif_neg h2, if_pos h3, add_zero]
  · by_cases h3 : w.toNat < (n + 1) * 1024
    · have h2 : n * 1024 ≤ w.toNat ∧ w.toNat < (n + 1) * 1024 := by omega
      rw [if_neg h1, dif_pos h2, if_pos h3, zero_add]
      show fp (n * 1024 + (w.toNat - n * 1024)) = fp w.toNat
      congr 1
      omega
    · have h2 : ¬ (n * 1024 ≤ w.toNat ∧ w.toNat < (n + 1) * 1024) := by omega
      rw [if_neg h1, dif_neg h2, if_neg h3, add_zero]

end Cert.StepMath

end
-- ==== Proof.KernelAccum.lean ====
/- What the two accumulators hold after each grid point, in closed form. Fix a group of 1024 nodes. After the point at
   step n of the group's row of the grid, entry (b, f) of the first accumulator is entry f of the padded table's row
   named by node b's own index word if that row lies below (n + 1) * 1024, else zero; entry (b, f) of the second is the
   sum over node b's 32 neighbours of the same selection for the neighbour's index word. By induction on the point:
   step 0 rebuilds both from zero, every later step adds the rows of its own block. -/
import proofs.«417351_j43052752175741_3_alg».proof.Proof.KernelBlocks
import proofs.«417351_j43052752175741_3_alg».proof.Proof.PieceMain
import proofs.«417351_j43052752175741_3_alg».proof.Proof.PieceCount
import proofs.«417351_j43052752175741_3_alg».proof.Proof.PayloadVals
import proofs.«417351_j43052752175741_3_alg».proof.Proof.StepMath
import proofs.«417351_j43052752175741_3_alg».proof.Proof.Spec

set_option maxRecDepth 16384

noncomputable section

namespace Cert.KernelIdeal.KV

open Idealize.ShloMosaic Idealize.ShloMosaic.TcCoe Idealize.ShloMosaic.ValueIdx Idealize.SL.Sem
open Cert.KernelIdeal Cert.KernelIdeal.Gen Cert.KernelIdeal.HostVals Cert.Spec Cert.StepMath

variable (m : (ℓ : Loc nD τ sig) → Buf (Elt Ideal) ℓ)

/-- The buffers after the body at a point, at their literal types. -/
abbrev acc0At (c : Dev nD) (t : Fin cfg0.N) : S1024x512.Idx → EReal := (outsAt0 m c t.val t.isLt).2.1
abbrev acc1At (c : Dev nD) (t : Fin cfg0.N) : S1024x512.Idx → EReal := (outsAt0 m c t.val t.isLt).2.2
abbrev outBlk (c : Dev nD) (t : Fin cfg0.N) : S512x1024.Idx → EReal := (outsAt0 m c t.val t.isLt).1

/-- The point before. -/
def before (t : Fin cfg0.N) : Fin cfg0.N := ⟨t.val - 1, Nat.lt_of_le_of_lt (Nat.sub_le _ _) t.isLt⟩

/-! ## One point's update, as a payload of the point's blocks -/

theorem acc0_first (c : Dev nD) (t : Fin cfg0.N) (h0 : t.val % 98 = 0) :
    acc0At m c t = k0_pay8 (F := Ideal) (grid0.coords t) (blkIdx m c t) (blkFeat m c t) (k0_pay3 (F := Ideal)) := by
  have h1 : ¬ t.val % 98 = 97 := by omega
  show (outsAt0 m c t.val t.isLt).2.1 = _
  rw [outsAt0_A m c t h0 h1]
  dsimp only
  exact accA_0_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t)

theorem acc0_next (c : Dev nD) (t : Fin cfg0.N) (h0 : ¬ t.val % 98 = 0) :
    acc0At m c t = k0_pay8 (F := Ideal) (grid0.coords t) (blkIdx m c t) (blkFeat m c t) (acc0At m c (before t)) := by
  show (outsAt0 m c t.val t.isLt).2.1 = _
  by_cases h1 : t.val % 98 = 97
  · rw [outsAt0_C m c t h0 h1]
    dsimp only
    exact accC_0_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2
  · rw [outsAt0_B m c t h0 h1]
    dsimp only
    exact accB_0_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2

theorem acc1_first (c : Dev nD) (t : Fin cfg0.N) (h0 : t.val % 98 = 0) :
    acc1At m c t = k0_pay1 (F := Ideal) (k0_pay7 (blkFeat m c t)) (k0_pay51 (hitWords (k0_pay5 (grid0.coords t)) (k0_pay6 (F := Ideal) (blkIdx m c t)))) (k0_pay4 (F := Ideal)) := by
  have h1 : ¬ t.val % 98 = 97 := by omega
  show (outsAt0 m c t.val t.isLt).2.2 = _
  rw [outsAt0_A m c t h0 h1]
  dsimp only
  exact accA_1_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t)

theorem acc1_next (c : Dev nD) (t : Fin cfg0.N) (h0 : ¬ t.val % 98 = 0) :
    acc1At m c t = k0_pay1 (F := Ideal) (k0_pay7 (blkFeat m c t)) (k0_pay51 (hitWords (k0_pay5 (grid0.coords t)) (k0_pay6 (F := Ideal) (blkIdx m c t)))) (acc1At m c (before t)) := by
  show (outsAt0 m c t.val t.isLt).2.2 = _
  by_cases h1 : t.val % 98 = 97
  · rw [outsAt0_C m c t h0 h1]
    dsimp only
    exact accC_1_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2
  · rw [outsAt0_B m c t h0 h1]
    dsimp only
    exact accB_1_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2

/-- Where the output block is stored it is the output payload of the accumulators as that point leaves them. -/
theorem outBlk_last (c : Dev nD) (t : Fin cfg0.N) (h1 : t.val % 98 = 97) :
    outBlk m c t = k0_pay2 (F := Ideal) (acc0At m c t) (acc1At m c t) (blkWLo m c t) (blkWHi m c t) := by
  have h0 : ¬ t.val % 98 = 0 := by omega
  show (outsAt0 m c t.val t.isLt).1 = k0_pay2 (F := Ideal) (outsAt0 m c t.val t.isLt).2.1 (outsAt0 m c t.val t.isLt).2.2 (blkWLo m c t) (blkWHi m c t)
  rw [outsAt0_C m c t h0 h1]
  dsimp only
  exact outC_4_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2

/-! ## The index words of a point's nodes, and the padded table by row number -/

/-- Node b of the point's group: its own index word, and its k-th neighbour's. -/
def wSelf (c : Dev nD) (t : Fin cfg0.N) (b : Fin 1024) : BitVec 32 := nodesArg m c (ix1 (nodeOf (grp t) b))
def wNb (c : Dev nD) (t : Fin cfg0.N) (b : Fin 1024) (k : Fin 32) : BitVec 32 := neighArg m c (ix2 (nodeOf (grp t) b) k)

/-- Column f of the padded table by row number (zero past its end). -/
def fpRow (c : Dev nD) (f : Fin 512) (R : ℕ) : EReal := if h : R < 100352 then featPad m c (ix2 (⟨R, h⟩ : Fin 100352) f) else 0

theorem blkFeat_fp (c : Dev nD) (t : Fin cfg0.N) (r : Fin 1024) (f : Fin 512) :
    blkFeat m c t (ix2 r f) = fpRow m c f ((stp t).val * 1024 + r.val) := by
  rw [blkFeat_apply]
  unfold fpRow
  rw [dif_pos (by have := (stp t).isLt; omega)]
  rfl

theorem packed_plane (c : Dev nD) (i : Fin 16) (k : Fin 32) (b : Fin 1024) :
    packedIdx m c (ix3 i (plane k) b) = neighArg m c (ix2 (nodeOf i b) k) := packed_neigh m c i k b

/-- A row id word of the point's block. -/
theorem rowId (t : Fin cfg0.N) (r : Fin 1024) :
    k0_pay5 (grid0.coords t) (ix2 (0 : Fin 1) r) = BitVec.ofNat 32 ((stp t).val * 1024 + r.val) := by
  rw [pay5_apply, coords1]
  rfl

/-! ## One point's update at an entry -/

theorem step0_apply (c : Dev nD) (t : Fin cfg0.N) (s : S1024x512.Idx → EReal) (b : Fin 1024) (f : Fin 512) :
    k0_pay8 (F := Ideal) (grid0.coords t) (blkIdx m c t) (blkFeat m c t) s (ix2 b f)
      = s (ix2 b f) + sel (wSelf m c t b) (stp t).val (fun r => fpRow m c f ((stp t).val * 1024 + r.val)) := by
  rw [pay8_apply]
  congr 1
  rw [← onehot_block (wSelf m c t b) (stp t).val (stp t).isLt]
  refine Finset.sum_congr rfl fun r _ => ?_
  rw [blkIdx_apply, packed_self, rowId, blkFeat_fp]
  rfl

theorem fpRow_real (c : Dev nD) (hA : Admissible (featArg m c) (wArg m c) (nodesArg m c) (neighArg m c)) (f : Fin 512) (R : ℕ) :
    ∃ x : ℝ, fpRow m c f R = (x : EReal) := by
  unfold fpRow
  split
  · rw [padded_feat]
    split
    · exact hA.feat_real _
    · exact ⟨0, rfl⟩
  · exact ⟨0, rfl⟩

theorem step1_apply (c : Dev nD) (hA : Admissible (featArg m c) (wArg m c) (nodesArg m c) (neighArg m c))
    (t : Fin cfg0.N) (s : S1024x512.Idx → EReal) (b : Fin 1024) (f : Fin 512) :
    k0_pay1 (F := Ideal) (k0_pay7 (blkFeat m c t)) (k0_pay51 (hitWords (k0_pay5 (grid0.coords t)) (k0_pay6 (F := Ideal) (blkIdx m c t)))) s (ix2 b f)
      = s (ix2 b f) + ∑ k : Fin 32, sel (wNb m c t b k) (stp t).val (fun r => fpRow m c f ((stp t).val * 1024 + r.val)) := by
  rw [pay1_apply, pay7_eq]
  congr 1
  rw [← count_block (fun k => wNb m c t b k) (stp t).val (stp t).isLt _ (fun r => fpRow_real m c hA f _)]
  refine Finset.sum_congr rfl fun r _ => ?_
  rw [pay51_apply, hitWords_toInt, blkFeat_fp]
  congr 2
  refine Finset.sum_congr rfl fun k _ => ?_
  rw [pay6_apply, blkIdx_apply, packed_plane, rowId]
  rfl

/-! ## The closed forms, by induction on the point -/

theorem grp_before (t : Fin cfg0.N) (h0 : ¬ t.val % 98 = 0) : grp (before t) = grp t := by
  apply Fin.ext
  show (t.val - 1) / 98 = t.val / 98
  omega

theorem stp_before (t : Fin cfg0.N) (h0 : ¬ t.val % 98 = 0) : (stp (before t)).val + 1 = (stp t).val := by
  show (t.val - 1) % 98 + 1 = t.val % 98
  omega

theorem acc0_closed (c : Dev nD) : ∀ (n : ℕ) (hn : n < cfg0.N) (b : Fin 1024) (f : Fin 512),
    acc0At m c ⟨n, hn⟩ (ix2 b f)
      = if (wSelf m c ⟨n, hn⟩ b).toNat < ((stp ⟨n, hn⟩).val + 1) * 1024 then fpRow m c f (wSelf m c ⟨n, hn⟩ b).toNat else 0 := by
  intro n
  induction n with
  | zero =>
    intro hn b f
    rw [acc0_first m c ⟨0, hn⟩ rfl, step0_apply, pay3_apply]
    have := running (wSelf m c ⟨0, hn⟩ b) (stp ⟨0, hn⟩).val (fpRow m c f)
    rw [show (stp ⟨0, hn⟩).val = 0 from rfl] at this ⊢
    simpa using this
  | succ n ih =>
    intro hn b f
    by_cases h0 : (n + 1) % 98 = 0
    · rw [acc0_first m c ⟨n + 1, hn⟩ h0, step0_apply, pay3_apply]
      have := running (wSelf m c ⟨n + 1, hn⟩ b) (stp ⟨n + 1, hn⟩).val (fpRow m c f)
      rw [show (stp ⟨n + 1, hn⟩).val = 0 from h0] at this ⊢
      simpa using this
    · rw [acc0_next m c ⟨n + 1, hn⟩ h0, step0_apply]
      have hb : before ⟨n + 1, hn⟩ = ⟨n, Nat.lt_of_succ_lt hn⟩ := rfl
      rw [hb, ih (Nat.lt_of_succ_lt hn) b f]
      have hg : grp ⟨n, Nat.lt_of_succ_lt hn⟩ = grp ⟨n + 1, hn⟩ := hb ▸ grp_before ⟨n + 1, hn⟩ h0
      have hs : (stp ⟨n, Nat.lt_of_succ_lt hn⟩).val + 1 = (stp ⟨n + 1, hn⟩).val := hb ▸ stp_before ⟨n + 1, hn⟩ h0
      have hw : wSelf m c ⟨n, Nat.lt_of_succ_lt hn⟩ b = wSelf m c ⟨n + 1, hn⟩ b := by unfold wSelf; rw [hg]
      rw [hw, hs]
      exact running (wSelf m c ⟨n + 1, hn⟩ b) (stp ⟨n + 1, hn⟩).val (fpRow m c f)

theorem acc1_closed (c : Dev nD) (hA : Admissible (featArg m c) (wArg m c) (nodesArg m c) (neighArg m c)) :
    ∀ (n : ℕ) (hn : n < cfg0.N) (b : Fin 1024) (f : Fin 512),
    acc1At m c ⟨n, hn⟩ (ix2 b f)
      = ∑ k : Fin 32, (if (wNb m c ⟨n, hn⟩ b k).toNat < ((stp ⟨n, hn⟩).val + 1) * 1024 then fpRow m c f (wNb m c ⟨n, hn⟩ b k).toNat else 0) := by
  intro n
  induction n with
  | zero =>
    intro hn b f
    rw [acc1_first m c ⟨0, hn⟩ rfl, step1_apply m c hA, pay4_apply, zero_add]
    refine Finset.sum_congr rfl fun k _ => ?_
    have := running (wNb m c ⟨0, hn⟩ b k) (stp ⟨0, hn⟩).val (fpRow m c f)
    rw [show (stp ⟨0, hn⟩).val = 0 from rfl] at this ⊢
    simpa using this
  | succ n ih =>
    intro hn b f
    by_cases h0 : (n + 1) % 98 = 0
    · rw [acc1_first m c ⟨n + 1, hn⟩ h0, step1_apply m c hA, pay4_apply, zero_add]
      refine Finset.sum_congr rfl fun k _ => ?_
      have := running (wNb m c ⟨n + 1, hn⟩ b k) (stp ⟨n + 1, hn⟩).val (fpRow m c f)
      rw [show (stp ⟨n + 1, hn⟩).val = 0 from h0] at this ⊢
      simpa using this
    · rw [acc1_next m c ⟨n + 1, hn⟩ h0, step1_apply m c hA]
      have hb : before ⟨n + 1, hn⟩ = ⟨n, Nat.lt_of_succ_lt hn⟩ := rfl
      rw [hb, ih (Nat.lt_of_succ_lt hn) b f, ← Finset.sum_add_distrib]
      have hg : grp ⟨n, Nat.lt_of_succ_lt hn⟩ = grp ⟨n + 1, hn⟩ := hb ▸ grp_before ⟨n + 1, hn⟩ h0
      have hs : (stp ⟨n, Nat.lt_of_succ_lt hn⟩).val + 1 = (stp ⟨n + 1, hn⟩).val := hb ▸ stp_before ⟨n + 1, hn⟩ h0
      refine Finset.sum_congr rfl fun k _ => ?_
      have hw : wNb m c ⟨n, Nat.lt_of_succ_lt hn⟩ b k = wNb m c ⟨n + 1, hn⟩ b k := by unfold wNb; rw [hg]
      rw [hw, hs]
      exact running (wNb m c ⟨n + 1, hn⟩ b k) (stp ⟨n + 1, hn⟩).val (fpRow m c f)

end Cert.KernelIdeal.KV

end
-- ==== Proof.KernelFinal.lean ====
/- The kernel's result array after the run is the specification's function of the argument arrays. At the last point
   of a group's row of the grid every index word in range lies below 98 * 1024, so the first accumulator holds the nodes'
   own feature rows and the second the sums of their neighbours' rows; the output block stored there is the two weight
   halves (the right one already scaled by 1/32) contracted with them, clipped below at zero: block t / 98 of the
   specification's array. The 16 stored blocks cover the result array. -/
import proofs.«417351_j43052752175741_3_alg».proof.Proof.KernelAccum

set_option maxRecDepth 16384

noncomputable section

namespace Cert.KernelIdeal.KV

open Idealize.ShloMosaic Idealize.ShloMosaic.TcCoe Idealize.ShloMosaic.ValueIdx Idealize.SL.Sem
open Cert.KernelIdeal Cert.KernelIdeal.Gen Cert.KernelIdeal.HostVals Cert.Spec Cert.StepMath

variable (m : (ℓ : Loc nD τ sig) → Buf (Elt Ideal) ℓ) (ρ : Dev nD → PrngReg)

/-- The specification's array of the arguments as launched on core c. -/
abbrev Gm (c : Dev nD) : SOut.Idx → EReal := G (featArg m c) (wArg m c) (nodesArg m c) (neighArg m c)

/-- An index word in range, read unsigned, is the row it names, below the table's end. -/
theorem toNat_of_inRange {w : BitVec 32} (h : InRange w) : w.toNat = (rowOf w).val ∧ w.toNat < 100000 := by
  rw [rowOf_val h]
  unfold InRange at h
  have h1 := BitVec.toInt_eq_toNat_cond w
  have h2 := w.isLt
  split at h1 <;> omega

/-- Column f of the padded table at the row an in-range word names is the feature table's entry. -/
theorem fpRow_inRange (c : Dev nD) (f : Fin 512) {w : BitVec 32} (h : InRange w) :
    fpRow m c f w.toNat = featArg m c (ix2 (rowOf w) f) := by
  obtain ⟨h1, h2⟩ := toNat_of_inRange h
  unfold fpRow
  rw [dif_pos (by omega), padded_feat, dif_pos (show (⟨w.toNat, by omega⟩ : Fin 100352).val < 100000 from h2)]
  congr 2
  exact Fin.ext h1

/-! ## The accumulators at a row's last point -/

theorem acc0_last (c : Dev nD) (hA : Admissible (featArg m c) (wArg m c) (nodesArg m c) (neighArg m c))
    (t : Fin cfg0.N) (h1 : t.val % 98 = 97) (b : Fin 1024) (f : Fin 512) :
    acc0At m c t (ix2 b f) = selfFeat (featArg m c) (nodesArg m c) (nodeOf (grp t) b) f := by
  have hw : InRange (wSelf m c t b) := hA.nodes_in _
  have := acc0_closed m c t.val t.isLt b f
  rw [show (⟨t.val, t.isLt⟩ : Fin cfg0.N) = t from rfl] at this
  rw [this, if_pos (by have := (toNat_of_inRange hw).2; have : (stp t).val = 97 := h1; omega), fpRow_inRange m c f hw]
  rfl

theorem acc1_last (c : Dev nD) (hA : Admissible (featArg m c) (wArg m c) (nodesArg m c) (neighArg m c))
    (t : Fin cfg0.N) (h1 : t.val % 98 = 97) (b : Fin 1024) (f : Fin 512) :
    acc1At m c t (ix2 b f) = neighSum (featArg m c) (neighArg m c) (nodeOf (grp t) b) f := by
  have := acc1_closed m c hA t.val t.isLt b f
  rw [show (⟨t.val, t.isLt⟩ : Fin cfg0.N) = t from rfl] at this
  rw [this]
  unfold neighSum
  refine Finset.sum_congr rfl fun k _ => ?_
  have hw : InRange (wNb m c t b k) := hA.neigh_in _ _
  rw [if_pos (by have := (toNat_of_inRange hw).2; have : (stp t).val = 97 := h1; omega), fpRow_inRange m c f hw]
  rfl

/-! ## The stored output block -/

/-- Node number (group of t) * 1024 + b as a column of the result array. -/
theorem out_entry (c : Dev nD) (hA : Admissible (featArg m c) (wArg m c) (nodesArg m c) (neighArg m c))
    (t : Fin cfg0.N) (h1 : t.val % 98 = 97) (e : Fin 512) (b : Fin 1024) :
    outBlk m c t (ix2 e b) = Gm m c (ix2 e (nodeOf (grp t) b)) := by
  rw [outBlk_last m c t h1, pay2_apply]
  show _ = outAt (featArg m c) (wArg m c) (nodesArg m c) (neighArg m c) e (nodeOf (grp t) b)
  unfold outAt
  congr 2
  · refine Finset.sum_congr rfl fun f _ => ?_
    rw [blkWLo_apply, weight_lo, acc0_last m c hA t h1]
  · refine Finset.sum_congr rfl fun f _ => ?_
    rw [blkWHi_apply, weight_hi, acc1_last m c hA t h1, mul_assoc, mul_comm ((1 / 32 : ℝ) : EReal)]

/-- What a storing point writes back is its block of the specification's array. -/
theorem flushed4_eq (c : Dev nD) (hA : Admissible (featArg m c) (wArg m c) (nodesArg m c) (neighArg m c))
    (t : Fin cfg0.N) (hf : (cfg0.win 4).flush t = true) :
    (dats m 0 c).flushed 4 t = ((cfg0.win 4).blk t).view.read (Elt Ideal) (Gm m c) := by
  have h1 : t.val % 98 = 97 := (flush0_4 t).mp hf
  show (cfg0.win 4).cut (grid0.coords t) ((dats m 0 c).after 4 t) = _
  rw [after0_4]
  obtain ⟨e0, e1⟩ := idxw4 t
  funext j
  show outBlk m c t j = Gm m c (((cfg0.win 4).blk t).view.emb j)
  have hj : j = ix2 (j 0) (j 1) := eq_ix2 j
  have key : ((cfg0.win 4).blk t).view.emb j = ix2 (j 0) (nodeOf (grp t) (j 1)) := by
    funext a; apply Fin.ext
    match a with
    | ⟨0, _⟩ => show win0_4.index t (0 : Fin 2) * 512 + 1 * (j 0).val = (j 0).val; omega
    | ⟨1, _⟩ => show win0_4.index t (1 : Fin 2) * 1024 + 1 * (j 1).val = t.val / 98 * 1024 + (j 1).val; omega
  rw [key, hj]
  exact out_entry m c hA t h1 (j 0) (j 1)

/-! ## The stored blocks cover the result array -/

theorem mem_blk4 (t : Fin cfg0.N) (i : S512x16384.Idx) :
    i ∈ ((cfg0.win 4).blk t).view.set ↔ ∀ a : Fin 2, win0_4.index t a * S512x1024.size a ≤ (i a).val ∧ (i a).val < win0_4.index t a * S512x1024.size a + S512x1024.size a := by
  show i ∈ ((View.whole main_v13).slice (win0_4.rect t)).set ↔ _
  rw [View.set_slice_whole, Rect.mem_set_unit]
  exact Iff.rfl

theorem covered4 (i : S512x16384.Idx) :
    ∃ t : Fin cfg0.N, (cfg0.win 4).flush t = true ∧ i ∈ ((cfg0.win 4).blk t).view.set := by
  have hi0 : (i 0).val < 512 := (i 0).isLt
  have hi1 : (i 1).val < 16384 := (i 1).isLt
  have hN : cfg0.N = 1568 := N_0
  let t : Fin cfg0.N := ⟨(i 1).val / 1024 * 98 + 97, by omega⟩
  have ht : t.val = (i 1).val / 1024 * 98 + 97 := rfl
  obtain ⟨e0, e1⟩ := idxw4 t
  refine ⟨t, (flush0_4 t).mpr (by omega), ?_⟩
  rw [mem_blk4]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 1024 ≤ (i 1).val ∧ (i 1).val < win0_4.index t (1 : Fin 2) * 1024 + 1024; omega

/-- The result array after the run. -/
theorem final4 (c : Dev nD) (hA : Admissible (featArg m c) (wArg m c) (nodesArg m c) (neighArg m c)) :
    (dats m 0 c).arrAt 4 cfg0.N = Gm m c :=
  (dats m 0 c).arrAt_eq_of_cover 4 (Gm m c) (fun t hf => flushed4_eq m c hA t hf) covered4

/-! ## The run, read -/

/-- Every weakly fair execution of the idealized kernel's @main terminates with the result array at the
    specification's function of the arguments, the arguments unchanged. -/
theorem run (hA : ∀ c : Dev nD, Admissible (featArg m c) (wArg m c) (nodesArg m c) (neighArg m c)) :
    θ_run defs (onTc (τ := τ) (main (F := Ideal))) ⟨m, fun _ => 0, ρ⟩ (fun r => ∀ c : Dev nD,
      r.2.mem ((c.tc : Thread nD τ).loc main_v13) = Gm m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨((h c).1 4).trans (final4 m c (hA c)),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩)
    (run_main m ρ)

end Cert.KernelIdeal.KV

end
-- ==== Proof.LibGatherRow.lean ====
import Idealize.ShloMosaic.PureOps.ShapeOps
import Idealize.ShloMosaic.Lib.ValueIdx

/-! # A gather that takes rows of a table, read at an index

`Host.gather d x idx j = x (d.operandIdx j idx)`: on each operand axis the operand index is the clamped start plus the
batching coordinate plus the offset coordinate. Worked out here, at any extents, for the rows of a rank-2 table: operand
`[N, C]`, start indices `[K, 1]` (the index vector on axis 1), result `[K, C]`; the row axis is gathered (collapsed, one
row per start index) and the column axis is the one offset axis, read whole. Result entry `(k, j)` is the table's entry
`(r, j)` with `r` the start index `idx[k, 0]` read as a SIGNED integer and CLAMPED into `[0, N − 1]`
(`gather_rowTake_apply`); for a start index already inside the table the clamp does nothing
(`gather_rowTake_apply_of_lt`). Both are stated for ANY dimension-number record with these fields, the field equations
taken as hypotheses (each is `rfl` at a literal record), and again at the literal record `rowTakeDims`. -/

namespace Idealize.ShloMosaic.GatherRow

open Idealize.ShloMosaic Idealize.ShloMosaic.ValueIdx

/-- A signed word that is non-negative and below `N`, clamped into `[0, N - 1]`, is its own value. -/
theorem clamp_of_lt {w : Nat} (v : BitVec w) {N : Nat} (h0 : 0 ≤ v.toInt) (hN : v.toInt < (N : Int)) :
    min v.toInt.toNat (N - 1) = v.toInt.toNat := by
  apply Nat.min_eq_left
  omega

section
variable {α : Type}

/-- The dimension numbers of a row take: operand `[N, C]`, start indices `[K, 1]`, result `[K, C]`; axis 0 of the operand
    is gathered (collapsed, slice size 1), axis 1 is the offset axis (slice size `C`). Their conditions `wf` are decided
    on a program's literal shapes. -/
abbrev rowTakeDims (N K C : Nat)
    (wf : GatherDims.WF ⟨2, ![N, C]⟩ ⟨2, ![K, 1]⟩ ⟨2, ![K, C]⟩ [1] [0] [] [0] [] 1 ![1, C]) :
    GatherDims ⟨2, ![N, C]⟩ ⟨2, ![K, 1]⟩ ⟨2, ![K, C]⟩ where
  offsetDims := [1]
  collapsedSliceDims := [0]
  operandBatchingDims := []
  startIndicesBatchingDims := []
  startIndexMap := [0]
  indexVectorDim := 1
  sliceSizes := ![1, C]
  wf := wf

/-- The operand index of a row take on the row axis: the start index `idx[k, 0]` read signed and clamped into
    `[0, N − 1]` (the axis is in the start index map, its slice size is `1`), with no batching and no offset coordinate
    (the axis is collapsed). -/
theorem operandIdx_row {N K C w : Nat}
    (wf : GatherDims.WF ⟨2, ![N, C]⟩ ⟨2, ![K, 1]⟩ ⟨2, ![K, C]⟩ [1] [0] [] [0] [] 1 ![1, C])
    (idx : IVec ⟨2, ![K, 1]⟩ w) (k : Fin K) (j : Fin C) :
    (rowTakeDims N K C wf).start (ix2 k j) idx (0 : Fin 2) + (rowTakeDims N K C wf).batchCoord (ix2 k j) (0 : Fin 2)
      + (rowTakeDims N K C wf).offCoord (ix2 k j) (0 : Fin 2) = min (idx (ix2 k (0 : Fin 1))).toInt.toNat (N - 1) := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowTakeDims N K C wf).startIndexMap from List.mem_singleton.mpr rfl)]
  have hsi : (rowTakeDims N K C wf).siIdx (ix2 k j) ⟨List.idxOf (0 : Fin 2) (rowTakeDims N K C wf).startIndexMap,
      List.idxOf_lt_length_iff.2 (List.mem_singleton.mpr rfl)⟩ = ix2 k (0 : Fin 1) := by
    funext e; refine Fin.ext ?_
    match e with
    | ⟨0, _⟩ => rfl
    | ⟨1, _⟩ => rfl
  rw [hsi]
  rfl

/-- The operand index of a row take on the column axis: the result's own column `j` (the axis is the one the offset axis
    reads), with start `0` (the start index map does not name the axis) and no batching coordinate. -/
theorem operandIdx_col {N K C w : Nat}
    (wf : GatherDims.WF ⟨2, ![N, C]⟩ ⟨2, ![K, 1]⟩ ⟨2, ![K, C]⟩ [1] [0] [] [0] [] 1 ![1, C])
    (idx : IVec ⟨2, ![K, 1]⟩ w) (k : Fin K) (j : Fin C) :
    (rowTakeDims N K C wf).start (ix2 k j) idx (1 : Fin 2) + (rowTakeDims N K C wf).batchCoord (ix2 k j) (1 : Fin 2)
      + (rowTakeDims N K C wf).offCoord (ix2 k j) (1 : Fin 2) = j.val := by
  have h10 : (1 : Fin 2) ∉ [(0 : Fin 2)] := by decide
  have hst : (rowTakeDims N K C wf).start (ix2 k j) idx (1 : Fin 2) = 0 := by
    unfold GatherDims.start
    rw [dif_neg (show ¬ (1 : Fin 2) ∈ (rowTakeDims N K C wf).startIndexMap from h10)]
  have hoff : (rowTakeDims N K C wf).offCoord (ix2 k j) (1 : Fin 2) = j.val := by
    unfold GatherDims.offCoord
    rw [dif_pos ((GatherDims.mem_sKept _ _).mpr ⟨h10, List.not_mem_nil⟩)]
    rfl
  rw [GatherDims.batchCoord_eq_zero _ _ _ List.not_mem_nil, hst, hoff, Nat.add_zero, Nat.zero_add]

/-- THE ROW TAKE AT THE LITERAL RECORD, READ AT `(k, j)`: the operand's entry `(r, j)`, `r` the start index `idx[k, 0]`
    read signed and clamped into `[0, N − 1]`: the operand index coordinate by coordinate. -/
theorem gather_rowTakeDims_apply {N K C w : Nat} (hN : 0 < N)
    (wf : GatherDims.WF ⟨2, ![N, C]⟩ ⟨2, ![K, 1]⟩ ⟨2, ![K, C]⟩ [1] [0] [] [0] [] 1 ![1, C])
    (x : (⟨2, ![N, C]⟩ : Shape).Idx → α) (idx : IVec ⟨2, ![K, 1]⟩ w) (k : Fin K) (j : Fin C) :
    Host.gather (rowTakeDims N K C wf) x idx (ix2 k j)
      = x (ix2 ⟨min (idx (ix2 k (0 : Fin 1))).toInt.toNat (N - 1), by omega⟩ j) := by
  unfold Host.gather
  congr 1
  funext a
  refine Fin.ext ?_
  match a with
  | ⟨0, _⟩ => exact operandIdx_row wf idx k j
  | ⟨1, _⟩ => exact operandIdx_col wf idx k j

/-- THE ROW TAKE AT ANY RECORD WITH THESE FIELDS, READ AT `(k, j)`: a record is its fields, so it is the literal one. -/
theorem gather_rowTake_apply {N K C w : Nat} (hN : 0 < N)
    (d : GatherDims ⟨2, ![N, C]⟩ ⟨2, ![K, 1]⟩ ⟨2, ![K, C]⟩)
    (ho : d.offsetDims = [1]) (hc : d.collapsedSliceDims = [0]) (hb : d.operandBatchingDims = [])
    (hsb : d.startIndicesBatchingDims = []) (hm : d.startIndexMap = [0]) (hv : d.indexVectorDim = 1)
    (hs : d.sliceSizes = ![1, C])
    (x : (⟨2, ![N, C]⟩ : Shape).Idx → α) (idx : IVec ⟨2, ![K, 1]⟩ w) (k : Fin K) (j : Fin C) :
    Host.gather d x idx (ix2 k j)
      = x (ix2 ⟨min (idx (ix2 k (0 : Fin 1))).toInt.toNat (N - 1), by omega⟩ j) := by
  obtain ⟨od, cd, ob, sb, sm, iv, ss, wf⟩ := d
  simp only at ho hc hb hsb hm hv hs
  subst ho hc hb hsb hm hv hs
  exact gather_rowTakeDims_apply hN wf x idx k j

/-- The same for a start index inside the table: the clamp does nothing, and the row read is the one the index names. -/
theorem gather_rowTake_apply_of_lt {N K C w : Nat}
    (d : GatherDims ⟨2, ![N, C]⟩ ⟨2, ![K, 1]⟩ ⟨2, ![K, C]⟩)
    (ho : d.offsetDims = [1]) (hc : d.collapsedSliceDims = [0]) (hb : d.operandBatchingDims = [])
    (hsb : d.startIndicesBatchingDims = []) (hm : d.startIndexMap = [0]) (hv : d.indexVectorDim = 1)
    (hs : d.sliceSizes = ![1, C])
    (x : (⟨2, ![N, C]⟩ : Shape).Idx → α) (idx : IVec ⟨2, ![K, 1]⟩ w) (k : Fin K) (j : Fin C)
    (h0 : 0 ≤ (idx (ix2 k (0 : Fin 1))).toInt) (hlt : (idx (ix2 k (0 : Fin 1))).toInt < (N : Int)) :
    Host.gather d x idx (ix2 k j) = x (ix2 ⟨(idx (ix2 k (0 : Fin 1))).toInt.toNat, by omega⟩ j) := by
  rw [gather_rowTake_apply (by omega) d ho hc hb hsb hm hv hs x idx k j]
  congr 2
  exact Fin.ext (clamp_of_lt _ h0 hlt)

end

end Idealize.ShloMosaic.GatherRow
-- ==== Proof.RefValue.lean ====
/- The reference program's result, stage by stage, is the specification's function of the four argument arrays when
   every index word names a row of the feature table: the two gathers then read the rows the words name, the mean is
   the sum times 1/32, and the contraction over 1024 columns is its two halves. -/
import proofs.«417351_j43052752175741_3_alg».proof.Proof.Gen.ReferenceIdeal.Read
import proofs.«417351_j43052752175741_3_alg».proof.Proof.Spec
import proofs.«417351_j43052752175741_3_alg».proof.Proof.LibGatherRow
import Idealize.ShloMosaic.PureOps.Ideal
import Idealize.ShloMosaic.PureOps.Ideal.Laws
import Idealize.ShloMosaic.Lib.ValueIdx
import Idealize.ShloMosaic.Lib.Pipeline.Value
import Mathlib.Algebra.BigOperators.Fin

noncomputable section

namespace Cert.RefValue

open Idealize.ShloMosaic Idealize.ShloMosaic.ValueIdx Cert.Spec

section Stages
open Cert.ReferenceIdeal Cert.ReferenceIdeal.Gen Cert.ReferenceIdeal.Read

/-! ## Rows of a table taken at a rank-2 array of start indices

Operand `[N, C]`, start indices `[K, L, 1]` (the index vector on axis 2), result `[K, L, C]`: the row axis of the operand
is gathered (collapsed, one row per start index), the column axis is the one offset axis, read whole. Result entry
`(k, l, j)` is the table's entry `(r, j)`, `r` the start index `idx[k, l, 0]` read signed and clamped into `[0, N − 1]`. -/

section RowTake3
variable {α : Type}

/-- The dimension numbers of such a row take, as a literal record. -/
abbrev rowTake3Dims (N K L C : Nat)
    (wf : GatherDims.WF ⟨2, ![N, C]⟩ ⟨3, ![K, L, 1]⟩ ⟨3, ![K, L, C]⟩ [2] [0] [] [0] [] 2 ![1, C]) :
    GatherDims ⟨2, ![N, C]⟩ ⟨3, ![K, L, 1]⟩ ⟨3, ![K, L, C]⟩ where
  offsetDims := [2]
  collapsedSliceDims := [0]
  operandBatchingDims := []
  startIndicesBatchingDims := []
  startIndexMap := [0]
  indexVectorDim := 2
  sliceSizes := ![1, C]
  wf := wf

/-- On the row axis the operand index is the clamped start index: no batching coordinate (there is no batching axis), no
    offset coordinate (the axis is collapsed). -/
theorem rowTake3_row {N K L C w : Nat}
    (wf : GatherDims.WF ⟨2, ![N, C]⟩ ⟨3, ![K, L, 1]⟩ ⟨3, ![K, L, C]⟩ [2] [0] [] [0] [] 2 ![1, C])
    (idx : IVec ⟨3, ![K, L, 1]⟩ w) (k : Fin K) (l : Fin L) (j : Fin C) :
    (rowTake3Dims N K L C wf).start (ix3 k l j) idx (0 : Fin 2) + (rowTake3Dims N K L C wf).batchCoord (ix3 k l j) (0 : Fin 2)
      + (rowTake3Dims N K L C wf).offCoord (ix3 k l j) (0 : Fin 2)
      = min (idx (ix3 k l (0 : Fin 1))).toInt.toNat (N - 1) := by
  have hb : (rowTake3Dims N K L C wf).batchCoord (ix3 k l j) (0 : Fin 2) = 0 :=
    GatherDims.batchCoord_eq_zero _ _ _ List.not_mem_nil
  have ho : (rowTake3Dims N K L C wf).offCoord (ix3 k l j) (0 : Fin 2) = 0 :=
    GatherDims.offCoord_eq_zero _ _ _ (fun h => ((GatherDims.mem_sKept _ _).mp h).1 (List.mem_singleton.mpr rfl))
  rw [hb, ho]
  simp only [Nat.add_zero]
  unfold GatherDims.start
  rw [dif_pos (show (0 : Fin 2) ∈ (rowTake3Dims N K L C wf).startIndexMap from List.mem_singleton.mpr rfl)]
  have hsi : (rowTake3Dims N K L C wf).siIdx (ix3 k l j) ⟨List.idxOf (0 : Fin 2) (rowTake3Dims N K L C wf).startIndexMap,
      List.idxOf_lt_length_iff.2 (List.mem_singleton.mpr rfl)⟩ = ix3 k l (0 : Fin 1) := by
    funext e; refine Fin.ext ?_
    match e with
    | ⟨0, _⟩ => rfl
    | ⟨1, _⟩ => rfl
    | ⟨2, _⟩ => rfl
  rw [hsi]
  rfl

/-- On the column axis the operand index is the result's own column: start `0` (the start index map does not name the
    axis), no batching coordinate, and the offset coordinate the result's coordinate on its one offset axis. -/
theorem rowTake3_col {N K L C w : Nat}
    (wf : GatherDims.WF ⟨2, ![N, C]⟩ ⟨3, ![K, L, 1]⟩ ⟨3, ![K, L, C]⟩ [2] [0] [] [0] [] 2 ![1, C])
    (idx : IVec ⟨3, ![K, L, 1]⟩ w) (k : Fin K) (l : Fin L) (j : Fin C) :
    (rowTake3Dims N K L C wf).start (ix3 k l j) idx (1 : Fin 2) + (rowTake3Dims N K L C wf).batchCoord (ix3 k l j) (1 : Fin 2)
      + (rowTake3Dims N K L C wf).offCoord (ix3 k l j) (1 : Fin 2) = j.val := by
  have h10 : (1 : Fin 2) ∉ [(0 : Fin 2)] := by decide
  have hst : (rowTake3Dims N K L C wf).start (ix3 k l j) idx (1 : Fin 2) = 0 := by
    unfold GatherDims.start
    rw [dif_neg (show ¬ (1 : Fin 2) ∈ (rowTake3Dims N K L C wf).startIndexMap from h10)]
  have hb : (rowTake3Dims N K L C wf).batchCoord (ix3 k l j) (1 : Fin 2) = 0 :=
    GatherDims.batchCoord_eq_zero _ _ _ List.not_mem_nil
  have ho : (rowTake3Dims N K L C wf).offCoord (ix3 k l j) (1 : Fin 2) = j.val := by
    unfold GatherDims.offCoord
    rw [dif_pos ((GatherDims.mem_sKept _ _).mpr ⟨h10, List.not_mem_nil⟩)]
    rfl
  rw [hst, hb, ho, Nat.add_zero, Nat.zero_add]

/-- The row take at the literal record, read at `(k, l, j)`. -/
theorem gather_rowTake3Dims_apply {N K L C w : Nat} (hN : 0 < N)
    (wf : GatherDims.WF ⟨2, ![N, C]⟩ ⟨3, ![K, L, 1]⟩ ⟨3, ![K, L, C]⟩ [2] [0] [] [0] [] 2 ![1, C])
    (x : (⟨2, ![N, C]⟩ : Shape).Idx → α) (idx : IVec ⟨3, ![K, L, 1]⟩ w) (k : Fin K) (l : Fin L) (j : Fin C) :
    Host.gather (rowTake3Dims N K L C wf) x idx (ix3 k l j)
      = x (ix2 ⟨min (idx (ix3 k l (0 : Fin 1))).toInt.toNat (N - 1), by omega⟩ j) := by
  unfold Host.gather
  congr 1
  funext a
  refine Fin.ext ?_
  match a with
  | ⟨0, _⟩ => exact rowTake3_row wf idx k l j
  | ⟨1, _⟩ => exact rowTake3_col wf idx k l j

/-- The same at any record with these fields (a record is its fields), for a start index inside the table: the clamp
    does nothing, and the row read is the one the index names. -/
theorem gather_rowTake3_apply_of_lt {N K L C w : Nat}
    (d : GatherDims ⟨2, ![N, C]⟩ ⟨3, ![K, L, 1]⟩ ⟨3, ![K, L, C]⟩)
    (ho : d.offsetDims = [2]) (hc : d.collapsedSliceDims = [0]) (hb : d.operandBatchingDims = [])
    (hsb : d.startIndicesBatchingDims = []) (hm : d.startIndexMap = [0]) (hv : d.indexVectorDim = 2)
    (hs : d.sliceSizes = ![1, C])
    (x : (⟨2, ![N, C]⟩ : Shape).Idx → α) (idx : IVec ⟨3, ![K, L, 1]⟩ w) (k : Fin K) (l : Fin L) (j : Fin C)
    (h0 : 0 ≤ (idx (ix3 k l (0 : Fin 1))).toInt) (hlt : (idx (ix3 k l (0 : Fin 1))).toInt < (N : Int)) :
    Host.gather d x idx (ix3 k l j) = x (ix2 ⟨(idx (ix3 k l (0 : Fin 1))).toInt.toNat, by omega⟩ j) := by
  obtain ⟨od, cd, ob, sb, sm, iv, ss, wf⟩ := d
  simp only at ho hc hb hsb hm hv hs
  subst ho hc hb hsb hm hv hs
  rw [gather_rowTake3Dims_apply (by omega) wf x idx k l j]
  congr 2
  exact Fin.ext (GatherRow.clamp_of_lt _ h0 hlt)

end RowTake3

/-! ## Words: the index a gather is given -/

/-- A word that is not negative, read signed, is kept by the select on "is negative". -/
theorem select_neg_keep (x y : BitVec 32) (h : 0 ≤ x.toInt) :
    Scalar.select (IntOp.cmpi .slt x 0#32) y x = x := by
  have hlt : x.slt 0#32 = false := by
    simp only [BitVec.slt, BitVec.toInt_zero, decide_eq_false_iff_not, Int.not_lt]
    exact h
  show (if BitVec.ofBool (x.slt 0#32) = 1 then y else x) = x
  rw [hlt]
  rfl

/-- The start index the first gather is given for node `b` is the node's own word. -/
theorem v15_at (nodes : IVec S16384 32) (b : Fin 16384) (h : InRange (nodes (ix1 b))) :
    val_main_v15 (F := Ideal) nodes (ix2 b (0 : Fin 1)) = nodes (ix1 b) := by
  have e : idx_main_v15 (ix2 b (0 : Fin 1)) = ix1 b := by
    funext a; match a with | ⟨0, _⟩ => rfl
  rw [val_main_v15_apply, e, val_main_v14_apply, val_main_v11_apply, val_main_v10_apply, val_main_c_2_apply]
  exact select_neg_keep _ _ h.1

/-- The start index the second gather is given for neighbour `k` of node `b` is that neighbour's own word. -/
theorem v5_at (neigh : IVec S16384x32 32) (b : Fin 16384) (k : Fin 32) (h : InRange (neigh (ix2 b k))) :
    val_main_v5 (F := Ideal) neigh (ix3 b k (0 : Fin 1)) = neigh (ix2 b k) := by
  have e : idx_main_v5 (ix3 b k (0 : Fin 1)) = ix2 b k := by
    funext a; match a with | ⟨0, _⟩ => rfl | ⟨1, _⟩ => rfl
  rw [val_main_v5_apply, e, val_main_v4_apply, val_main_v1_apply, val_main_v0_apply, val_main_c_apply]
  exact select_neg_keep _ _ h.1

/-! ## The two gathers -/

/-- Entry `(b, j)` of the first gather is entry `j` of the feature row node `b`'s word names. -/
theorem v16_at (feat : FVec Ideal S100000x512 .f32) (nodes : IVec S16384 32)
    (hn : ∀ b : Fin 16384, InRange (nodes (ix1 b))) (b : Fin 16384) (j : Fin 512) :
    val_main_v16 (F := Ideal) feat nodes (ix2 b j) = selfFeat feat nodes b j := by
  have hw := v15_at nodes b (hn b)
  have h := hn b
  unfold val_main_v16 selfFeat
  refine (GatherRow.gather_rowTake_apply_of_lt gather_S100000x512_S16384x1_S16384x512_1_0_n_n_0_1_1512
    rfl rfl rfl rfl rfl rfl rfl feat (val_main_v15 (F := Ideal) nodes) b j (by rw [hw]; exact h.1) (by rw [hw]; exact h.2)).trans ?_
  congr 2
  refine Fin.ext ?_
  show (val_main_v15 (F := Ideal) nodes (ix2 b (0 : Fin 1))).toInt.toNat = (rowOf (nodes (ix1 b))).val
  rw [hw, rowOf_val h]

/-- Entry `(b, k, j)` of the second gather is entry `j` of the feature row the word of neighbour `k` of node `b` names. -/
theorem v6_at (feat : FVec Ideal S100000x512 .f32) (neigh : IVec S16384x32 32)
    (hk : ∀ (b : Fin 16384) (k : Fin 32), InRange (neigh (ix2 b k))) (b : Fin 16384) (k : Fin 32) (j : Fin 512) :
    val_main_v6 (F := Ideal) feat neigh (ix3 b k j) = feat (ix2 (rowOf (neigh (ix2 b k))) j) := by
  have hw := v5_at neigh b k (hk b k)
  have h := hk b k
  unfold val_main_v6
  refine (gather_rowTake3_apply_of_lt gather_S100000x512_S16384x32x1_S16384x32x512_2_0_n_n_0_2_1512
    rfl rfl rfl rfl rfl rfl rfl feat (val_main_v5 (F := Ideal) neigh) b k j (by rw [hw]; exact h.1) (by rw [hw]; exact h.2)).trans ?_
  congr 2
  refine Fin.ext ?_
  show (val_main_v5 (F := Ideal) neigh (ix3 b k (0 : Fin 1))).toInt.toNat = (rowOf (neigh (ix2 b k))).val
  rw [hw, rowOf_val h]

/-! ## The mean over the 32 neighbours -/

/-- The float word `0x42000000` denotes the real number 32. -/
theorem ofBits_32 : Ideal.ofBits .f32 0x42000000#32 = ((32 : ℝ) : EReal) := by
  simp [Ideal.ofBits, Ideal.ieee, -EReal.coe_mul]; norm_num

/-- Entry `(b, j)` of the sum over axis 1 is the sum of the 32 neighbours' feature rows at `j`. -/
theorem v7_at (feat : FVec Ideal S100000x512 .f32) (neigh : IVec S16384x32 32)
    (hk : ∀ (b : Fin 16384) (k : Fin 32), InRange (neigh (ix2 b k))) (b : Fin 16384) (j : Fin 512) :
    val_main_v7 (F := Ideal) feat neigh (ix2 b j) = neighSum feat neigh b j := by
  rw [val_main_v7_apply, val_main_cst_apply, Ideal.ofBits_def, Ideal.ofBits_zero_f32, zero_add]
  unfold neighSum
  refine Finset.sum_congr rfl fun k _ => ?_
  have e : idx_main_v7 (ix2 b j) k = ix3 b k j := by
    funext a; match a with | ⟨0, _⟩ => rfl | ⟨1, _⟩ => rfl | ⟨2, _⟩ => rfl
  rw [e, v6_at feat neigh hk b k j]

/-- Entry `(b, j)` of the mean is that sum times 1/32. -/
theorem v9_at (feat : FVec Ideal S100000x512 .f32) (neigh : IVec S16384x32 32)
    (hk : ∀ (b : Fin 16384) (k : Fin 32), InRange (neigh (ix2 b k))) (b : Fin 16384) (j : Fin 512) :
    val_main_v9 (F := Ideal) feat neigh (ix2 b j) = neighSum feat neigh b j * ((1 / 32 : ℝ) : EReal) := by
  rw [val_main_v9_apply, val_main_v8_apply, val_main_cst_1_apply, v7_at feat neigh hk b j, Ideal.hostDivf_def,
    Ideal.ofBits_def, ofBits_32]
  exact Ideal.div_coe (by norm_num) _

/-! ## The combined row, and the contraction -/

/-- Columns 0..511 of the combined row are the node's own feature row. -/
theorem v17_lo (feat : FVec Ideal S100000x512 .f32) (nodes : IVec S16384 32) (neigh : IVec S16384x32 32)
    (b : Fin 16384) (j : Fin 512) :
    val_main_v17 (F := Ideal) feat nodes neigh (ix2 b (colLo j)) = val_main_v16 (F := Ideal) feat nodes (ix2 b j) := by
  unfold val_main_v17
  exact concatenate_pair_apply_left (t := S16384x1024) (s₁ := S16384x512) (s₂ := S16384x512) (1 : Fin 2) _ _
    concatenates_S16384x512_S16384x512_S16384x1024_d1 (ix2 b (colLo j)) rfl (ix2 b j)
    (fun a => match a with | ⟨0, _⟩ => rfl | ⟨1, _⟩ => rfl)

/-- Columns 512..1023 of the combined row are the mean of the neighbours' feature rows. -/
theorem v17_hi (feat : FVec Ideal S100000x512 .f32) (nodes : IVec S16384 32) (neigh : IVec S16384x32 32)
    (b : Fin 16384) (j : Fin 512) :
    val_main_v17 (F := Ideal) feat nodes neigh (ix2 b (colHi j)) = val_main_v9 (F := Ideal) feat neigh (ix2 b j) := by
  unfold val_main_v17
  exact concatenate_pair_apply_right (t := S16384x1024) (s₁ := S16384x512) (s₂ := S16384x512) (1 : Fin 2) _ _
    concatenates_S16384x512_S16384x512_S16384x1024_d1 (ix2 b (colHi j)) rfl rfl (ix2 b j)
    (fun a => match a with | ⟨0, _⟩ => fun _ => rfl | ⟨1, _⟩ => fun h => absurd rfl h)
    (Nat.add_comm _ _)

/-- A sum over 1024 columns is the sum over the lower 512 plus the sum over the upper 512. -/
theorem sum_halves (f : Fin 1024 → EReal) :
    ∑ k : Fin 1024, f k = (∑ j : Fin 512, f (colLo j)) + ∑ j : Fin 512, f (colHi j) := by
  have h := Fin.sum_univ_add (M := EReal) (a := 512) (b := 512) (fun k : Fin (512 + 512) => f k)
  exact h

/-- Entry `(e, b)` of the product: weight row `e` contracted with node `b`'s combined row. -/
theorem v19_at (feat : FVec Ideal S100000x512 .f32) (w : FVec Ideal S512x1024 .f32) (nodes : IVec S16384 32)
    (neigh : IVec S16384x32 32) (e : Fin 512) (b : Fin 16384) :
    val_main_v19 (F := Ideal) feat w nodes neigh (ix2 e b)
      = ∑ k : Fin 1024, w (ix2 e k) * val_main_v17 (F := Ideal) feat nodes neigh (ix2 b k) := by
  rw [val_main_v19_apply]
  refine Finset.sum_congr rfl fun k _ => ?_
  have e1 : lidx_main_v19 (ix2 e b) k = ix2 e k := by
    funext a; match a with | ⟨0, _⟩ => rfl | ⟨1, _⟩ => rfl
  have e2 : idx_main_v18 (ridx_main_v19 (ix2 e b) k) = ix2 b k := by
    funext a; match a with | ⟨0, _⟩ => rfl | ⟨1, _⟩ => rfl
  rw [val_main_v18_apply, e1, e2]

end Stages

/-- THE REFERENCE'S VALUE: at every output entry the reference computes the specification's function. -/
theorem ref_eq_G
    (feat : FVec Ideal Cert.ReferenceIdeal.S100000x512 .f32) (w : FVec Ideal Cert.ReferenceIdeal.S512x1024 .f32)
    (nodes : IVec Cert.ReferenceIdeal.S16384 32) (neigh : IVec Cert.ReferenceIdeal.S16384x32 32)
    (hn : ∀ b : Fin 16384, InRange (nodes (ix1 b))) (hk : ∀ (b : Fin 16384) (k : Fin 32), InRange (neigh (ix2 b k))) :
    Cert.ReferenceIdeal.Read.val_main_v20 (F := Ideal) feat w nodes neigh = G feat w nodes neigh := by
  funext i
  obtain ⟨e, b, rfl⟩ : ∃ (e : Fin 512) (b : Fin 16384), i = ix2 e b := ⟨i 0, i 1, eq_ix2 i⟩
  rw [G_apply, Cert.ReferenceIdeal.Read.val_main_v20_apply, Cert.ReferenceIdeal.Read.val_main_call0_v0_apply,
    Cert.ReferenceIdeal.Read.val_main_call0_cst_apply, Ideal.ofBits_def,
    Ideal.ofBits_zero_f32, Ideal.maximumf_def, v19_at, sum_halves]
  unfold outAt
  congr 2
  · refine Finset.sum_congr rfl fun j _ => ?_
    rw [v17_lo, v16_at feat nodes hn b j]
  · refine Finset.sum_congr rfl fun j _ => ?_
    rw [v17_hi, v9_at feat neigh hk b j]

end Cert.RefValue

end
-- ==== Proof.PreFacts.lean ====
/- What the precondition says of the four argument arrays, read off its printed text: every entry of the feature table
   and of the weight matrix is a real number, and every index word, read signed, lies in [0, 100000). -/
import proofs.«417351_j43052752175741_3_alg».proof.Proof.Gen.Pre_finite_inputs
import proofs.«417351_j43052752175741_3_alg».proof.Proof.Spec
import Idealize.ShloMosaic.PureOps.Ideal
import Idealize.ShloMosaic.Lib.ReduceAll
import Idealize.ShloMosaic.Lib.StableHlo.Predicate

noncomputable section

namespace Cert.PreFacts

open Idealize.ShloMosaic Idealize.ShloMosaic.ValueIdx Cert.Spec

/-- The one index set of the scalar shape has one element. -/
instance : Subsingleton Cert.Pre_finite_inputs.S_.Idx := ⟨fun a b => funext fun d => d.elim0⟩

/-- The f32 pattern 0x7F800000 denotes +∞. -/
theorem inf_bits : Ideal.ofBits .f32 0x7F800000#32 = (⊤ : EReal) := by
  simp [Ideal.ofBits, Ideal.ieee]

/-- An extended real whose absolute value max x (−x) is below +∞ is a real number. -/
theorem real_of_abs_lt_inf (x : EReal)
    (hx : Ideal.cmp .olt (max x (-x)) (Ideal.ofBits .f32 0x7F800000#32) = 1#1) : ∃ r : ℝ, x = (r : EReal) := by
  rw [inf_bits] at hx
  simp only [Ideal.cmp, StableHlo.Predicate.ofBool_eq_one_iff, decide_eq_true_eq] at hx
  induction x using EReal.rec with
  | bot => simp at hx
  | coe r => exact ⟨r, rfl⟩
  | top => simp at hx

/-- A word that tests ≥ 0 and < 100000, both signed, lies in [0, 100000) read signed. -/
theorem inRange_of_cmp (x : BitVec 32) (h0 : IntOp.cmpi .sge x 0#32 = 1#1) (h1 : IntOp.cmpi .slt x 100000#32 = 1#1) :
    InRange x := by
  rw [IntOp.cmpi_sge] at h0
  rw [IntOp.cmpi_slt] at h1
  have z : (0#32 : BitVec 32).toInt = 0 := by decide
  have c : (100000#32 : BitVec 32).toInt = 100000 := by decide
  rw [z] at h0
  rw [c] at h1
  exact ⟨h0, h1⟩

theorem admissible_of_pre
    (feat : FVec Ideal Cert.Pre_finite_inputs.S100000x512 .f32) (w : FVec Ideal Cert.Pre_finite_inputs.S512x1024 .f32)
    (nodes : IVec Cert.Pre_finite_inputs.S16384 32) (neigh : IVec Cert.Pre_finite_inputs.S16384x32 32)
    (h : Cert.Pre_finite_inputs.fn (F := Ideal) feat w nodes neigh = fun _ => 1#1) :
    Admissible feat w nodes neigh := by
  have e := congrFun h ix0
  dsimp only [Cert.Pre_finite_inputs.fn, Cert.Pre_finite_inputs.fn_part1] at e
  obtain ⟨e, hg⟩ := IntOp.andi_eq_one.1 e
  obtain ⟨e, hn⟩ := IntOp.andi_eq_one.1 e
  obtain ⟨hf, hw⟩ := IntOp.andi_eq_one.1 e
  refine ⟨fun i => ?_, fun i => ?_, fun b => ?_, fun b k => ?_⟩
  · exact real_of_abs_lt_inf (feat i) (Host.reduce_andi_all _ _ _ _ _ hf i)
  · exact real_of_abs_lt_inf (w i) (Host.reduce_andi_all _ _ _ _ _ hw i)
  · obtain ⟨h0, h1⟩ := IntOp.andi_eq_one.1 (Host.reduce_andi_all _ _ _ _ _ hn (ix1 b))
    exact inRange_of_cmp _ h0 h1
  · obtain ⟨h0, h1⟩ := IntOp.andi_eq_one.1 (Host.reduce_andi_all _ _ _ _ _ hg (ix2 b k))
    exact inRange_of_cmp _ h0 h1

end Cert.PreFacts

end
-- ==== Proof.lean ====
/- The certificate's claim. A GraphSAGE mean aggregator: for each of 16384 nodes, the node's own feature row and the mean
   of its 32 sampled neighbours' rows are concatenated, multiplied by the weight matrix and clipped below at zero. The
   kernel finds the rows by comparing index words against row ids block by block (a one-hot matrix and a matrix of hit
   counts, each multiplied with the block of the table) and folds the 1/32 of the mean into the right half of the weight
   matrix; the reference gathers the rows. Over the extended reals, for finite features and weights and index words
   that name rows of the table, both compute the specification's function `Cert.Spec.G`:
   the kernel's result array by the frame of its one pallas_call read point by point (Proof/KernelFinal.lean), the
   reference's by its run read stage by stage (Proof/RefValue.lean). The three frames: each kernel program's from the
   launch of its region (Proof/FrameKernel/Frame.lean, Proof/FrameKernelIdeal/Frame.lean), the reference's from its
   run. The ideal pass rewrote nothing, so the idealization is the program's own text. -/
import proofs.«417351_j43052752175741_3_alg».proof.Defs
import proofs.«417351_j43052752175741_3_alg».proof.Proof.Gen.Kernel
import proofs.«417351_j43052752175741_3_alg».proof.Proof.Gen.KernelIdeal
import proofs.«417351_j43052752175741_3_alg».proof.Proof.Gen.ReferenceIdeal
import proofs.«417351_j43052752175741_3_alg».proof.Proof.Gen.ReferenceIdeal.Run
import proofs.«417351_j43052752175741_3_alg».proof.Proof.Gen.ReferenceIdeal.Read
import proofs.«417351_j43052752175741_3_alg».proof.Proof.Gen.Pre_finite_inputs
import proofs.«417351_j43052752175741_3_alg».proof.Proof.FrameKernel.Frame
import proofs.«417351_j43052752175741_3_alg».proof.Proof.FrameKernelIdeal.Frame
import proofs.«417351_j43052752175741_3_alg».proof.Proof.KernelFinal
import proofs.«417351_j43052752175741_3_alg».proof.Proof.RefValue
import proofs.«417351_j43052752175741_3_alg».proof.Proof.PreFacts
import Idealize.ShloMosaic.Adequacy
import Idealize.ShloMosaic.Init

noncomputable section

namespace Cert.Proof

open Idealize.ShloMosaic Idealize.ShloMosaic.TcCoe Idealize.SL.Sem
open Cert.KernelIdeal.HostVals Cert.KernelIdeal.KV

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with the specification's array of the arguments: the kernel's by its run read point by
    point, the reference's by its run read stage by stage; the precondition gives what both readings need. -/
theorem algebraic : Cert.algebraic_KernelIdeal_ReferenceIdeal := by
  intro m ρ m' ρ' hpre hagree
  have hA : ∀ c : Dev Cert.KernelIdeal.nD, Cert.Spec.Admissible (featArg m c) (wArg m c) (nodesArg m c) (neighArg m c) :=
    fun c => Cert.PreFacts.admissible_of_pre _ _ _ _ (hpre c)
  refine ⟨fun c => Gm m c, Cert.KernelIdeal.KV.run m ρ hA, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact (Cert.ReferenceIdeal.Read.val_main_v20_eq (F := Ideal) (featArg m c) (wArg m c) (nodesArg m c) (neighArg m c)).trans
    (Cert.RefValue.ref_eq_G (featArg m c) (wArg m c) (nodesArg m c) (neighArg m c) (hA c).nodes_in (hA c).neigh_in)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
